-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S2x1600000 : S_.BroadcastsInDim S2x1600000 (![] : Fin 0 → Fin S2x1600000.rank)
  reducesTo_S2x1600000_S_d0_1 : S2x1600000.ReducesTo [0, 1] S_

variable [Facts]

def fn {F : FTy → Type} [FloatOps F] (main_arg0 : FVec F S100000x32 .f32) (main_arg1 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_c_0 : IVec S_ 32 := constantI S_ 32 0#32
  let main_v4 : IVec S2x1600000 32 := broadcastInDim S2x1600000 ![] bcast_S_S2x1600000 main_c_0
  let main_v5 : IVec S2x1600000 1 := cmpi .sge main_arg1 main_v4
  let main_c_1 : IVec S_ 1 := constantI S_ 1 1#1
  let main_v6 : IVec S_ 1 := (fun x v => Host.reduce IntOp.andi x v reducesTo_S2x1600000_S_d0_1 h_S_) main_v5 main_c_1
  let main_v7 : IVec S_ 1 := andi main_v3 main_v6
  let main_c_2 : IVec S_ 32 := constantI S_ 32 100000#32
  let main_v8 : IVec S2x1600000 32 := broadcastInDim S2x1600000 ![] bcast_S_S2x1600000 main_c_2
  let main_v9 : IVec S2x1600000 1 := cmpi .slt main_arg1 main_v8
  let main_c_3 : IVec S_ 1 := constantI S_ 1 1#1
  let main_v10 : IVec S_ 1 := (fun x v => Host.reduce IntOp.andi x v reducesTo_S2x1600000_S_d0_1 h_S_) main_v9 main_c_3
  let main_v11 : IVec S_ 1 := andi main_v7 main_v10
  main_v11
-- ==== Kernel.lean ====
abbrev S100000x32 : Shape := ⟨2, ![100000, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x32 : Shape := ⟨2, ![1600000, 32]⟩
abbrev S6400x32 : Shape := ⟨2, ![6400, 32]⟩
abbrev S6400x1 : Shape := ⟨2, ![6400, 1]⟩
abbrev S6400 : Shape := ⟨1, ![6400]⟩

abbrev nBuf : Space → Nat
  | .hbm => 311
  | .vmem => 70
  | .smem => 0
  | _ => 0

abbrev hbmTy0_0 (i : Nat) : BufTy := match i % 128 with
  | 0 => ⟨S100000x32, .f32⟩
  | 1 => ⟨S2x1600000, .i32⟩
  | 2 => ⟨S1x1600000, .i32⟩
  | 3 => ⟨S1600000, .i32⟩
  | 4 => ⟨S1x1600000, .i32⟩
  | 5 => ⟨S1600000, .i32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1, .i32⟩
  | 15 => ⟨S_, .i32⟩
  | 16 => ⟨S1600000x1, .i32⟩
  | 17 => ⟨S1600000x1, .i1⟩
  | 18 => ⟨S1x1, .i32⟩
  | 19 => ⟨S1600000x1, .i32⟩
  | 20 => ⟨S1600000x1, .i1⟩
  | 21 => ⟨S1600000x1, .i1⟩
  | 22 => ⟨S_, .i1⟩
  | 23 => ⟨S1600000, .i1⟩
  | 24 => ⟨S1600000x32, .f32⟩
  | 25 => ⟨S1600000x32, .i1⟩
  | 26 => ⟨S_, .f32⟩
  | 27 => ⟨S1600000x32, .f32⟩
  | 28 => ⟨S1600000x32, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1, .i32⟩
  | 38 => ⟨S_, .i32⟩
  | 39 => ⟨S1600000x1, .i32⟩
  | 40 => ⟨S1600000x1, .i1⟩
  | 41 => ⟨S1x1, .i32⟩
  | 42 => ⟨S1600000x1, .i32⟩
  | 43 => ⟨S1600000x1, .i1⟩
  | 44 => ⟨S1600000x1, .i1⟩
  | 45 => ⟨S_, .i1⟩
  | 46 => ⟨S1600000, .i1⟩
  | 47 => ⟨S1600000x32, .f32⟩
  | 48 => ⟨S1600000x32, .i1⟩
  | 49 => ⟨S_, .f32⟩
  | 50 => ⟨S1600000x32, .f32⟩
  | 51 => ⟨S1600000x32, .f32⟩
  | 52 => ⟨S1600000x32, .f32⟩
  | 53 => ⟨S1600000x1, .f32⟩
  | 54 => ⟨S_, .f32⟩
  | 55 => ⟨S_, .f32⟩
  | 56 => ⟨S1600000x32, .f32⟩
  | 57 => ⟨S_, .f32⟩
  | 58 => ⟨S100000x32, .f32⟩
  | 59 => ⟨S1600000x1, .i32⟩
  | 60 => ⟨S100000x32, .f32⟩
  | 61 => ⟨S_, .f32⟩
  | 62 => ⟨S_, .f32⟩
  | 63 => ⟨S_, .f32⟩
  | 64 => ⟨S100000x32, .f32⟩
  | 65 => ⟨S100000x32, .f32⟩
  | 66 => ⟨S100000x32, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1, .i32⟩
  | 76 => ⟨S_, .i32⟩
  | 77 => ⟨S1600000x1, .i32⟩
  | 78 => ⟨S1600000x1, .i1⟩
  | 79 => ⟨S1x1, .i32⟩
  | 80 => ⟨S1600000x1, .i32⟩
  | 81 => ⟨S1600000x1, .i1⟩
  | 82 => ⟨S1600000x1, .i1⟩
  | 83 => ⟨S_, .i1⟩
  | 84 => ⟨S1600000, .i1⟩
  | 85 => ⟨S1600000x32, .f32⟩
  | 86 => ⟨S1600000x32, .i1⟩
  | 87 => ⟨S_, .f32⟩
  | 88 => ⟨S1600000x32, .f32⟩
  | 89 => ⟨S1600000x32, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1, .i32⟩
  | 99 => ⟨S_, .i32⟩
  | 100 => ⟨S1600000x1, .i32⟩
  | 101 => ⟨S1600000x1, .i1⟩
  | 102 => ⟨S1x1, .i32⟩
  | 103 => ⟨S1600000x1, .i32⟩
  | 104 => ⟨S1600000x1, .i1⟩
  | 105 => ⟨S1600000x1, .i1⟩
  | 106 => ⟨S_, .i1⟩
  | 107 => ⟨S1600000, .i1⟩
  | 108 => ⟨S1600000x32, .f32⟩
  | 109 => ⟨S1600000x32, .i1⟩
  | 110 => ⟨S_, .f32⟩
  | 111 => ⟨S1600000x32, .f32⟩
  | 112 => ⟨S1600000x32, .f32⟩
  | 113 => ⟨S1600000x32, .f32⟩
  | 114 => ⟨S1600000x1, .f32⟩
  | 115 => ⟨S_, .f32⟩
  | 116 => ⟨S_, .f32⟩
  | 117 => ⟨S1600000x32, .f32⟩
  | 118 => ⟨S_, .f32⟩
  | 119 => ⟨S100000x32, .f32⟩
  | 120 => ⟨S1600000x1, .i32⟩
  | 121 => ⟨S100000x32, .f32⟩
  | 122 => ⟨S_, .f32⟩
  | 123 => ⟨S_, .f32⟩
  | 124 => ⟨S_, .f32⟩
  | 125 => ⟨S100000x32, .f32⟩
  | 126 => ⟨S100000x32, .f32⟩
  | 127 => ⟨S100000x32, .f32⟩
  | _ => ⟨S100000x32, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1, .i32⟩
  | 9 => ⟨S_, .i32⟩
  | 10 => ⟨S1600000x1, .i32⟩
  | 11 => ⟨S1600000x1, .i1⟩
  | 12 => ⟨S1x1, .i32⟩
  | 13 => ⟨S1600000x1, .i32⟩
  | 14 => ⟨S1600000x1, .i1⟩
  | 15 => ⟨S1600000x1, .i1⟩
  | 16 => ⟨S_, .i1⟩
  | 17 => ⟨S1600000, .i1⟩
  | 18 => ⟨S1600000x32, .f32⟩
  | 19 => ⟨S1600000x32, .i1⟩
  | 20 => ⟨S_, .f32⟩
  | 21 => ⟨S1600000x32, .f32⟩
  | 22 => ⟨S1600000x32, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1, .i32⟩
  | 32 => ⟨S_, .i32⟩
  | 33 => ⟨S1600000x1, .i32⟩
  | 34 => ⟨S1600000x1, .i1⟩
  | 35 => ⟨S1x1, .i32⟩
  | 36 => ⟨S1600000x1, .i32⟩
  | 37 => ⟨S1600000x1, .i1⟩
  | 38 => ⟨S1600000x1, .i1⟩
  | 39 => ⟨S_, .i1⟩
  | 40 => ⟨S1600000, .i1⟩
  | 41 => ⟨S1600000x32, .f32⟩
  | 42 => ⟨S1600000x32, .i1⟩
  | 43 => ⟨S_, .f32⟩
  | 44 => ⟨S1600000x32, .f32⟩
  | 45 => ⟨S1600000x32, .f32⟩
  | 46 => ⟨S1600000x32, .f32⟩
  | 47 => ⟨S1600000x1, .f32⟩
  | 48 => ⟨S_, .f32⟩
  | 49 => ⟨S_, .f32⟩
  | 50 => ⟨S1600000x32, .f32⟩
  | 51 => ⟨S_, .f32⟩
  | 52 => ⟨S100000x32, .f32⟩
  | 53 => ⟨S1600000x1, .i32⟩
  | 54 => ⟨S100000x32, .f32⟩
  | 55 => ⟨S_, .f32⟩
  | 56 => ⟨S_, .f32⟩
  | 57 => ⟨S_, .f32⟩
  | 58 => ⟨S100000x32, .f32⟩
  | 59 => ⟨S100000x32, .f32⟩
  | 60 => ⟨S100000x32, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1, .i32⟩
  | 70 => ⟨S_, .i32⟩
  | 71 => ⟨S1600000x1, .i32⟩
  | 72 => ⟨S1600000x1, .i1⟩
  | 73 => ⟨S1x1, .i32⟩
  | 74 => ⟨S1600000x1, .i32⟩
  | 75 => ⟨S1600000x1, .i1⟩
  | 76 => ⟨S1600000x1, .i1⟩
  | 77 => ⟨S_, .i1⟩
  | 78 => ⟨S1600000, .i1⟩
  | 79 => ⟨S1600000x32, .f32⟩
  | 80 => ⟨S1600000x32, .i1⟩
  | 81 => ⟨S_, .f32⟩
  | 82 => ⟨S1600000x32, .f32⟩
  | 83 => ⟨S1600000x32, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1, .i32⟩
  | 93 => ⟨S_, .i32⟩
  | 94 => ⟨S1600000x1, .i32⟩
  | 95 => ⟨S1600000x1, .i1⟩
  | 96 => ⟨S1x1, .i32⟩
  | 97 => ⟨S1600000x1, .i32⟩
  | 98 => ⟨S1600000x1, .i1⟩
  | 99 => ⟨S1600000x1, .i1⟩
  | 100 => ⟨S_, .i1⟩
  | 101 => ⟨S1600000, .i1⟩
  | 102 => ⟨S1600000x32, .f32⟩
  | 103 => ⟨S1600000x32, .i1⟩
  | 104 => ⟨S_, .f32⟩
  | 105 => ⟨S1600000x32, .f32⟩
  | 106 => ⟨S1600000x32, .f32⟩
  | 107 => ⟨S1600000x32, .f32⟩
  | 108 => ⟨S1600000x1, .f32⟩
  | 109 => ⟨S_, .f32⟩
  | 110 => ⟨S_, .f32⟩
  | 111 => ⟨S1600000x32, .f32⟩
  | 112 => ⟨S_, .f32⟩
  | 113 => ⟨S100000x32, .f32⟩
  | 114 => ⟨S1600000x1, .i32⟩
  | 115 => ⟨S100000x32, .f32⟩
  | 116 => ⟨S_, .f32⟩
  | 117 => ⟨S_, .f32⟩
  | 118 => ⟨S_, .f32⟩
  | 119 => ⟨S100000x32, .f32⟩
  | 120 => ⟨S100000x32, .f32⟩
  | 121 => ⟨S100000x32, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x32, .f32⟩

abbrev hbmTy0_2 (i : Nat) : BufTy := match i % 128 with
  | 0 => ⟨S1600000, .i32⟩
  | 1 => ⟨S1600000x1, .i32⟩
  | 2 => ⟨S1, .i32⟩
  | 3 => ⟨S_, .i32⟩
  | 4 => ⟨S1600000x1, .i32⟩
  | 5 => ⟨S1600000x1, .i1⟩
  | 6 => ⟨S1x1, .i32⟩
  | 7 => ⟨S1600000x1, .i32⟩
  | 8 => ⟨S1600000x1, .i1⟩
  | 9 => ⟨S1600000x1, .i1⟩
  | 10 => ⟨S_, .i1⟩
  | 11 => ⟨S1600000, .i1⟩
  | 12 => ⟨S1600000x32, .f32⟩
  | 13 => ⟨S1600000x32, .i1⟩
  | 14 => ⟨S_, .f32⟩
  | 15 => ⟨S1600000x32, .f32⟩
  | 16 => ⟨S1600000x32, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1, .i32⟩
  | 26 => ⟨S_, .i32⟩
  | 27 => ⟨S1600000x1, .i32⟩
  | 28 => ⟨S1600000x1, .i1⟩
  | 29 => ⟨S1x1, .i32⟩
  | 30 => ⟨S1600000x1, .i32⟩
  | 31 => ⟨S1600000x1, .i1⟩
  | 32 => ⟨S1600000x1, .i1⟩
  | 33 => ⟨S_, .i1⟩
  | 34 => ⟨S1600000, .i1⟩
  | 35 => ⟨S1600000x32, .f32⟩
  | 36 => ⟨S1600000x32, .i1⟩
  | 37 => ⟨S_, .f32⟩
  | 38 => ⟨S1600000x32, .f32⟩
  | 39 => ⟨S1600000x32, .f32⟩
  | 40 => ⟨S1600000x32, .f32⟩
  | 41 => ⟨S1600000x1, .f32⟩
  | 42 => ⟨S_, .f32⟩
  | 43 => ⟨S_, .f32⟩
  | 44 => ⟨S1600000x32, .f32⟩
  | 45 => ⟨S_, .f32⟩
  | 46 => ⟨S100000x32, .f32⟩
  | 47 => ⟨S1600000x1, .i32⟩
  | 48 => ⟨S100000x32, .f32⟩
  | 49 => ⟨S_, .f32⟩
  | 50 => ⟨S_, .f32⟩
  | 51 => ⟨S_, .f32⟩
  | 52 => ⟨S100000x32, .f32⟩
  | 53 => ⟨S100000x32, .f32⟩
  | 54 => ⟨S100000x32, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S6400x32, .f32⟩
  | .local _ .vmem, ⟨1, _⟩ => ⟨S6400x32, .f32⟩
  | .local _ .vmem, ⟨2, _⟩ => ⟨S6400x32, .f32⟩
  | .local _ .vmem, ⟨3, _⟩ => ⟨S6400x32, .f32⟩
  | .local _ .vmem, ⟨4, _⟩ => ⟨S6400x32, .f32⟩
  | .local _ .vmem, ⟨5, _⟩ => ⟨S6400x32, .f32⟩
  | .local _ .vmem, ⟨6, _⟩ => ⟨S6400x1, .f32⟩
  | .local _ .vmem, ⟨7, _⟩ => ⟨S6400x1, .f32⟩
  | .local _ .vmem, ⟨8, _⟩ => ⟨S6400x32, .f32⟩
  | .local _ .vmem, ⟨9, _⟩ => ⟨S6400x32, .f32⟩
  | .local _ .vmem, ⟨10, _⟩ => ⟨S6400x1, .f32⟩
  | .local _ .vmem, ⟨11, _⟩ => ⟨S6400x1, .f32⟩
  | .local _ .vmem, ⟨12, _⟩ => ⟨S6400x32, .f32⟩
  | .local _ .vmem, ⟨13, _⟩ => ⟨S6400x32, .f32⟩
  | .local _ .vmem, ⟨14, _⟩ => ⟨S6400x32, .f32⟩
  | .local _ .vmem, ⟨15, _⟩ => ⟨S6400x32, .f32⟩
  | .local _ .vmem, ⟨16, _⟩ => ⟨S6400x32, .f32⟩
  | .local _ .vmem, ⟨17, _⟩ => ⟨S6400x32, .f32⟩
  | .local _ .vmem, ⟨18, _⟩ => ⟨S6400x32, .f32⟩
  | .local _ .vmem, ⟨19, _⟩ => ⟨S6400x32, .f32⟩
  | .local _ .vmem, ⟨20, _⟩ => ⟨S6400x1, .f32⟩
  | .local _ .vmem, ⟨21, _⟩ => ⟨S6400x1, .f32⟩
  | .local _ .vmem, ⟨22, _⟩ => ⟨S6400x32, .f32⟩
  | .local _ .vmem, ⟨23, _⟩ => ⟨S6400x32, .f32⟩
  | .local _ .vmem, ⟨24, _⟩ => ⟨S6400x1, .f32⟩
  | .local _ .vmem, ⟨25, _⟩ => ⟨S6400x1, .f32⟩
  | .local _ .vmem, ⟨26, _⟩ => ⟨S6400x32, .f32⟩
  | .local _ .vmem, ⟨27, _⟩ => ⟨S6400x32, .f32⟩
  | .local _ .vmem, ⟨28, _⟩ => ⟨S6400x32, .f32⟩
  | .local _ .vmem, ⟨29, _⟩ => ⟨S6400x32, .f32⟩
  | .local _ .vmem, ⟨30, _⟩ => ⟨S6400x32, .f32⟩
  | .local _ .vmem, ⟨31, _⟩ => ⟨S6400x32, .f32⟩
  | .local _ .vmem, ⟨32, _⟩ => ⟨S6400x32, .f32⟩
  | .local _ .vmem, ⟨33, _⟩ => ⟨S6400x32, .f32⟩
  | .local _ .vmem, ⟨34, _⟩ => ⟨S6400x1, .f32⟩
  | .local _ .vmem, ⟨35, _⟩ => ⟨S6400x1, .f32⟩
  | .local _ .vmem, ⟨36, _⟩ => ⟨S6400x32, .f32⟩
  | .local _ .vmem, ⟨37, _⟩ => ⟨S6400x32, .f32⟩
  | .local _ .vmem, ⟨38, _⟩ => ⟨S6400x1, .f32⟩
  | .local _ .vmem, ⟨39, _⟩ => ⟨S6400x1, .f32⟩
  | .local _ .vmem, ⟨40, _⟩ => ⟨S6400x32, .f32⟩
  | .local _ .vmem, ⟨41, _⟩ => ⟨S6400x32, .f32⟩
  | .local _ .vmem, ⟨42, _⟩ => ⟨S6400x32, .f32⟩
  | .local _ .vmem, ⟨43, _⟩ => ⟨S6400x32, .f32⟩
  | .local _ .vmem, ⟨44, _⟩ => ⟨S6400x32, .f32⟩
  | .local _ .vmem, ⟨45, _⟩ => ⟨S6400x32, .f32⟩
  | .local _ .vmem, ⟨46, _⟩ => ⟨S6400x32, .f32⟩
  | .local _ .vmem, ⟨47, _⟩ => ⟨S6400x32, .f32⟩
  | .local _ .vmem, ⟨48, _⟩ => ⟨S6400x1, .f32⟩
  | .local _ .vmem, ⟨49, _⟩ => ⟨S6400x1, .f32⟩
  | .local _ .vmem, ⟨50, _⟩ => ⟨S6400x32, .f32⟩
  | .local _ .vmem, ⟨51, _⟩ => ⟨S6400x32, .f32⟩
  | .local _ .vmem, ⟨52, _⟩ => ⟨S6400x1, .f32⟩
  | .local _ .vmem, ⟨53, _⟩ => ⟨S6400x1, .f32⟩
  | .local _ .vmem, ⟨54, _⟩ => ⟨S6400x32, .f32⟩
  | .local _ .vmem, ⟨55, _⟩ => ⟨S6400x32, .f32⟩
  | .local _ .vmem, ⟨56, _⟩ => ⟨S6400x32, .f32⟩
  | .local _ .vmem, ⟨57, _⟩ => ⟨S6400x32, .f32⟩
  | .local _ .vmem, ⟨58, _⟩ => ⟨S6400x32, .f32⟩
  | .local _ .vmem, ⟨59, _⟩ => ⟨S6400x32, .f32⟩
  | .local _ .vmem, ⟨60, _⟩ => ⟨S6400x32, .f32⟩
  | .local _ .vmem, ⟨61, _⟩ => ⟨S6400x32, .f32⟩
  | .local _ .vmem, ⟨62, _⟩ => ⟨S6400x1, .f32⟩
  | .local _ .vmem, ⟨63, _⟩ => ⟨S6400x1, .f32⟩
  | .local _ .vmem, ⟨64, _⟩ => ⟨S6400x32, .f32⟩
  | .local _ .vmem, ⟨65, _⟩ => ⟨S6400x32, .f32⟩
  | .local _ .vmem, ⟨66, _⟩ => ⟨S6400x1, .f32⟩
  | .local _ .vmem, ⟨67, _⟩ => ⟨S6400x1, .f32⟩
  | .local _ .vmem, ⟨68, _⟩ => ⟨S6400x32, .f32⟩
  | .local _ .vmem, ⟨69, _⟩ => ⟨S6400x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6_0 : Ref sig .tc := ⟨.hbm, 52, rfl⟩
abbrev main_v6_1 : Ref sig .tc := ⟨.hbm, 53, rfl⟩
abbrev main_cst : Ref sig .tc := ⟨.hbm, 54, rfl⟩
abbrev main_v7 : Ref sig .tc := ⟨.hbm, 55, rfl⟩
abbrev main_v8 : Ref sig .tc := ⟨.hbm, 56, rfl⟩
abbrev main_cst_0 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_1 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v17 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v18 : Ref sig .tc := ⟨.hbm, 112, rfl⟩
abbrev main_v19_0 : Ref sig .tc := ⟨.hbm, 113, rfl⟩
abbrev main_v19_1 : Ref sig .tc := ⟨.hbm, 114, rfl⟩
abbrev main_cst_2 : Ref sig .tc := ⟨.hbm, 115, rfl⟩
abbrev main_v20 : Ref sig .tc := ⟨.hbm, 116, rfl⟩
abbrev main_v21 : Ref sig .tc := ⟨.hbm, 117, rfl⟩
abbrev main_cst_3 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_cst_4 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_call4_c : Ref sig .tc := ⟨.hbm, 128, rfl⟩
abbrev main_call4_v0 : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_c_1 : Ref sig .tc := ⟨.hbm, 136, rfl⟩
abbrev main_call4_c_2 : Ref sig .tc := ⟨.hbm, 137, rfl⟩
abbrev main_call4_v6 : Ref sig .tc := ⟨.hbm, 138, rfl⟩
abbrev main_call4_v7 : Ref sig .tc := ⟨.hbm, 139, rfl⟩
abbrev main_call4_v8 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_c_3 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_call4_cst : Ref sig .tc := ⟨.hbm, 148, rfl⟩
abbrev main_call4_v15 : Ref sig .tc := ⟨.hbm, 149, rfl⟩
abbrev main_v30 : Ref sig .tc := ⟨.hbm, 150, rfl⟩
abbrev main_call5_c : Ref sig .tc := ⟨.hbm, 151, rfl⟩
abbrev main_call5_v0 : Ref sig .tc := ⟨.hbm, 152, rfl⟩
abbrev main_call5_v1 : Ref sig .tc := ⟨.hbm, 153, rfl⟩
abbrev main_call5_c_0 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_c_1 : Ref sig .tc := ⟨.hbm, 159, rfl⟩
abbrev main_call5_c_2 : Ref sig .tc := ⟨.hbm, 160, rfl⟩
abbrev main_call5_v6 : Ref sig .tc := ⟨.hbm, 161, rfl⟩
abbrev main_call5_v7 : Ref sig .tc := ⟨.hbm, 162, rfl⟩
abbrev main_call5_v8 : Ref sig .tc := ⟨.hbm, 163, rfl⟩
abbrev main_call5_v9 : Ref sig .tc := ⟨.hbm, 164, rfl⟩
abbrev main_call5_v10 : Ref sig .tc := ⟨.hbm, 165, rfl⟩
abbrev main_call5_v11 : Ref sig .tc := ⟨.hbm, 166, rfl⟩
abbrev main_call5_c_3 : Ref sig .tc := ⟨.hbm, 167, rfl⟩
abbrev main_call5_v12 : Ref sig .tc := ⟨.hbm, 168, rfl⟩
abbrev main_call5_v13 : Ref sig .tc := ⟨.hbm, 169, rfl⟩
abbrev main_call5_v14 : Ref sig .tc := ⟨.hbm, 170, rfl⟩
abbrev main_call5_cst : Ref sig .tc := ⟨.hbm, 171, rfl⟩
abbrev main_call5_v15 : Ref sig .tc := ⟨.hbm, 172, rfl⟩
abbrev main_v31 : Ref sig .tc := ⟨.hbm, 173, rfl⟩
abbrev main_v32_0 : Ref sig .tc := ⟨.hbm, 174, rfl⟩
abbrev main_v32_1 : Ref sig .tc := ⟨.hbm, 175, rfl⟩
abbrev main_cst_5 : Ref sig .tc := ⟨.hbm, 176, rfl⟩
abbrev main_v33 : Ref sig .tc := ⟨.hbm, 177, rfl⟩
abbrev main_v34 : Ref sig .tc := ⟨.hbm, 178, rfl⟩
abbrev main_cst_6 : Ref sig .tc := ⟨.hbm, 179, rfl⟩
abbrev main_v35 : Ref sig .tc := ⟨.hbm, 180, rfl⟩
abbrev main_v36 : Ref sig .tc := ⟨.hbm, 181, rfl⟩
abbrev main_v37 : Ref sig .tc := ⟨.hbm, 182, rfl⟩
abbrev main_v38 : Ref sig .tc := ⟨.hbm, 183, rfl⟩
abbrev main_cst_7 : Ref sig .tc := ⟨.hbm, 184, rfl⟩
abbrev main_v39 : Ref sig .tc := ⟨.hbm, 185, rfl⟩
abbrev main_v40 : Ref sig .tc := ⟨.hbm, 186, rfl⟩
abbrev main_v41 : Ref sig .tc := ⟨.hbm, 187, rfl⟩
abbrev main_v42 : Ref sig .tc := ⟨.hbm, 188, rfl⟩
abbrev main_call6_c : Ref sig .tc := ⟨.hbm, 189, rfl⟩
abbrev main_call6_v0 : Ref sig .tc := ⟨.hbm, 190, rfl⟩
abbrev main_call6_v1 : Ref sig .tc := ⟨.hbm, 191, rfl⟩
abbrev main_call6_c_0 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_call6_v5 : Ref sig .tc := ⟨.hbm, 196, rfl⟩
abbrev main_call6_c_1 : Ref sig .tc := ⟨.hbm, 197, rfl⟩
abbrev main_call6_c_2 : Ref sig .tc := ⟨.hbm, 198, rfl⟩
abbrev main_call6_v6 : Ref sig .tc := ⟨.hbm, 199, rfl⟩
abbrev main_call6_v7 : Ref sig .tc := ⟨.hbm, 200, rfl⟩
abbrev main_call6_v8 : Ref sig .tc := ⟨.hbm, 201, rfl⟩
abbrev main_call6_v9 : Ref sig .tc := ⟨.hbm, 202, rfl⟩
abbrev main_call6_v10 : Ref sig .tc := ⟨.hbm, 203, rfl⟩
abbrev main_call6_v11 : Ref sig .tc := ⟨.hbm, 204, rfl⟩
abbrev main_call6_c_3 : Ref sig .tc := ⟨.hbm, 205, rfl⟩
abbrev main_call6_v12 : Ref sig .tc := ⟨.hbm, 206, rfl⟩
abbrev main_call6_v13 : Ref sig .tc := ⟨.hbm, 207, rfl⟩
abbrev main_call6_v14 : Ref sig .tc := ⟨.hbm, 208, rfl⟩
abbrev main_call6_cst : Ref sig .tc := ⟨.hbm, 209, rfl⟩
abbrev main_call6_v15 : Ref sig .tc := ⟨.hbm, 210, rfl⟩
abbrev main_v43 : Ref sig .tc := ⟨.hbm, 211, rfl⟩
abbrev main_call7_c : Ref sig .tc := ⟨.hbm, 212, rfl⟩
abbrev main_call7_v0 : Ref sig .tc := ⟨.hbm, 213, rfl⟩
abbrev main_call7_v1 : Ref sig .tc := ⟨.hbm, 214, rfl⟩
abbrev main_call7_c_0 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_call7_v5 : Ref sig .tc := ⟨.hbm, 219, rfl⟩
abbrev main_call7_c_1 : Ref sig .tc := ⟨.hbm, 220, rfl⟩
abbrev main_call7_c_2 : Ref sig .tc := ⟨.hbm, 221, rfl⟩
abbrev main_call7_v6 : Ref sig .tc := ⟨.hbm, 222, rfl⟩
abbrev main_call7_v7 : Ref sig .tc := ⟨.hbm, 223, rfl⟩
abbrev main_call7_v8 : Ref sig .tc := ⟨.hbm, 224, rfl⟩
abbrev main_call7_v9 : Ref sig .tc := ⟨.hbm, 225, rfl⟩
abbrev main_call7_v10 : Ref sig .tc := ⟨.hbm, 226, rfl⟩
abbrev main_call7_v11 : Ref sig .tc := ⟨.hbm, 227, rfl⟩
abbrev main_call7_c_3 : Ref sig .tc := ⟨.hbm, 228, rfl⟩
abbrev main_call7_v12 : Ref sig .tc := ⟨.hbm, 229, rfl⟩
abbrev main_call7_v13 : Ref sig .tc := ⟨.hbm, 230, rfl⟩
abbrev main_call7_v14 : Ref sig .tc := ⟨.hbm, 231, rfl⟩
abbrev main_call7_cst : Ref sig .tc := ⟨.hbm, 232, rfl⟩
abbrev main_call7_v15 : Ref sig .tc := ⟨.hbm, 233, rfl⟩
abbrev main_v44 : Ref sig .tc := ⟨.hbm, 234, rfl⟩
abbrev main_v45_0 : Ref sig .tc := ⟨.hbm, 235, rfl⟩
abbrev main_v45_1 : Ref sig .tc := ⟨.hbm, 236, rfl⟩
abbrev main_cst_8 : Ref sig .tc := ⟨.hbm, 237, rfl⟩
abbrev main_v46 : Ref sig .tc := ⟨.hbm, 238, rfl⟩
abbrev main_v47 : Ref sig .tc := ⟨.hbm, 239, rfl⟩
abbrev main_cst_9 : Ref sig .tc := ⟨.hbm, 240, rfl⟩
abbrev main_v48 : Ref sig .tc := ⟨.hbm, 241, rfl⟩
abbrev main_v49 : Ref sig .tc := ⟨.hbm, 242, rfl⟩
abbrev main_v50 : Ref sig .tc := ⟨.hbm, 243, rfl⟩
abbrev main_v51 : Ref sig .tc := ⟨.hbm, 244, rfl⟩
abbrev main_cst_10 : Ref sig .tc := ⟨.hbm, 245, rfl⟩
abbrev main_v52 : Ref sig .tc := ⟨.hbm, 246, rfl⟩
abbrev main_v53 : Ref sig .tc := ⟨.hbm, 247, rfl⟩
abbrev main_v54 : Ref sig .tc := ⟨.hbm, 248, rfl⟩
abbrev main_v55 : Ref sig .tc := ⟨.hbm, 249, rfl⟩
abbrev main_call8_c : Ref sig .tc := ⟨.hbm, 250, rfl⟩
abbrev main_call8_v0 : Ref sig .tc := ⟨.hbm, 251, rfl⟩
abbrev main_call8_v1 : Ref sig .tc := ⟨.hbm, 252, rfl⟩
abbrev main_call8_c_0 : Ref sig .tc := ⟨.hbm, 253, rfl⟩
abbrev main_call8_v2 : Ref sig .tc := ⟨.hbm, 254, rfl⟩
abbrev main_call8_v3 : Ref sig .tc := ⟨.hbm, 255, rfl⟩
abbrev main_call8_v4 : Ref sig .tc := ⟨.hbm, 256, rfl⟩
abbrev main_call8_v5 : Ref sig .tc := ⟨.hbm, 257, rfl⟩
abbrev main_call8_c_1 : Ref sig .tc := ⟨.hbm, 258, rfl⟩
abbrev main_call8_c_2 : Ref sig .tc := ⟨.hbm, 259, rfl⟩
abbrev main_call8_v6 : Ref sig .tc := ⟨.hbm, 260, rfl⟩
abbrev main_call8_v7 : Ref sig .tc := ⟨.hbm, 261, rfl⟩
abbrev main_call8_v8 : Ref sig .tc := ⟨.hbm, 262, rfl⟩
abbrev main_call8_v9 : Ref sig .tc := ⟨.hbm, 263, rfl⟩
abbrev main_call8_v10 : Ref sig .tc := ⟨.hbm, 264, rfl⟩
abbrev main_call8_v11 : Ref sig .tc := ⟨.hbm, 265, rfl⟩
abbrev main_call8_c_3 : Ref sig .tc := ⟨.hbm, 266, rfl⟩
abbrev main_call8_v12 : Ref sig .tc := ⟨.hbm, 267, rfl⟩
abbrev main_call8_v13 : Ref sig .tc := ⟨.hbm, 268, rfl⟩
abbrev main_call8_v14 : Ref sig .tc := ⟨.hbm, 269, rfl⟩
abbrev main_call8_cst : Ref sig .tc := ⟨.hbm, 270, rfl⟩
abbrev main_call8_v15 : Ref sig .tc := ⟨.hbm, 271, rfl⟩
abbrev main_v56 : Ref sig .tc := ⟨.hbm, 272, rfl⟩
abbrev main_call9_c : Ref sig .tc := ⟨.hbm, 273, rfl⟩
abbrev main_call9_v0 : Ref sig .tc := ⟨.hbm, 274, rfl⟩
abbrev main_call9_v1 : Ref sig .tc := ⟨.hbm, 275, rfl⟩
abbrev main_call9_c_0 : Ref sig .tc := ⟨.hbm, 276, rfl⟩
abbrev main_call9_v2 : Ref sig .tc := ⟨.hbm, 277, rfl⟩
abbrev main_call9_v3 : Ref sig .tc := ⟨.hbm, 278, rfl⟩
abbrev main_call9_v4 : Ref sig .tc := ⟨.hbm, 279, rfl⟩
abbrev main_call9_v5 : Ref sig .tc := ⟨.hbm, 280, rfl⟩
abbrev main_call9_c_1 : Ref sig .tc := ⟨.hbm, 281, rfl⟩
abbrev main_call9_c_2 : Ref sig .tc := ⟨.hbm, 282, rfl⟩
abbrev main_call9_v6 : Ref sig .tc := ⟨.hbm, 283, rfl⟩
abbrev main_call9_v7 : Ref sig .tc := ⟨.hbm, 284, rfl⟩
abbrev main_call9_v8 : Ref sig .tc := ⟨.hbm, 285, rfl⟩
abbrev main_call9_v9 : Ref sig .tc := ⟨.hbm, 286, rfl⟩
abbrev main_call9_v10 : Ref sig .tc := ⟨.hbm, 287, rfl⟩
abbrev main_call9_v11 : Ref sig .tc := ⟨.hbm, 288, rfl⟩
abbrev main_call9_c_3 : Ref sig .tc := ⟨.hbm, 289, rfl⟩
abbrev main_call9_v12 : Ref sig .tc := ⟨.hbm, 290, rfl⟩
abbrev main_call9_v13 : Ref sig .tc := ⟨.hbm, 291, rfl⟩
abbrev main_call9_v14 : Ref sig .tc := ⟨.hbm, 292, rfl⟩
abbrev main_call9_cst : Ref sig .tc := ⟨.hbm, 293, rfl⟩
abbrev main_call9_v15 : Ref sig .tc := ⟨.hbm, 294, rfl⟩
abbrev main_v57 : Ref sig .tc := ⟨.hbm, 295, rfl⟩
abbrev main_v58_0 : Ref sig .tc := ⟨.hbm, 296, rfl⟩
abbrev main_v58_1 : Ref sig .tc := ⟨.hbm, 297, rfl⟩
abbrev main_cst_11 : Ref sig .tc := ⟨.hbm, 298, rfl⟩
abbrev main_v59 : Ref sig .tc := ⟨.hbm, 299, rfl⟩
abbrev main_v60 : Ref sig .tc := ⟨.hbm, 300, rfl⟩
abbrev main_cst_12 : Ref sig .tc := ⟨.hbm, 301, rfl⟩
abbrev main_v61 : Ref sig .tc := ⟨.hbm, 302, rfl⟩
abbrev main_v62 : Ref sig .tc := ⟨.hbm, 303, rfl⟩
abbrev main_v63 : Ref sig .tc := ⟨.hbm, 304, rfl⟩
abbrev main_v64 : Ref sig .tc := ⟨.hbm, 305, rfl⟩
abbrev main_cst_13 : Ref sig .tc := ⟨.hbm, 306, rfl⟩
abbrev main_v65 : Ref sig .tc := ⟨.hbm, 307, rfl⟩
abbrev main_v66 : Ref sig .tc := ⟨.hbm, 308, rfl⟩
abbrev main_v67 : Ref sig .tc := ⟨.hbm, 309, rfl⟩
abbrev main_v68 : Ref sig .tc := ⟨.hbm, 310, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc8_stg3_0 : Ref sig .tc := ⟨.vmem, 62, rfl⟩
abbrev cc8_stg3_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg2_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc8_sem3_0 : DmaSem sig := 62
abbrev cc8_sem3_1 : DmaSem sig := 63
abbrev cc9_sem0_0 : DmaSem sig := 64
abbrev cc9_sem0_1 : DmaSem sig := 65
abbrev cc9_sem1_0 : DmaSem sig := 66
abbrev cc9_sem1_1 : DmaSem sig := 67
abbrev cc9_sem2_0 : DmaSem sig := 68
abbrev cc9_sem2_1 : DmaSem sig := 69

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S6400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6400x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6400x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S6400x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![250], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6400x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6400x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6400x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![250], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6400x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6400x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S6400x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S6400x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![250], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6400x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6400x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![250], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S6400x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S6400x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S6400x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S6400x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![250], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S6400x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S6400x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S6400x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  reduces_S6400x32_S6400 : S6400x32.Reduces [1] S6400
  shapeCasts_S6400_S6400x1 : S6400.ShapeCasts S6400x1
  inb_S6400x1_S6400x1_0_0 : ∀ a, (![0, 0] : Fin 2 → Nat) a + S6400x1.size a ≤ S6400x1.size a
  h_S6400x1 : 0 < S6400x1.numel
  reducesTo_S1600000x1_S_d0_1 : S1600000x1.ReducesTo [0, 1] S_
  shapeCasts_S6400x1_S6400x1 : S6400x1.ShapeCasts S6400x1
  broadcasts_S6400x1_S6400x32 : S6400x1.Broadcasts S6400x32
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x32.size a ≤ S1600000x32.size a
  hwx0_0 : ∀ i : grid0.Coords, EltTy.bits .f32 = 32 ∨ (Rect.block (s := S1600000x32) S6400x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S1600000x32.size a
  hwx0_1 : ∀ i : grid0.Coords, EltTy.bits .f32 = 32 ∨ (Rect.block (s := S1600000x32) S6400x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S1600000x32.size a
  hwx0_2 : ∀ i : grid0.Coords, EltTy.bits .f32 = 32 ∨ (Rect.block (s := S1600000x32) S6400x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x1.size a ≤ S1600000x1.size a
  hwx0_3 : ∀ i : grid0.Coords, EltTy.bits .f32 = 32 ∨ (Rect.block (s := S1600000x1) S6400x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x32.size a ≤ S1600000x32.size a
  hwx1_0 : ∀ i : grid1.Coords, EltTy.bits .f32 = 32 ∨ (Rect.block (s := S1600000x32) S6400x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S1600000x1.size a
  hwx1_1 : ∀ i : grid1.Coords, EltTy.bits .f32 = 32 ∨ (Rect.block (s := S1600000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x32.size a ≤ S1600000x32.size a
  hwx1_2 : ∀ i : grid1.Coords, EltTy.bits .f32 = 32 ∨ (Rect.block (s := S1600000x32) S6400x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x32.size a ≤ S1600000x32.size a
  hwx2_0 : ∀ i : grid2.Coords, EltTy.bits .f32 = 32 ∨ (Rect.block (s := S1600000x32) S6400x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x32.size a ≤ S1600000x32.size a
  hwx2_1 : ∀ i : grid2.Coords, EltTy.bits .f32 = 32 ∨ (Rect.block (s := S1600000x32) S6400x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x32.size a ≤ S1600000x32.size a
  hwx2_2 : ∀ i : grid2.Coords, EltTy.bits .f32 = 32 ∨ (Rect.block (s := S1600000x32) S6400x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6400x1.size a ≤ S1600000x1.size a
  hwx2_3 : ∀ i : grid2.Coords, EltTy.bits .f32 = 32 ∨ (Rect.block (s := S1600000x1) S6400x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x32.size a ≤ S1600000x32.size a
  hwx3_0 : ∀ i : grid3.Coords, EltTy.bits .f32 = 32 ∨ (Rect.block (s := S1600000x32) S6400x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x1.size a ≤ S1600000x1.size a
  hwx3_1 : ∀ i : grid3.Coords, EltTy.bits .f32 = 32 ∨ (Rect.block (s := S1600000x1) S6400x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x32.size a ≤ S1600000x32.size a
  hwx3_2 : ∀ i : grid3.Coords, EltTy.bits .f32 = 32 ∨ (Rect.block (s := S1600000x32) S6400x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x32.size a ≤ S1600000x32.size a
  hwx4_0 : ∀ i : grid4.Coords, EltTy.bits .f32 = 32 ∨ (Rect.block (s := S1600000x32) S6400x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x32.size a ≤ S1600000x32.size a
  hwx4_1 : ∀ i : grid4.Coords, EltTy.bits .f32 = 32 ∨ (Rect.block (s := S1600000x32) S6400x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6400x32.size a ≤ S1600000x32.size a
  hwx4_2 : ∀ i : grid4.Coords, EltTy.bits .f32 = 32 ∨ (Rect.block (s := S1600000x32) S6400x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6400x1.size a ≤ S1600000x1.size a
  hwx4_3 : ∀ i : grid4.Coords, EltTy.bits .f32 = 32 ∨ (Rect.block (s := S1600000x1) S6400x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6400x32.size a ≤ S1600000x32.size a
  hwx5_0 : ∀ i : grid5.Coords, EltTy.bits .f32 = 32 ∨ (Rect.block (s := S1600000x32) S6400x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6400x1.size a ≤ S1600000x1.size a
  hwx5_1 : ∀ i : grid5.Coords, EltTy.bits .f32 = 32 ∨ (Rect.block (s := S1600000x1) S6400x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6400x32.size a ≤ S1600000x32.size a
  hwx5_2 : ∀ i : grid5.Coords, EltTy.bits .f32 = 32 ∨ (Rect.block (s := S1600000x32) S6400x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6400x32.size a ≤ S1600000x32.size a
  hwx6_0 : ∀ i : grid6.Coords, EltTy.bits .f32 = 32 ∨ (Rect.block (s := S1600000x32) S6400x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6400x32.size a ≤ S1600000x32.size a
  hwx6_1 : ∀ i : grid6.Coords, EltTy.bits .f32 = 32 ∨ (Rect.block (s := S1600000x32) S6400x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S6400x32.size a ≤ S1600000x32.size a
  hwx6_2 : ∀ i : grid6.Coords, EltTy.bits .f32 = 32 ∨ (Rect.block (s := S1600000x32) S6400x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S6400x1.size a ≤ S1600000x1.size a
  hwx6_3 : ∀ i : grid6.Coords, EltTy.bits .f32 = 32 ∨ (Rect.block (s := S1600000x1) S6400x1.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x32.size a ≤ S1600000x32.size a
  hwx7_0 : ∀ i : grid7.Coords, EltTy.bits .f32 = 32 ∨ (Rect.block (s := S1600000x32) S6400x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6400x1.size a ≤ S1600000x1.size a
  hwx7_1 : ∀ i : grid7.Coords, EltTy.bits .f32 = 32 ∨ (Rect.block (s := S1600000x1) S6400x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6400x32.size a ≤ S1600000x32.size a
  hwx7_2 : ∀ i : grid7.Coords, EltTy.bits .f32 = 32 ∨ (Rect.block (s := S1600000x32) S6400x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S6400x32.size a ≤ S1600000x32.size a
  hwx8_0 : ∀ i : grid8.Coords, EltTy.bits .f32 = 32 ∨ (Rect.block (s := S1600000x32) S6400x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S6400x32.size a ≤ S1600000x32.size a
  hwx8_1 : ∀ i : grid8.Coords, EltTy.bits .f32 = 32 ∨ (Rect.block (s := S1600000x32) S6400x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S6400x32.size a ≤ S1600000x32.size a
  hwx8_2 : ∀ i : grid8.Coords, EltTy.bits .f32 = 32 ∨ (Rect.block (s := S1600000x32) S6400x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S6400x1.size a ≤ S1600000x1.size a
  hwx8_3 : ∀ i : grid8.Coords, EltTy.bits .f32 = 32 ∨ (Rect.block (s := S1600000x1) S6400x1.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S6400x32.size a ≤ S1600000x32.size a
  hwx9_0 : ∀ i : grid9.Coords, EltTy.bits .f32 = 32 ∨ (Rect.block (s := S1600000x32) S6400x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S6400x1.size a ≤ S1600000x1.size a
  hwx9_1 : ∀ i : grid9.Coords, EltTy.bits .f32 = 32 ∨ (Rect.block (s := S1600000x1) S6400x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S6400x32.size a ≤ S1600000x32.size a
  hwx9_2 : ∀ i : grid9.Coords, EltTy.bits .f32 = 32 ∨ (Rect.block (s := S1600000x32) S6400x32.size (cc9_transform_2 i) (hinb9_2 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v4) S6400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S6400x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S6400x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6_0) S6400x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S6400x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S6400x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S6400x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19_0) S6400x32.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19_1) S6400x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19_0) S6400x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19_1) S6400x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S6400x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v30) S6400x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S6400x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32_0) S6400x32.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v32_1) S6400x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v32_0) S6400x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32_1) S6400x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S6400x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v43) S6400x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44) S6400x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v45_0) S6400x32.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v45_1) S6400x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v45_0) S6400x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v45_1) S6400x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v47) S6400x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v56) S6400x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v57) S6400x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v58_0) S6400x32.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v58_1) S6400x1.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v58_0) S6400x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v58_1) S6400x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v60) S6400x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 231
  | .vmem => 0
  | .smem => 0
  | _ => 0

abbrev hbmTy0_0 (i : Nat) : BufTy := match i % 128 with
  | 0 => ⟨S100000x32, .f32⟩
  | 1 => ⟨S2x1600000, .i32⟩
  | 2 => ⟨S1x1600000, .i32⟩
  | 3 => ⟨S1600000, .i32⟩
  | 4 => ⟨S1x1600000, .i32⟩
  | 5 => ⟨S1600000, .i32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x32, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x32, .f32⟩
  | 24 => ⟨S1600000x32, .f32⟩
  | 25 => ⟨S1600000x32, .f32⟩
  | 26 => ⟨S_, .f32⟩
  | 27 => ⟨S1600000, .f32⟩
  | 28 => ⟨S1600000, .f32⟩
  | 29 => ⟨S_, .f32⟩
  | 30 => ⟨S1600000, .f32⟩
  | 31 => ⟨S1600000, .f32⟩
  | 32 => ⟨S_, .f32⟩
  | 33 => ⟨S_, .f32⟩
  | 34 => ⟨S1600000, .f32⟩
  | 35 => ⟨S1600000, .f32⟩
  | 36 => ⟨S_, .f32⟩
  | 37 => ⟨S1600000, .f32⟩
  | 38 => ⟨S1600000, .f32⟩
  | 39 => ⟨S1600000x1, .f32⟩
  | 40 => ⟨S1600000x32, .f32⟩
  | 41 => ⟨S1600000x32, .f32⟩
  | 42 => ⟨S1600000x32, .f32⟩
  | 43 => ⟨S_, .f32⟩
  | 44 => ⟨S100000x32, .f32⟩
  | 45 => ⟨S1600000x1, .i32⟩
  | 46 => ⟨S100000x32, .f32⟩
  | 47 => ⟨S_, .f32⟩
  | 48 => ⟨S100000x32, .f32⟩
  | 49 => ⟨S100000x32, .f32⟩
  | 50 => ⟨S100000x32, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x32, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x32, .f32⟩
  | 69 => ⟨S1600000x32, .f32⟩
  | 70 => ⟨S1600000x32, .f32⟩
  | 71 => ⟨S_, .f32⟩
  | 72 => ⟨S1600000, .f32⟩
  | 73 => ⟨S1600000, .f32⟩
  | 74 => ⟨S_, .f32⟩
  | 75 => ⟨S1600000, .f32⟩
  | 76 => ⟨S1600000, .f32⟩
  | 77 => ⟨S_, .f32⟩
  | 78 => ⟨S_, .f32⟩
  | 79 => ⟨S1600000, .f32⟩
  | 80 => ⟨S1600000, .f32⟩
  | 81 => ⟨S_, .f32⟩
  | 82 => ⟨S1600000, .f32⟩
  | 83 => ⟨S1600000, .f32⟩
  | 84 => ⟨S1600000x1, .f32⟩
  | 85 => ⟨S1600000x32, .f32⟩
  | 86 => ⟨S1600000x32, .f32⟩
  | 87 => ⟨S1600000x32, .f32⟩
  | 88 => ⟨S_, .f32⟩
  | 89 => ⟨S100000x32, .f32⟩
  | 90 => ⟨S1600000x1, .i32⟩
  | 91 => ⟨S100000x32, .f32⟩
  | 92 => ⟨S_, .f32⟩
  | 93 => ⟨S100000x32, .f32⟩
  | 94 => ⟨S100000x32, .f32⟩
  | 95 => ⟨S100000x32, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x32, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x32, .f32⟩
  | 114 => ⟨S1600000x32, .f32⟩
  | 115 => ⟨S1600000x32, .f32⟩
  | 116 => ⟨S_, .f32⟩
  | 117 => ⟨S1600000, .f32⟩
  | 118 => ⟨S1600000, .f32⟩
  | 119 => ⟨S_, .f32⟩
  | 120 => ⟨S1600000, .f32⟩
  | 121 => ⟨S1600000, .f32⟩
  | 122 => ⟨S_, .f32⟩
  | 123 => ⟨S_, .f32⟩
  | 124 => ⟨S1600000, .f32⟩
  | 125 => ⟨S1600000, .f32⟩
  | 126 => ⟨S_, .f32⟩
  | 127 => ⟨S1600000, .f32⟩
  | _ => ⟨S100000x32, .f32⟩

abbrev hbmTy0_1 (i : Nat) : BufTy := match i % 128 with
  | 0 => ⟨S1600000, .f32⟩
  | 1 => ⟨S1600000x1, .f32⟩
  | 2 => ⟨S1600000x32, .f32⟩
  | 3 => ⟨S1600000x32, .f32⟩
  | 4 => ⟨S1600000x32, .f32⟩
  | 5 => ⟨S_, .f32⟩
  | 6 => ⟨S100000x32, .f32⟩
  | 7 => ⟨S1600000x1, .i32⟩
  | 8 => ⟨S100000x32, .f32⟩
  | 9 => ⟨S_, .f32⟩
  | 10 => ⟨S100000x32, .f32⟩
  | 11 => ⟨S100000x32, .f32⟩
  | 12 => ⟨S100000x32, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x32, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .f32⟩
  | 31 => ⟨S1600000x32, .f32⟩
  | 32 => ⟨S1600000x32, .f32⟩
  | 33 => ⟨S_, .f32⟩
  | 34 => ⟨S1600000, .f32⟩
  | 35 => ⟨S1600000, .f32⟩
  | 36 => ⟨S_, .f32⟩
  | 37 => ⟨S1600000, .f32⟩
  | 38 => ⟨S1600000, .f32⟩
  | 39 => ⟨S_, .f32⟩
  | 40 => ⟨S_, .f32⟩
  | 41 => ⟨S1600000, .f32⟩
  | 42 => ⟨S1600000, .f32⟩
  | 43 => ⟨S_, .f32⟩
  | 44 => ⟨S1600000, .f32⟩
  | 45 => ⟨S1600000, .f32⟩
  | 46 => ⟨S1600000x1, .f32⟩
  | 47 => ⟨S1600000x32, .f32⟩
  | 48 => ⟨S1600000x32, .f32⟩
  | 49 => ⟨S1600000x32, .f32⟩
  | 50 => ⟨S_, .f32⟩
  | 51 => ⟨S100000x32, .f32⟩
  | 52 => ⟨S1600000x1, .i32⟩
  | 53 => ⟨S100000x32, .f32⟩
  | 54 => ⟨S_, .f32⟩
  | 55 => ⟨S100000x32, .f32⟩
  | 56 => ⟨S100000x32, .f32⟩
  | 57 => ⟨S100000x32, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x32, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x32, .f32⟩
  | 76 => ⟨S1600000x32, .f32⟩
  | 77 => ⟨S1600000x32, .f32⟩
  | 78 => ⟨S_, .f32⟩
  | 79 => ⟨S1600000, .f32⟩
  | 80 => ⟨S1600000, .f32⟩
  | 81 => ⟨S_, .f32⟩
  | 82 => ⟨S1600000, .f32⟩
  | 83 => ⟨S1600000, .f32⟩
  | 84 => ⟨S_, .f32⟩
  | 85 => ⟨S_, .f32⟩
  | 86 => ⟨S1600000, .f32⟩
  | 87 => ⟨S1600000, .f32⟩
  | 88 => ⟨S_, .f32⟩
  | 89 => ⟨S1600000, .f32⟩
  | 90 => ⟨S1600000, .f32⟩
  | 91 => ⟨S1600000x1, .f32⟩
  | 92 => ⟨S1600000x32, .f32⟩
  | 93 => ⟨S1600000x32, .f32⟩
  | 94 => ⟨S1600000x32, .f32⟩
  | 95 => ⟨S_, .f32⟩
  | 96 => ⟨S100000x32, .f32⟩
  | 97 => ⟨S1600000x1, .i32⟩
  | 98 => ⟨S100000x32, .f32⟩
  | 99 => ⟨S_, .f32⟩
  | 100 => ⟨S100000x32, .f32⟩
  | 101 => ⟨S100000x32, .f32⟩
  | 102 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call1_v0 : Ref sig .tc := ⟨.hbm, 70, rfl⟩
abbrev main_call1_cst : Ref sig .tc := ⟨.hbm, 71, rfl⟩
abbrev main_call1_v1 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_c_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call2_v0 : Ref sig .tc := ⟨.hbm, 115, rfl⟩
abbrev main_call2_cst : Ref sig .tc := ⟨.hbm, 116, rfl⟩
abbrev main_call2_v1 : Ref sig .tc := ⟨.hbm, 117, rfl⟩
abbrev main_v85 : Ref sig .tc := ⟨.hbm, 118, rfl⟩
abbrev main_cst_20 : Ref sig .tc := ⟨.hbm, 119, rfl⟩
abbrev main_v86 : Ref sig .tc := ⟨.hbm, 120, rfl⟩
abbrev main_v87 : Ref sig .tc := ⟨.hbm, 121, rfl⟩
abbrev main_cst_21 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_22 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_23 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_24 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_25 : Ref sig .tc := ⟨.hbm, 141, rfl⟩
abbrev main_v103 : Ref sig .tc := ⟨.hbm, 142, rfl⟩
abbrev main_v104 : Ref sig .tc := ⟨.hbm, 143, rfl⟩
abbrev main_c_26 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_27 : Ref sig .tc := ⟨.hbm, 150, rfl⟩
abbrev main_v110 : Ref sig .tc := ⟨.hbm, 151, rfl⟩
abbrev main_v111 : Ref sig .tc := ⟨.hbm, 152, rfl⟩
abbrev main_c_28 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_call3_v0 : Ref sig .tc := ⟨.hbm, 160, rfl⟩
abbrev main_call3_cst : Ref sig .tc := ⟨.hbm, 161, rfl⟩
abbrev main_call3_v1 : Ref sig .tc := ⟨.hbm, 162, rfl⟩
abbrev main_v118 : Ref sig .tc := ⟨.hbm, 163, rfl⟩
abbrev main_cst_29 : Ref sig .tc := ⟨.hbm, 164, rfl⟩
abbrev main_v119 : Ref sig .tc := ⟨.hbm, 165, rfl⟩
abbrev main_v120 : Ref sig .tc := ⟨.hbm, 166, rfl⟩
abbrev main_cst_30 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_31 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_32 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_33 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_c_34 : Ref sig .tc := ⟨.hbm, 186, rfl⟩
abbrev main_v136 : Ref sig .tc := ⟨.hbm, 187, rfl⟩
abbrev main_v137 : Ref sig .tc := ⟨.hbm, 188, rfl⟩
abbrev main_c_35 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_c_36 : Ref sig .tc := ⟨.hbm, 195, rfl⟩
abbrev main_v143 : Ref sig .tc := ⟨.hbm, 196, rfl⟩
abbrev main_v144 : Ref sig .tc := ⟨.hbm, 197, rfl⟩
abbrev main_c_37 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_call4_v0 : Ref sig .tc := ⟨.hbm, 205, rfl⟩
abbrev main_call4_cst : Ref sig .tc := ⟨.hbm, 206, rfl⟩
abbrev main_call4_v1 : Ref sig .tc := ⟨.hbm, 207, rfl⟩
abbrev main_v151 : Ref sig .tc := ⟨.hbm, 208, rfl⟩
abbrev main_cst_38 : Ref sig .tc := ⟨.hbm, 209, rfl⟩
abbrev main_v152 : Ref sig .tc := ⟨.hbm, 210, rfl⟩
abbrev main_v153 : Ref sig .tc := ⟨.hbm, 211, rfl⟩
abbrev main_cst_39 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_40 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_41 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_cst_42 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x32_S1600000_d1 : S1600000x32.ReducesTo [1] S1600000
  h_S_ : 0 < S_.numel
  reducesTo_S1600000_S_d0 : S1600000.ReducesTo [0] S_
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.PLap.KStep.lean ====
/-
  One step of the kernel's program as a function of whole arrays, at the extended reals.

  From the node features h and the edge list (a source id and a target id per edge) the step gathers the two
  endpoint rows of every edge, takes their difference d_e and its clamped length n_e = max(|d_e|, eps), finds
  the largest length M, sends the message -d_e / sqrt(n_e) along every edge, sums the messages by source node and
  moves each node by -(mu * sqrt(M)) times its sum. The program runs five such steps.
-/
import proofs.«409662_j32736240730465_2_alg».proof.Proof.Gen.KernelIdeal
import Idealize.ShloMosaic.Lib.ValueIdx

noncomputable section

namespace Cert.KernelIdeal.PLap

open Idealize.ShloMosaic Idealize.ShloMosaic.ValueIdx Cert.KernelIdeal Cert.KernelIdeal.Facts₀ Cert.KernelIdeal.Facts

/-- The source node of every edge: row 0 of the edge list. -/
def rowOf (ei : IVec S2x1600000 32) : IVec S1600000 32 :=
  shapeCast S1600000 (extractStridedSlice S1x1600000 ![0, 0] ei slices_S2x1600000_S1x1600000_0_0) shapeCasts_S1x1600000_S1600000

/-- The target node of every edge: row 1 of the edge list. -/
def colOf (ei : IVec S2x1600000 32) : IVec S1600000 32 :=
  shapeCast S1600000 (extractStridedSlice S1x1600000 ![1, 0] ei slices_S2x1600000_S1x1600000_1_0) shapeCasts_S1x1600000_S1600000

section AnyFloat

variable {F : FTy → Type} [FloatOps F]

/-- A node id with a negative one counted from the end, as a column of start indices. -/
def wrapIdx (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- Per edge, whether the wrapped id names a node: 0 ≤ id ≤ 99999. -/
def inRangeMask (idx : IVec S1600000 32) : IVec S1600000 1 :=
  Host.reduce IntOp.andi
    (andi (cmpi .sge (wrapIdx idx) (broadcastInDim S1600000x1 ![] bcast_S_S1600000x1 (constantI S_ 32 0#32)))
      (cmpi .sle (wrapIdx idx) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of `h` at the given node ids (clamped into the table), as an edge-by-feature array. -/
def gatherRows (h : FVec F S100000x32 .f32) (idx : IVec S1600000 32) : FVec F S1600000x32 .f32 :=
  Host.gather gather_S100000x32_S1600000x1_S1600000x32_1_0_n_n_0_1_132 h (wrapIdx idx)

/-- The rows of `h` at the given node ids, with a filler row where an id names no node. -/
def takeK (h : FVec F S100000x32 .f32) (idx : IVec S1600000 32) : FVec F S1600000x32 .f32 :=
  select (broadcastInDim S1600000x32 ![0] bcast_S1600000_S1600000x32_0 (inRangeMask idx)) (gatherRows h idx)
    (broadcastInDim S1600000x32 ![] bcast_S_S1600000x32 (constant S_ .f32 0x7FC00000#32))

/-- The difference of the two endpoint rows of every edge. -/
def diffK (a b : FVec F S1600000x32 .f32) : FVec F S1600000x32 .f32 := subf a b

/-- The largest entry of a column of lengths, from the seed minus infinity. -/
def maxK (n : FVec F S1600000x1 .f32) : FVec F S_ .f32 :=
  Host.reduce FloatOps.maximumf n (constant S_ .f32 0xFF800000#32) reducesTo_S1600000x1_S_d0_1 h_S_

/-- The node update: h minus (mu * sqrt(M)) times the messages summed by source node. -/
def updK (h : FVec F S100000x32 .f32) (row : IVec S1600000 32) (msg : FVec F S1600000x32 .f32) (mx : FVec F S_ .f32) :
    FVec F S100000x32 .f32 :=
  subf h (mulf (broadcastInDim S100000x32 ![] bcast_S_S100000x32 (mulf (constant S_ .f32 0x3C23D70A#32) (Host.sqrt mx)))
    (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 row) msg))

end AnyFloat

/-- The clamped length of every edge's difference, as a column: max(sqrt(sum over the 32 features of the squared
    difference), eps). -/
def normK (a b : FVec Ideal S1600000x32 .f32) : FVec Ideal S1600000x1 .f32 :=
  fun j => max (Ideal.sqrt (∑ q : Fin 32, (a (ix2 (n0 := 1600000) (n1 := 32) (j 0) q) - b (ix2 (n0 := 1600000) (n1 := 32) (j 0) q))
      * (a (ix2 (n0 := 1600000) (n1 := 32) (j 0) q) - b (ix2 (n0 := 1600000) (n1 := 32) (j 0) q))))
    (Ideal.ofBits .f32 0x358637BD#32)

/-- The message of every edge before the global scale: (0 - d_e) / sqrt(n_e), feature by feature. -/
def preK (d : FVec Ideal S1600000x32 .f32) (n : FVec Ideal S1600000x1 .f32) : FVec Ideal S1600000x32 .f32 :=
  fun j => (Ideal.ofBits .f32 0x00000000#32 - d j) * Ideal.rsqrt (n (ix2 (n0 := 1600000) (n1 := 1) (j 0) 0))

/-- One step. -/
def stepK (h : FVec Ideal S100000x32 .f32) (row col : IVec S1600000 32) : FVec Ideal S100000x32 .f32 :=
  updK h row (preK (diffK (takeK h row) (takeK h col)) (normK (takeK h row) (takeK h col)))
    (maxK (normK (takeK h row) (takeK h col)))

/-- The program's result: five steps from the input features along the input edge list. -/
def kval (h : FVec Ideal S100000x32 .f32) (ei : IVec S2x1600000 32) : FVec Ideal S100000x32 .f32 :=
  stepK (stepK (stepK (stepK (stepK h (rowOf ei) (colOf ei)) (rowOf ei) (colOf ei)) (rowOf ei) (colOf ei)) (rowOf ei) (colOf ei))
    (rowOf ei) (colOf ei)

end Cert.KernelIdeal.PLap

end
-- ==== Proof.PLap.KRegion0.lean ====
/-
  Region 0 of the program (the difference-and-length kernel, run over 250 blocks of 6400 edges): what its two output
  arrays hold when it is done, as whole-array functions of its two input arrays as the region finds them. Block t of
  each output is the kernel body's value on block t of the inputs; the blocks tile the arrays, so the difference array
  is the entrywise difference and the length column is the clamped row length of that difference.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The two zero offsets of a whole-block access, as the constant function. -/
private theorem off_zero : (![0, 0] : Fin 2 → Nat) = fun _ => 0 := funext fun a => by fin_cases a <;> rfl

/-- The printed index maps, decided over the grid: at point t every window's block index is (t, 0). -/
private theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The difference payload is the entrywise difference of its two loaded blocks. -/
private theorem pay0_2_eq (xa xb : Vec Ideal S6400x32 .f32) : k0_pay1 (F := Ideal) xa xb = subf xa xb := by
  unfold k0_pay1
  simp only [shapeCast_self]

/-- What point t writes back to the difference array is block t of the entrywise difference of the two input arrays. -/
private theorem flushed0_2_eq (c : Dev nD) (t : Fin cfg0.N) :
    (dat0 (F := Ideal) V c).flushed 2 t
      = ((cfg0.win 2).blk t).view.read (Elt Ideal) (diffK (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero off_zero]
  simp only [View.ld_unit_zero (S := S6400x32) off_zero]
  rw [pay0_2_eq]
  obtain ⟨ea, eb, ec, ed, ee, ef, eg, eh⟩ := idx_facts0 t
  funext j
  show FloatOps.subf (F := Ideal) (φ := .f32) (V c (Pipeline.arrRef spec0 0) (((cfg0.win 0).blk t).view.emb j)) (V c (Pipeline.arrRef spec0 1) (((cfg0.win 1).blk t).view.emb j))
    = FloatOps.subf (F := Ideal) (φ := .f32) (V c (Pipeline.arrRef spec0 0) (((cfg0.win 2).blk t).view.emb j)) (V c (Pipeline.arrRef spec0 1) (((cfg0.win 2).blk t).view.emb j))
  have ha : ((cfg0.win 0).blk t).view.emb j = ((cfg0.win 2).blk t).view.emb j := by
    funext a; apply Fin.ext
    match a with
    | ⟨0, _⟩ => show win0_0.index t (0 : Fin 2) * 6400 + 1 * (j 0).val = win0_2.index t (0 : Fin 2) * 6400 + 1 * (j 0).val; omega
    | ⟨1, _⟩ => show win0_0.index t (1 : Fin 2) * 32 + 1 * (j 1).val = win0_2.index t (1 : Fin 2) * 32 + 1 * (j 1).val; omega
  have hb : ((cfg0.win 1).blk t).view.emb j = ((cfg0.win 2).blk t).view.emb j := by
    funext a; apply Fin.ext
    match a with
    | ⟨0, _⟩ => show win0_1.index t (0 : Fin 2) * 6400 + 1 * (j 0).val = win0_2.index t (0 : Fin 2) * 6400 + 1 * (j 0).val; omega
    | ⟨1, _⟩ => show win0_1.index t (1 : Fin 2) * 32 + 1 * (j 1).val = win0_2.index t (1 : Fin 2) * 32 + 1 * (j 1).val; omega
  rw [ha, hb]

/-- An index of the difference array is in point t's block iff each coordinate is in the block's range on its axis. -/
private theorem mem_blk0_2 (t : Fin cfg0.N) (i : S1600000x32.Idx) :
    i ∈ ((cfg0.win 2).blk t).view.set ↔ ∀ a : Fin 2, win0_2.index t a * S6400x32.size a ≤ (i a).val ∧ (i a).val < win0_2.index t a * S6400x32.size a + S6400x32.size a := by
  show i ∈ ((View.whole (Pipeline.arrRef spec0 2)).slice (win0_2.rect t)).set ↔ _
  rw [View.set_slice_whole, Rect.mem_set_unit]
  exact Iff.rfl

/-- Every index of the difference array is in some point's block: row r is in the block of point r / 6400. -/
private theorem covered0_2 (i : S1600000x32.Idx) :
    ∃ t : Fin cfg0.N, (cfg0.win 2).flush t = true ∧ i ∈ ((cfg0.win 2).blk t).view.set := by
  have hN : grid0.N = 250 := N_0
  have hr : (i 0).val < 1600000 := (i 0).isLt
  have hq : (i 1).val < 32 := (i 1).isLt
  obtain ⟨t, ht⟩ : ∃ t : Fin cfg0.N, t.val = (i 0).val / 6400 :=
    ⟨⟨(i 0).val / 6400, by show (i 0).val / 6400 < grid0.N; omega⟩, rfl⟩
  obtain ⟨ea, eb, ec, ed, ee, ef, eg, eh⟩ := idx_facts0 t
  refine ⟨t, flush0_2 t, ?_⟩
  rw [mem_blk0_2]
  intro a
  match a with
  | ⟨0, _⟩ => show win0_2.index t (0 : Fin 2) * 6400 ≤ (i 0).val ∧ (i 0).val < win0_2.index t (0 : Fin 2) * 6400 + 6400; omega
  | ⟨1, _⟩ => show win0_2.index t (1 : Fin 2) * 32 ≤ (i 1).val ∧ (i 1).val < win0_2.index t (1 : Fin 2) * 32 + 32; omega

/-- The difference array after region 0: the entrywise difference of the region's two input arrays. -/
theorem arr0_2 (c : Dev nD) :
    (dat0 (F := Ideal) V c).arrAt 2 cfg0.N = diffK (F := Ideal) (V c (Pipeline.arrRef spec0 0)) (V c (Pipeline.arrRef spec0 1)) :=
  (dat0 (F := Ideal) V c).arrAt_eq_of_cover 2 (diffK (F := Ideal) (V c (Pipeline.arrRef spec0 0)) (V c (Pipeline.arrRef spec0 1)))
    (fun t _ => flushed0_2_eq V c t) covered0_2

/-- A vector of length a cast to a column [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum over the 32 lanes of a block, read at row p. -/
private theorem rowsum0_3_apply (y : FVec Ideal S6400x32 .f32) (p : Fin 6400) :
    multiReduction (F := Ideal) .add [1] S6400 y 0x00000000#32 Facts₀.reduces_S6400x32_S6400 (.inl rfl) rfl (ix1 p)
      = ∑ q : Fin 32, y (ix2 p q) := by
  refine (Ideal.multiReduction_add_single y 0x00000000#32 Facts₀.reduces_S6400x32_S6400 (.inl rfl) rfl (ix1 p)).trans ?_
  refine Finset.sum_congr rfl fun q _ => congrArg y ?_
  funext a
  match a with
  | ⟨0, _⟩ => rfl
  | ⟨1, _⟩ => rfl

/-- The length payload at row p: the clamped length of the row of differences of its two loaded blocks. -/
private theorem pay0_3_apply (xa xb : Vec Ideal S6400x32 .f32) (p : Fin 6400) (u : Fin 1) :
    k0_pay2 (F := Ideal) xa xb (ix2 p u)
      = max (Ideal.sqrt (∑ q : Fin 32, (xa (ix2 p q) - xb (ix2 p q)) * (xa (ix2 p q) - xb (ix2 p q))))
          (Ideal.ofBits .f32 0x358637BD#32) := by
  unfold k0_pay2
  rw [pay0_2_eq]
  show max (Ideal.sqrt (shapeCast S6400x1 (multiReduction (F := Ideal) .add [1] S6400 (mulf (subf xa xb) (subf xa xb)) 0x00000000#32
      Facts₀.reduces_S6400x32_S6400 (.inl rfl) rfl) Facts₀.shapeCasts_S6400_S6400x1 (ix2 p u))) (Ideal.ofBits .f32 0x358637BD#32) = _
  rw [shapeCast_a_a1_apply, rowsum0_3_apply]
  rfl

/-- The length payload of two blocks whose row p holds row (i 0) of two arrays is the clamped row length of the
    arrays' difference at i. -/
private theorem pay0_3_eq_normK (A B : FVec Ideal S1600000x32 .f32) (xa xb : Vec Ideal S6400x32 .f32) (p : Fin 6400) (u : Fin 1)
    (i : S1600000x1.Idx)
    (ha : ∀ q : Fin 32, xa (ix2 p q) = A (ix2 (i 0) q))
    (hb : ∀ q : Fin 32, xb (ix2 p q) = B (ix2 (i 0) q)) :
    k0_pay2 (F := Ideal) xa xb (ix2 p u) = normK A B i := by
  rw [pay0_3_apply]
  unfold normK
  simp only [ha, hb]

/-- What point t writes back to the length column is block t of the clamped row lengths of the difference of the two
    input arrays. -/
private theorem flushed0_3_eq (c : Dev nD) (t : Fin cfg0.N) :
    (dat0 (F := Ideal) V c).flushed 3 t
      = ((cfg0.win 3).blk t).view.read (Elt Ideal) (normK (V c (Pipeline.arrRef spec0 0)) (V c (Pipeline.arrRef spec0 1))) := by
  show (cfg0.win 3).cut (grid0.coords t) ((dat0 V c).after 3 t) = _
  rw [after0_3]
  unfold out0_3
  rw [View.canon_unit_zero off_zero]
  simp only [View.ld_unit_zero (S := S6400x32) off_zero]
  obtain ⟨ea, eb, ec, ed, ee, ef, eg, eh⟩ := idx_facts0 t
  funext j
  obtain ⟨p, u, rfl⟩ : ∃ (p : Fin 6400) (u : Fin 1), j = ix2 p u := ⟨j 0, j 1, eq_ix2 j⟩
  refine pay0_3_eq_normK (V c (Pipeline.arrRef spec0 0)) (V c (Pipeline.arrRef spec0 1)) (iblk0 V c 0 t) (iblk0 V c 1 t) p u
    (((cfg0.win 3).blk t).view.emb (ix2 p u)) (fun q => ?_) (fun q => ?_)
  · show V c (Pipeline.arrRef spec0 0) (((cfg0.win 0).blk t).view.emb (ix2 p q)) = _
    congr 1
    funext a; apply Fin.ext
    match a with
    | ⟨0, _⟩ => show win0_0.index t (0 : Fin 2) * 6400 + 1 * p.val = win0_3.index t (0 : Fin 2) * 6400 + 1 * p.val; omega
    | ⟨1, _⟩ => show win0_0.index t (1 : Fin 2) * 32 + 1 * q.val = q.val; omega
  · show V c (Pipeline.arrRef spec0 1) (((cfg0.win 1).blk t).view.emb (ix2 p q)) = _
    congr 1
    funext a; apply Fin.ext
    match a with
    | ⟨0, _⟩ => show win0_1.index t (0 : Fin 2) * 6400 + 1 * p.val = win0_3.index t (0 : Fin 2) * 6400 + 1 * p.val; omega
    | ⟨1, _⟩ => show win0_1.index t (1 : Fin 2) * 32 + 1 * q.val = q.val; omega

/-- An index of the length column is in point t's block iff each coordinate is in the block's range on its axis. -/
private theorem mem_blk0_3 (t : Fin cfg0.N) (i : S1600000x1.Idx) :
    i ∈ ((cfg0.win 3).blk t).view.set ↔ ∀ a : Fin 2, win0_3.index t a * S6400x1.size a ≤ (i a).val ∧ (i a).val < win0_3.index t a * S6400x1.size a + S6400x1.size a := by
  show i ∈ ((View.whole (Pipeline.arrRef spec0 3)).slice (win0_3.rect t)).set ↔ _
  rw [View.set_slice_whole, Rect.mem_set_unit]
  exact Iff.rfl

/-- Every index of the length column is in some point's block: row r is in the block of point r / 6400. -/
private theorem covered0_3 (i : S1600000x1.Idx) :
    ∃ t : Fin cfg0.N, (cfg0.win 3).flush t = true ∧ i ∈ ((cfg0.win 3).blk t).view.set := by
  have hN : grid0.N = 250 := N_0
  have hr : (i 0).val < 1600000 := (i 0).isLt
  have hq : (i 1).val < 1 := (i 1).isLt
  obtain ⟨t, ht⟩ : ∃ t : Fin cfg0.N, t.val = (i 0).val / 6400 :=
    ⟨⟨(i 0).val / 6400, by show (i 0).val / 6400 < grid0.N; omega⟩, rfl⟩
  obtain ⟨ea, eb, ec, ed, ee, ef, eg, eh⟩ := idx_facts0 t
  refine ⟨t, flush0_3 t, ?_⟩
  rw [mem_blk0_3]
  intro a
  match a with
  | ⟨0, _⟩ => show win0_3.index t (0 : Fin 2) * 6400 ≤ (i 0).val ∧ (i 0).val < win0_3.index t (0 : Fin 2) * 6400 + 6400; omega
  | ⟨1, _⟩ => show win0_3.index t (1 : Fin 2) * 1 ≤ (i 1).val ∧ (i 1).val < win0_3.index t (1 : Fin 2) * 1 + 1; omega

/-- The length column after region 0: the clamped row length of the difference of the region's two input arrays. -/
theorem arr0_3 (c : Dev nD) :
    (dat0 (F := Ideal) V c).arrAt 3 cfg0.N = normK (V c (Pipeline.arrRef spec0 0)) (V c (Pipeline.arrRef spec0 1)) :=
  (dat0 (F := Ideal) V c).arrAt_eq_of_cover 3 (normK (V c (Pipeline.arrRef spec0 0)) (V c (Pipeline.arrRef spec0 1)))
    (fun t _ => flushed0_3_eq V c t) covered0_3

end Cert.KernelIdeal.PLap

end
-- ==== Proof.PLap.KRegion1.lean ====
/-
  Region 1 of the program (the message kernel, run over 250 blocks of 6400 edges): what its output array holds when it
  is done, as a whole-array function of its two input arrays (the differences and the length column) as the region
  finds them. Block t of the output is the kernel body's value on block t of the inputs; the blocks tile the array, so
  the message array is, entry by entry, zero minus the difference, times the reciprocal square root of the edge's length.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's value at one entry of a block -/

/-- The offsets of a whole-block access, both zero. -/
private theorem off_zero : (![0, 0] : Fin 2 → Nat) = fun _ => 0 :=
  funext fun a => match a with | ⟨0, _⟩ => rfl | ⟨1, _⟩ => rfl

/-- A column `[a, 1]` broadcast to `[a, b]` reads, at `(p, q)`, the column's entry of row `p`: the row axis is kept
    (when `a = 1` its only coordinate is `0` either way), the unit axis is read at `0`. -/
private theorem bcast_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at entry `(p, q)` of a block, from the block `n` of lengths and the block `d` of differences:
    zero minus the difference at `(p, q)`, times the reciprocal square root of the length of row `p`. The two casts to
    the same shape are identities, the scalar zero is read everywhere, and the column of reciprocal roots is read at its row. -/
private theorem k1_pay1_apply (n : Vec Ideal S6400x1 .f32) (d : Vec Ideal S6400x32 .f32) (p : Fin 6400) (q : Fin 32) :
    k1_pay1 (F := Ideal) n d (ix2 p q)
      = (Ideal.ofBits .f32 0x00000000#32 - d (ix2 p q)) * Ideal.rsqrt (n (ix2 p (0 : Fin 1))) := by
  unfold k1_pay1
  simp only [shapeCast_self]
  rw [mulf_apply, subf_apply, broadcast_apply, bcast_col_apply]
  rfl

/-! ## Where the blocks sit -/

/-- At grid point `t` every window's block index is `(t, 0)`: the three windows move together down the rows
    (decided over the 250 points). -/
private theorem idx_facts1_2 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Entry `(p, q)` of the difference window's block at point `t` is the difference array at the place where entry
    `(p, q)` of the output's block at `t` sits: on each axis, block index times block size plus the coordinate inside. -/
private theorem iblk1_0_apply (c : Dev nD) (t : Fin cfg1.N) (p : Fin 6400) (q : Fin 32) :
    iblk1 V c 0 t (ix2 p q) = V c (Pipeline.arrRef spec1 0) (((cfg1.win 2).blk t).view.emb (ix2 p q)) := by
  obtain ⟨ea, eb, ec, ed, ee, ef⟩ := idx_facts1_2 t
  unfold iblk1
  show V c (Pipeline.arrRef spec1 0) (((cfg1.win 0).blk t).view.emb (ix2 p q)) = _
  refine congrArg _ (funext fun a => Fin.ext ?_)
  match a with
  | ⟨0, _⟩ =>
    show win1_0.index t (0 : Fin 2) * 6400 + 1 * p.val = win1_2.index t (0 : Fin 2) * 6400 + 1 * p.val
    omega
  | ⟨1, _⟩ =>
    show win1_0.index t (1 : Fin 2) * 32 + 1 * q.val = win1_2.index t (1 : Fin 2) * 32 + 1 * q.val
    omega

/-- Entry `(p, 0)` of the length window's block at point `t` is the length column at the row where entry `(p, q)` of
    the output's block at `t` sits. -/
private theorem iblk1_1_apply (c : Dev nD) (t : Fin cfg1.N) (p : Fin 6400) (q : Fin 32) :
    iblk1 V c 1 t (ix2 p (0 : Fin 1))
      = V c (Pipeline.arrRef spec1 1)
          (ix2 (n0 := 1600000) ((((cfg1.win 2).blk t).view.emb (ix2 p q)) 0) (0 : Fin 1)) := by
  obtain ⟨ea, eb, ec, ed, ee, ef⟩ := idx_facts1_2 t
  unfold iblk1
  show V c (Pipeline.arrRef spec1 1) (((cfg1.win 1).blk t).view.emb (ix2 p (0 : Fin 1))) = _
  refine congrArg _ (funext fun a => Fin.ext ?_)
  match a with
  | ⟨0, _⟩ =>
    show win1_1.index t (0 : Fin 2) * 6400 + 1 * p.val = win1_2.index t (0 : Fin 2) * 6400 + 1 * p.val
    omega
  | ⟨1, _⟩ =>
    show win1_1.index t (1 : Fin 2) * 1 + 1 * 0 = 0
    omega

/-! ## What each point writes back -/

/-- What point `t` writes back to the message array is block `t` of the whole-array message function of the two input
    arrays: the body's one store fills the staging block with its value on the two input blocks, and entry by entry
    that value reads the input arrays exactly where the output's block sits. -/
private theorem flushed1_2_eq (c : Dev nD) (t : Fin cfg1.N) :
    (dat1 (F := Ideal) V c).flushed 2 t
      = ((cfg1.win 2).blk t).view.read (Elt Ideal)
          (preK (V c (Pipeline.arrRef spec1 0)) (V c (Pipeline.arrRef spec1 1))) := by
  show (cfg1.win 2).cut (grid1.coords t) ((dat1 V c).after 2 t) = _
  rw [after1_2]
  unfold out1_2
  rw [View.canon_unit_zero off_zero]
  simp only [View.ld_unit_zero (S := S6400x32) off_zero, View.ld_unit_zero (S := S6400x1) off_zero]
  funext j
  obtain ⟨p, q, rfl⟩ : ∃ (p : Fin 6400) (q : Fin 32), j = ix2 p q := ⟨j 0, j 1, eq_ix2 j⟩
  show k1_pay1 (F := Ideal) (iblk1 V c 1 t) (iblk1 V c 0 t) (ix2 p q)
    = preK (V c (Pipeline.arrRef spec1 0)) (V c (Pipeline.arrRef spec1 1)) (((cfg1.win 2).blk t).view.emb (ix2 p q))
  refine (k1_pay1_apply _ _ p q).trans ?_
  rw [iblk1_0_apply V c t p q, iblk1_1_apply V c t p q]
  rfl

/-! ## The blocks tile the array -/

/-- An index of the message array is in point `t`'s block iff each coordinate is in the block's range on its axis. -/
private theorem mem_blk1_2 (t : Fin cfg1.N) (i : S1600000x32.Idx) :
    i ∈ ((cfg1.win 2).blk t).view.set
      ↔ ∀ a : Fin 2, win1_2.index t a * S6400x32.size a ≤ (i a).val
          ∧ (i a).val < win1_2.index t a * S6400x32.size a + S6400x32.size a := by
  show i ∈ ((View.whole main_v8).slice (win1_2.rect t)).set ↔ _
  rw [View.set_slice_whole, Rect.mem_set_unit]
  exact Iff.rfl

/-- Every index of the message array is in some point's block: row `r` is in the block of point `r / 6400`
    (250 blocks of 6400 rows are the 1600000 rows), and a block spans all 32 columns. -/
private theorem covered1_2 (i : S1600000x32.Idx) :
    ∃ t : Fin cfg1.N, (cfg1.win 2).flush t = true ∧ i ∈ ((cfg1.win 2).blk t).view.set := by
  have hrow : (i 0).val < 1600000 := (i 0).isLt
  have hcol : (i 1).val < 32 := (i 1).isLt
  have hN : cfg1.N = 250 := N_1
  have ht : (i 0).val / 6400 < cfg1.N := by rw [hN]; omega
  obtain ⟨ea, eb, ec, ed, ee, ef⟩ := idx_facts1_2 ⟨(i 0).val / 6400, ht⟩
  refine ⟨⟨(i 0).val / 6400, ht⟩, flush1_2 _, ?_⟩
  rw [mem_blk1_2]
  intro a
  match a with
  | ⟨0, _⟩ =>
    show win1_2.index ⟨(i 0).val / 6400, ht⟩ (0 : Fin 2) * 6400 ≤ (i 0).val
      ∧ (i 0).val < win1_2.index ⟨(i 0).val / 6400, ht⟩ (0 : Fin 2) * 6400 + 6400
    rw [ee]
    show (i 0).val / 6400 * 6400 ≤ (i 0).val ∧ (i 0).val < (i 0).val / 6400 * 6400 + 6400
    omega
  | ⟨1, _⟩ =>
    show win1_2.index ⟨(i 0).val / 6400, ht⟩ (1 : Fin 2) * 32 ≤ (i 1).val
      ∧ (i 1).val < win1_2.index ⟨(i 0).val / 6400, ht⟩ (1 : Fin 2) * 32 + 32
    rw [ef]
    omega

/-! ## The array after the region -/

/-- The message array after region 1: (0 - difference) / sqrt(length), entry by entry. -/
theorem arr1_2 (c : Dev nD) :
    (dat1 (F := Ideal) V c).arrAt 2 cfg1.N = preK (V c (Pipeline.arrRef spec1 0)) (V c (Pipeline.arrRef spec1 1)) :=
  (dat1 (F := Ideal) V c).arrAt_eq_of_cover 2 (preK (V c (Pipeline.arrRef spec1 0)) (V c (Pipeline.arrRef spec1 1)))
    (fun t _ => flushed1_2_eq V c t) covered1_2

end Cert.KernelIdeal.PLap

end
-- ==== Proof.PLap.KIter0.lean ====
/-
  Step 0 of the kernel's program, read boundary by boundary. Between the boundary the step starts from (W1) and
  the boundary after this step's update (W7) lie four host stretches and two kernel regions: gather the source rows,
  gather the target rows, the difference-and-length kernel, the largest length, the message kernel, the update. From
  any contents a stretch leaves its result as the matching piece of `stepK` and writes none of the buffers still
  needed; a region leaves its output arrays at their whole-array closed forms and every other buffer alone. Walking the
  six boundaries: if W1 holds the features H and the ids R, C, then W7 holds stepK H R C, and still R and C.
-/
import proofs.«409662_j32736240730465_2_alg».proof.Proof.Gen.KernelIdeal.Frame
import proofs.«409662_j32736240730465_2_alg».proof.Proof.PLap.KStep
import proofs.«409662_j32736240730465_2_alg».proof.Proof.PLap.KRegion0
import proofs.«409662_j32736240730465_2_alg».proof.Proof.PLap.KRegion1
import Idealize.ShloMosaic.Lib.StableHlo.Run

set_option maxRecDepth 16384
set_option maxHeartbeats 1600000

noncomputable section

namespace Cert.KernelIdeal.PLap

open Idealize.ShloMosaic Idealize.ShloMosaic.TcCoe Idealize.SL.Sem Idealize.ShloMosaic.StableHlo
open Cert.KernelIdeal Cert.KernelIdeal.Gen

/-- A value carried into a typed reference's buffer and back is the value. -/
private theorem ofBuf_toBuf {T : BufTy} (x : TRef sig T) (v : T.Contents (Elt Ideal)) : x.ofBuf (x.toBuf v) = v := by
  obtain ⟨ref, rfl, h2, h3⟩ := x
  rfl

/-! ## The four host stretches of step 0, from any contents -/

section Stretches

variable (W : Valuation τ sig (Elt Ideal))

/-- Gathering the source rows: the result is the guarded gather of the features at the source ids. -/
private theorem srcRows0 {h : FVec Ideal S100000x32 .f32} {r : IVec S1600000 32}
    (hh : W (Proc.devRef .tc main_arg0) = h) (hr : W (Proc.devRef .tc main_v1) = r) :
    StableHlo.after (hostOps0_1 (F := Ideal)) W (Proc.devRef .tc main_v4) = takeK h r := by
  subst hh hr
  after_results_simp
  simp only [ofBuf_toBuf]
  congr 1

private theorem srcRows0_feat : StableHlo.after (hostOps0_1 (F := Ideal)) W (Proc.devRef .tc main_arg0) = W (Proc.devRef .tc main_arg0) := by
  after_results_simp
private theorem srcRows0_src : StableHlo.after (hostOps0_1 (F := Ideal)) W (Proc.devRef .tc main_v1) = W (Proc.devRef .tc main_v1) := by
  after_results_simp
private theorem srcRows0_tgt : StableHlo.after (hostOps0_1 (F := Ideal)) W (Proc.devRef .tc main_v3) = W (Proc.devRef .tc main_v3) := by
  after_results_simp

/-- Gathering the target rows: the result is the guarded gather of the features at the target ids. -/
private theorem tgtRows0 {h : FVec Ideal S100000x32 .f32} {r : IVec S1600000 32}
    (hh : W (Proc.devRef .tc main_arg0) = h) (hr : W (Proc.devRef .tc main_v3) = r) :
    StableHlo.after (hostOps0_2 (F := Ideal)) W (Proc.devRef .tc main_v5) = takeK h r := by
  subst hh hr
  after_results_simp
  simp only [ofBuf_toBuf]
  congr 1

private theorem tgtRows0_rows : StableHlo.after (hostOps0_2 (F := Ideal)) W (Proc.devRef .tc main_v4) = W (Proc.devRef .tc main_v4) := by
  after_results_simp
private theorem tgtRows0_feat : StableHlo.after (hostOps0_2 (F := Ideal)) W (Proc.devRef .tc main_arg0) = W (Proc.devRef .tc main_arg0) := by
  after_results_simp
private theorem tgtRows0_src : StableHlo.after (hostOps0_2 (F := Ideal)) W (Proc.devRef .tc main_v1) = W (Proc.devRef .tc main_v1) := by
  after_results_simp
private theorem tgtRows0_tgt : StableHlo.after (hostOps0_2 (F := Ideal)) W (Proc.devRef .tc main_v3) = W (Proc.devRef .tc main_v3) := by
  after_results_simp

/-- The largest length: the running maximum of the length column. -/
private theorem largest0 {n : FVec Ideal S1600000x1 .f32} (hn : W (Proc.devRef .tc main_v6_1) = n) :
    StableHlo.after (hostOps1 (F := Ideal)) W (Proc.devRef .tc main_v7) = maxK n := by
  subst hn
  after_results
  rfl

private theorem largest0_diff : StableHlo.after (hostOps1 (F := Ideal)) W (Proc.devRef .tc main_v6_0) = W (Proc.devRef .tc main_v6_0) := by
  after_results
private theorem largest0_len : StableHlo.after (hostOps1 (F := Ideal)) W (Proc.devRef .tc main_v6_1) = W (Proc.devRef .tc main_v6_1) := by
  after_results
private theorem largest0_feat : StableHlo.after (hostOps1 (F := Ideal)) W (Proc.devRef .tc main_arg0) = W (Proc.devRef .tc main_arg0) := by
  after_results
private theorem largest0_src : StableHlo.after (hostOps1 (F := Ideal)) W (Proc.devRef .tc main_v1) = W (Proc.devRef .tc main_v1) := by
  after_results
private theorem largest0_tgt : StableHlo.after (hostOps1 (F := Ideal)) W (Proc.devRef .tc main_v3) = W (Proc.devRef .tc main_v3) := by
  after_results

/-- The update: the features minus (mu * sqrt(largest length)) times the messages summed by source node. -/
private theorem update0 {h : FVec Ideal S100000x32 .f32} {r : IVec S1600000 32} {p : FVec Ideal S1600000x32 .f32}
    {x : FVec Ideal S_ .f32} (hh : W (Proc.devRef .tc main_arg0) = h) (hr : W (Proc.devRef .tc main_v1) = r)
    (hp : W (Proc.devRef .tc main_v8) = p) (hx : W (Proc.devRef .tc main_v7) = x) :
    StableHlo.after (hostOps2 (F := Ideal)) W (Proc.devRef .tc main_v16) = updK h r p x := by
  subst hh hr hp hx
  after_results
  rfl

private theorem update0_src : StableHlo.after (hostOps2 (F := Ideal)) W (Proc.devRef .tc main_v1) = W (Proc.devRef .tc main_v1) := by
  after_results
private theorem update0_tgt : StableHlo.after (hostOps2 (F := Ideal)) W (Proc.devRef .tc main_v3) = W (Proc.devRef .tc main_v3) := by
  after_results

end Stretches

/-! ## The walk from W1 to W7 -/

variable (m : (ℓ : Loc nD τ sig) → Buf (Elt Ideal) ℓ) (ρ : Dev nD → PrngReg) (c : Dev nD)

/-- Step 0: if the boundary the step starts from holds the features `H` and the ids `R`, `C`, the boundary after this
    step's update holds `stepK H R C` in the next features buffer, and still `R` and `C`. -/
theorem iter0 {H : FVec Ideal S100000x32 .f32} {R C : IVec S1600000 32}
    (hH : W1 (F := Ideal) m ρ c (Proc.devRef .tc main_arg0) = H)
    (hR : W1 (F := Ideal) m ρ c (Proc.devRef .tc main_v1) = R)
    (hC : W1 (F := Ideal) m ρ c (Proc.devRef .tc main_v3) = C) :
    W7 (F := Ideal) m ρ c (Proc.devRef .tc main_v16) = stepK H R C
      ∧ W7 (F := Ideal) m ρ c (Proc.devRef .tc main_v1) = R
      ∧ W7 (F := Ideal) m ρ c (Proc.devRef .tc main_v3) = C := by
  -- after the source rows are gathered
  have a2 : W2 (F := Ideal) m ρ c (Proc.devRef .tc main_v4) = takeK H R := srcRows0 (W1 m ρ c) hH hR
  have h2 : W2 (F := Ideal) m ρ c (Proc.devRef .tc main_arg0) = H := (srcRows0_feat (W1 m ρ c)).trans hH
  have r2 : W2 (F := Ideal) m ρ c (Proc.devRef .tc main_v1) = R := (srcRows0_src (W1 m ρ c)).trans hR
  have c2 : W2 (F := Ideal) m ρ c (Proc.devRef .tc main_v3) = C := (srcRows0_tgt (W1 m ρ c)).trans hC
  -- after the target rows are gathered: region 0's entry
  have b3 : W3 (F := Ideal) m ρ c (Proc.devRef .tc main_v5) = takeK H C := tgtRows0 (W2 m ρ c) h2 c2
  have a3 : W3 (F := Ideal) m ρ c (Proc.devRef .tc main_v4) = takeK H R := (tgtRows0_rows (W2 m ρ c)).trans a2
  have h3 : W3 (F := Ideal) m ρ c (Proc.devRef .tc main_arg0) = H := (tgtRows0_feat (W2 m ρ c)).trans h2
  have r3 : W3 (F := Ideal) m ρ c (Proc.devRef .tc main_v1) = R := (tgtRows0_src (W2 m ρ c)).trans r2
  have c3 : W3 (F := Ideal) m ρ c (Proc.devRef .tc main_v3) = C := (tgtRows0_tgt (W2 m ρ c)).trans c2
  -- region 0's exit: the differences and the lengths
  have d4 : W4 (F := Ideal) m ρ c (Proc.devRef .tc main_v6_0) = diffK (F := Ideal) (takeK H R) (takeK H C) :=
    (W4_arr m ρ c 2).trans ((arr0_2 (V3 m ρ) c).trans (congrArg₂ (diffK (F := Ideal)) a3 b3))
  have n4 : W4 (F := Ideal) m ρ c (Proc.devRef .tc main_v6_1) = normK (takeK H R) (takeK H C) :=
    (W4_arr m ρ c 3).trans ((arr0_3 (V3 m ρ) c).trans (congrArg₂ normK a3 b3))
  have h4 : W4 (F := Ideal) m ρ c (Proc.devRef .tc main_arg0) = H := (W4_of_ne m ρ c main_arg0 (by decide)).trans h3
  have r4 : W4 (F := Ideal) m ρ c (Proc.devRef .tc main_v1) = R := (W4_of_ne m ρ c main_v1 (by decide)).trans r3
  have c4 : W4 (F := Ideal) m ρ c (Proc.devRef .tc main_v3) = C := (W4_of_ne m ρ c main_v3 (by decide)).trans c3
  -- after the largest length is found: region 1's entry
  have x5 : W5 (F := Ideal) m ρ c (Proc.devRef .tc main_v7) = maxK (normK (takeK H R) (takeK H C)) := largest0 (W4 m ρ c) n4
  have d5 : W5 (F := Ideal) m ρ c (Proc.devRef .tc main_v6_0) = diffK (F := Ideal) (takeK H R) (takeK H C) := (largest0_diff (W4 m ρ c)).trans d4
  have n5 : W5 (F := Ideal) m ρ c (Proc.devRef .tc main_v6_1) = normK (takeK H R) (takeK H C) := (largest0_len (W4 m ρ c)).trans n4
  have h5 : W5 (F := Ideal) m ρ c (Proc.devRef .tc main_arg0) = H := (largest0_feat (W4 m ρ c)).trans h4
  have r5 : W5 (F := Ideal) m ρ c (Proc.devRef .tc main_v1) = R := (largest0_src (W4 m ρ c)).trans r4
  have c5 : W5 (F := Ideal) m ρ c (Proc.devRef .tc main_v3) = C := (largest0_tgt (W4 m ρ c)).trans c4
  -- region 1's exit: the messages
  have p6 : W6 (F := Ideal) m ρ c (Proc.devRef .tc main_v8)
      = preK (diffK (F := Ideal) (takeK H R) (takeK H C)) (normK (takeK H R) (takeK H C)) :=
    (W6_arr m ρ c 2).trans ((arr1_2 (V5 m ρ) c).trans (congrArg₂ preK d5 n5))
  have x6 : W6 (F := Ideal) m ρ c (Proc.devRef .tc main_v7) = maxK (normK (takeK H R) (takeK H C)) := (W6_of_ne m ρ c main_v7 (by decide)).trans x5
  have h6 : W6 (F := Ideal) m ρ c (Proc.devRef .tc main_arg0) = H := (W6_of_ne m ρ c main_arg0 (by decide)).trans h5
  have r6 : W6 (F := Ideal) m ρ c (Proc.devRef .tc main_v1) = R := (W6_of_ne m ρ c main_v1 (by decide)).trans r5
  have c6 : W6 (F := Ideal) m ρ c (Proc.devRef .tc main_v3) = C := (W6_of_ne m ρ c main_v3 (by decide)).trans c5
  -- after the update
  exact ⟨update0 (W6 m ρ c) h6 r6 p6 x6, (update0_src (W6 m ρ c)).trans r6, (update0_tgt (W6 m ρ c)).trans c6⟩

end Cert.KernelIdeal.PLap

end
-- ==== Proof.PLap.KRegion2.lean ====
/-
  Region 2 of the program (the difference-and-length kernel, run over 250 blocks of 6400 edges): what its two output
  arrays hold when it is done, as whole-array functions of its two input arrays as the region finds them. Block t of
  each output is the kernel body's value on block t of the inputs; the blocks tile the arrays, so the difference array
  is the entrywise difference and the length column is the clamped row length of that difference.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The two zero offsets of a whole-block access, as the constant function. -/
private theorem off_zero : (![0, 0] : Fin 2 → Nat) = fun _ => 0 := funext fun a => by fin_cases a <;> rfl

/-- The printed index maps, decided over the grid: at point t every window's block index is (t, 0). -/
private theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The difference payload is the entrywise difference of its two loaded blocks. -/
private theorem pay2_2_eq (xa xb : Vec Ideal S6400x32 .f32) : k2_pay1 (F := Ideal) xa xb = subf xa xb := by
  unfold k2_pay1
  simp only [shapeCast_self]

/-- What point t writes back to the difference array is block t of the entrywise difference of the two input arrays. -/
private theorem flushed2_2_eq (c : Dev nD) (t : Fin cfg2.N) :
    (dat2 (F := Ideal) V c).flushed 2 t
      = ((cfg2.win 2).blk t).view.read (Elt Ideal) (diffK (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero off_zero]
  simp only [View.ld_unit_zero (S := S6400x32) off_zero]
  rw [pay2_2_eq]
  obtain ⟨ea, eb, ec, ed, ee, ef, eg, eh⟩ := idx_facts2 t
  funext j
  show FloatOps.subf (F := Ideal) (φ := .f32) (V c (Pipeline.arrRef spec2 0) (((cfg2.win 0).blk t).view.emb j)) (V c (Pipeline.arrRef spec2 1) (((cfg2.win 1).blk t).view.emb j))
    = FloatOps.subf (F := Ideal) (φ := .f32) (V c (Pipeline.arrRef spec2 0) (((cfg2.win 2).blk t).view.emb j)) (V c (Pipeline.arrRef spec2 1) (((cfg2.win 2).blk t).view.emb j))
  have ha : ((cfg2.win 0).blk t).view.emb j = ((cfg2.win 2).blk t).view.emb j := by
    funext a; apply Fin.ext
    match a with
    | ⟨0, _⟩ => show win2_0.index t (0 : Fin 2) * 6400 + 1 * (j 0).val = win2_2.index t (0 : Fin 2) * 6400 + 1 * (j 0).val; omega
    | ⟨1, _⟩ => show win2_0.index t (1 : Fin 2) * 32 + 1 * (j 1).val = win2_2.index t (1 : Fin 2) * 32 + 1 * (j 1).val; omega
  have hb : ((cfg2.win 1).blk t).view.emb j = ((cfg2.win 2).blk t).view.emb j := by
    funext a; apply Fin.ext
    match a with
    | ⟨0, _⟩ => show win2_1.index t (0 : Fin 2) * 6400 + 1 * (j 0).val = win2_2.index t (0 : Fin 2) * 6400 + 1 * (j 0).val; omega
    | ⟨1, _⟩ => show win2_1.index t (1 : Fin 2) * 32 + 1 * (j 1).val = win2_2.index t (1 : Fin 2) * 32 + 1 * (j 1).val; omega
  rw [ha, hb]

/-- An index of the difference array is in point t's block iff each coordinate is in the block's range on its axis. -/
private theorem mem_blk2_2 (t : Fin cfg2.N) (i : S1600000x32.Idx) :
    i ∈ ((cfg2.win 2).blk t).view.set ↔ ∀ a : Fin 2, win2_2.index t a * S6400x32.size a ≤ (i a).val ∧ (i a).val < win2_2.index t a * S6400x32.size a + S6400x32.size a := by
  show i ∈ ((View.whole (Pipeline.arrRef spec2 2)).slice (win2_2.rect t)).set ↔ _
  rw [View.set_slice_whole, Rect.mem_set_unit]
  exact Iff.rfl

/-- Every index of the difference array is in some point's block: row r is in the block of point r / 6400. -/
private theorem covered2_2 (i : S1600000x32.Idx) :
    ∃ t : Fin cfg2.N, (cfg2.win 2).flush t = true ∧ i ∈ ((cfg2.win 2).blk t).view.set := by
  have hN : grid2.N = 250 := N_2
  have hr : (i 0).val < 1600000 := (i 0).isLt
  have hq : (i 1).val < 32 := (i 1).isLt
  obtain ⟨t, ht⟩ : ∃ t : Fin cfg2.N, t.val = (i 0).val / 6400 :=
    ⟨⟨(i 0).val / 6400, by show (i 0).val / 6400 < grid2.N; omega⟩, rfl⟩
  obtain ⟨ea, eb, ec, ed, ee, ef, eg, eh⟩ := idx_facts2 t
  refine ⟨t, flush2_2 t, ?_⟩
  rw [mem_blk2_2]
  intro a
  match a with
  | ⟨0, _⟩ => show win2_2.index t (0 : Fin 2) * 6400 ≤ (i 0).val ∧ (i 0).val < win2_2.index t (0 : Fin 2) * 6400 + 6400; omega
  | ⟨1, _⟩ => show win2_2.index t (1 : Fin 2) * 32 ≤ (i 1).val ∧ (i 1).val < win2_2.index t (1 : Fin 2) * 32 + 32; omega

/-- The difference array after region 2: the entrywise difference of the region's two input arrays. -/
theorem arr2_2 (c : Dev nD) :
    (dat2 (F := Ideal) V c).arrAt 2 cfg2.N = diffK (F := Ideal) (V c (Pipeline.arrRef spec2 0)) (V c (Pipeline.arrRef spec2 1)) :=
  (dat2 (F := Ideal) V c).arrAt_eq_of_cover 2 (diffK (F := Ideal) (V c (Pipeline.arrRef spec2 0)) (V c (Pipeline.arrRef spec2 1)))
    (fun t _ => flushed2_2_eq V c t) covered2_2

/-- A vector of length a cast to a column [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum over the 32 lanes of a block, read at row p. -/
private theorem rowsum2_3_apply (y : FVec Ideal S6400x32 .f32) (p : Fin 6400) :
    multiReduction (F := Ideal) .add [1] S6400 y 0x00000000#32 Facts₀.reduces_S6400x32_S6400 (.inl rfl) rfl (ix1 p)
      = ∑ q : Fin 32, y (ix2 p q) := by
  refine (Ideal.multiReduction_add_single y 0x00000000#32 Facts₀.reduces_S6400x32_S6400 (.inl rfl) rfl (ix1 p)).trans ?_
  refine Finset.sum_congr rfl fun q _ => congrArg y ?_
  funext a
  match a with
  | ⟨0, _⟩ => rfl
  | ⟨1, _⟩ => rfl

/-- The length payload at row p: the clamped length of the row of differences of its two loaded blocks. -/
private theorem pay2_3_apply (xa xb : Vec Ideal S6400x32 .f32) (p : Fin 6400) (u : Fin 1) :
    k2_pay2 (F := Ideal) xa xb (ix2 p u)
      = max (Ideal.sqrt (∑ q : Fin 32, (xa (ix2 p q) - xb (ix2 p q)) * (xa (ix2 p q) - xb (ix2 p q))))
          (Ideal.ofBits .f32 0x358637BD#32) := by
  unfold k2_pay2
  rw [pay2_2_eq]
  show max (Ideal.sqrt (shapeCast S6400x1 (multiReduction (F := Ideal) .add [1] S6400 (mulf (subf xa xb) (subf xa xb)) 0x00000000#32
      Facts₀.reduces_S6400x32_S6400 (.inl rfl) rfl) Facts₀.shapeCasts_S6400_S6400x1 (ix2 p u))) (Ideal.ofBits .f32 0x358637BD#32) = _
  rw [shapeCast_a_a1_apply, rowsum2_3_apply]
  rfl

/-- The length payload of two blocks whose row p holds row (i 0) of two arrays is the clamped row length of the
    arrays' difference at i. -/
private theorem pay2_3_eq_normK (A B : FVec Ideal S1600000x32 .f32) (xa xb : Vec Ideal S6400x32 .f32) (p : Fin 6400) (u : Fin 1)
    (i : S1600000x1.Idx)
    (ha : ∀ q : Fin 32, xa (ix2 p q) = A (ix2 (i 0) q))
    (hb : ∀ q : Fin 32, xb (ix2 p q) = B (ix2 (i 0) q)) :
    k2_pay2 (F := Ideal) xa xb (ix2 p u) = normK A B i := by
  rw [pay2_3_apply]
  unfold normK
  simp only [ha, hb]

/-- What point t writes back to the length column is block t of the clamped row lengths of the difference of the two
    input arrays. -/
private theorem flushed2_3_eq (c : Dev nD) (t : Fin cfg2.N) :
    (dat2 (F := Ideal) V c).flushed 3 t
      = ((cfg2.win 3).blk t).view.read (Elt Ideal) (normK (V c (Pipeline.arrRef spec2 0)) (V c (Pipeline.arrRef spec2 1))) := by
  show (cfg2.win 3).cut (grid2.coords t) ((dat2 V c).after 3 t) = _
  rw [after2_3]
  unfold out2_3
  rw [View.canon_unit_zero off_zero]
  simp only [View.ld_unit_zero (S := S6400x32) off_zero]
  obtain ⟨ea, eb, ec, ed, ee, ef, eg, eh⟩ := idx_facts2 t
  funext j
  obtain ⟨p, u, rfl⟩ : ∃ (p : Fin 6400) (u : Fin 1), j = ix2 p u := ⟨j 0, j 1, eq_ix2 j⟩
  refine pay2_3_eq_normK (V c (Pipeline.arrRef spec2 0)) (V c (Pipeline.arrRef spec2 1)) (iblk2 V c 0 t) (iblk2 V c 1 t) p u
    (((cfg2.win 3).blk t).view.emb (ix2 p u)) (fun q => ?_) (fun q => ?_)
  · show V c (Pipeline.arrRef spec2 0) (((cfg2.win 0).blk t).view.emb (ix2 p q)) = _
    congr 1
    funext a; apply Fin.ext
    match a with
    | ⟨0, _⟩ => show win2_0.index t (0 : Fin 2) * 6400 + 1 * p.val = win2_3.index t (0 : Fin 2) * 6400 + 1 * p.val; omega
    | ⟨1, _⟩ => show win2_0.index t (1 : Fin 2) * 32 + 1 * q.val = q.val; omega
  · show V c (Pipeline.arrRef spec2 1) (((cfg2.win 1).blk t).view.emb (ix2 p q)) = _
    congr 1
    funext a; apply Fin.ext
    match a with
    | ⟨0, _⟩ => show win2_1.index t (0 : Fin 2) * 6400 + 1 * p.val = win2_3.index t (0 : Fin 2) * 6400 + 1 * p.val; omega
    | ⟨1, _⟩ => show win2_1.index t (1 : Fin 2) * 32 + 1 * q.val = q.val; omega

/-- An index of the length column is in point t's block iff each coordinate is in the block's range on its axis. -/
private theorem mem_blk2_3 (t : Fin cfg2.N) (i : S1600000x1.Idx) :
    i ∈ ((cfg2.win 3).blk t).view.set ↔ ∀ a : Fin 2, win2_3.index t a * S6400x1.size a ≤ (i a).val ∧ (i a).val < win2_3.index t a * S6400x1.size a + S6400x1.size a := by
  show i ∈ ((View.whole (Pipeline.arrRef spec2 3)).slice (win2_3.rect t)).set ↔ _
  rw [View.set_slice_whole, Rect.mem_set_unit]
  exact Iff.rfl

/-- Every index of the length column is in some point's block: row r is in the block of point r / 6400. -/
private theorem covered2_3 (i : S1600000x1.Idx) :
    ∃ t : Fin cfg2.N, (cfg2.win 3).flush t = true ∧ i ∈ ((cfg2.win 3).blk t).view.set := by
  have hN : grid2.N = 250 := N_2
  have hr : (i 0).val < 1600000 := (i 0).isLt
  have hq : (i 1).val < 1 := (i 1).isLt
  obtain ⟨t, ht⟩ : ∃ t : Fin cfg2.N, t.val = (i 0).val / 6400 :=
    ⟨⟨(i 0).val / 6400, by show (i 0).val / 6400 < grid2.N; omega⟩, rfl⟩
  obtain ⟨ea, eb, ec, ed, ee, ef, eg, eh⟩ := idx_facts2 t
  refine ⟨t, flush2_3 t, ?_⟩
  rw [mem_blk2_3]
  intro a
  match a with
  | ⟨0, _⟩ => show win2_3.index t (0 : Fin 2) * 6400 ≤ (i 0).val ∧ (i 0).val < win2_3.index t (0 : Fin 2) * 6400 + 6400; omega
  | ⟨1, _⟩ => show win2_3.index t (1 : Fin 2) * 1 ≤ (i 1).val ∧ (i 1).val < win2_3.index t (1 : Fin 2) * 1 + 1; omega

/-- The length column after region 2: the clamped row length of the difference of the region's two input arrays. -/
theorem arr2_3 (c : Dev nD) :
    (dat2 (F := Ideal) V c).arrAt 3 cfg2.N = normK (V c (Pipeline.arrRef spec2 0)) (V c (Pipeline.arrRef spec2 1)) :=
  (dat2 (F := Ideal) V c).arrAt_eq_of_cover 3 (normK (V c (Pipeline.arrRef spec2 0)) (V c (Pipeline.arrRef spec2 1)))
    (fun t _ => flushed2_3_eq V c t) covered2_3

end Cert.KernelIdeal.PLap

end
-- ==== Proof.PLap.KRegion3.lean ====
/-
  Region 3 of the program (the message kernel, run over 250 blocks of 6400 edges): what its output array holds when it
  is done, as a whole-array function of its two input arrays (the differences and the length column) as the region
  finds them. Block t of the output is the kernel body's value on block t of the inputs; the blocks tile the array, so
  the message array is, entry by entry, zero minus the difference, times the reciprocal square root of the edge's length.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's value at one entry of a block -/

/-- The offsets of a whole-block access, both zero. -/
private theorem off_zero : (![0, 0] : Fin 2 → Nat) = fun _ => 0 :=
  funext fun a => match a with | ⟨0, _⟩ => rfl | ⟨1, _⟩ => rfl

/-- A column `[a, 1]` broadcast to `[a, b]` reads, at `(p, q)`, the column's entry of row `p`: the row axis is kept
    (when `a = 1` its only coordinate is `0` either way), the unit axis is read at `0`. -/
private theorem bcast_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at entry `(p, q)` of a block, from the block `n` of lengths and the block `d` of differences:
    zero minus the difference at `(p, q)`, times the reciprocal square root of the length of row `p`. The two casts to
    the same shape are identities, the scalar zero is read everywhere, and the column of reciprocal roots is read at its row. -/
private theorem k3_pay1_apply (n : Vec Ideal S6400x1 .f32) (d : Vec Ideal S6400x32 .f32) (p : Fin 6400) (q : Fin 32) :
    k3_pay1 (F := Ideal) n d (ix2 p q)
      = (Ideal.ofBits .f32 0x00000000#32 - d (ix2 p q)) * Ideal.rsqrt (n (ix2 p (0 : Fin 1))) := by
  unfold k3_pay1
  simp only [shapeCast_self]
  rw [mulf_apply, subf_apply, broadcast_apply, bcast_col_apply]
  rfl

/-! ## Where the blocks sit -/

/-- At grid point `t` every window's block index is `(t, 0)`: the three windows move together down the rows
    (decided over the 250 points). -/
private theorem idx_facts3_2 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Entry `(p, q)` of the difference window's block at point `t` is the difference array at the place where entry
    `(p, q)` of the output's block at `t` sits: on each axis, block index times block size plus the coordinate inside. -/
private theorem iblk3_0_apply (c : Dev nD) (t : Fin cfg3.N) (p : Fin 6400) (q : Fin 32) :
    iblk3 V c 0 t (ix2 p q) = V c (Pipeline.arrRef spec3 0) (((cfg3.win 2).blk t).view.emb (ix2 p q)) := by
  obtain ⟨ea, eb, ec, ed, ee, ef⟩ := idx_facts3_2 t
  unfold iblk3
  show V c (Pipeline.arrRef spec3 0) (((cfg3.win 0).blk t).view.emb (ix2 p q)) = _
  refine congrArg _ (funext fun a => Fin.ext ?_)
  match a with
  | ⟨0, _⟩ =>
    show win3_0.index t (0 : Fin 2) * 6400 + 1 * p.val = win3_2.index t (0 : Fin 2) * 6400 + 1 * p.val
    omega
  | ⟨1, _⟩ =>
    show win3_0.index t (1 : Fin 2) * 32 + 1 * q.val = win3_2.index t (1 : Fin 2) * 32 + 1 * q.val
    omega

/-- Entry `(p, 0)` of the length window's block at point `t` is the length column at the row where entry `(p, q)` of
    the output's block at `t` sits. -/
private theorem iblk3_1_apply (c : Dev nD) (t : Fin cfg3.N) (p : Fin 6400) (q : Fin 32) :
    iblk3 V c 1 t (ix2 p (0 : Fin 1))
      = V c (Pipeline.arrRef spec3 1)
          (ix2 (n0 := 1600000) ((((cfg3.win 2).blk t).view.emb (ix2 p q)) 0) (0 : Fin 1)) := by
  obtain ⟨ea, eb, ec, ed, ee, ef⟩ := idx_facts3_2 t
  unfold iblk3
  show V c (Pipeline.arrRef spec3 1) (((cfg3.win 1).blk t).view.emb (ix2 p (0 : Fin 1))) = _
  refine congrArg _ (funext fun a => Fin.ext ?_)
  match a with
  | ⟨0, _⟩ =>
    show win3_1.index t (0 : Fin 2) * 6400 + 1 * p.val = win3_2.index t (0 : Fin 2) * 6400 + 1 * p.val
    omega
  | ⟨1, _⟩ =>
    show win3_1.index t (1 : Fin 2) * 1 + 1 * 0 = 0
    omega

/-! ## What each point writes back -/

/-- What point `t` writes back to the message array is block `t` of the whole-array message function of the two input
    arrays: the body's one store fills the staging block with its value on the two input blocks, and entry by entry
    that value reads the input arrays exactly where the output's block sits. -/
private theorem flushed3_2_eq (c : Dev nD) (t : Fin cfg3.N) :
    (dat3 (F := Ideal) V c).flushed 2 t
      = ((cfg3.win 2).blk t).view.read (Elt Ideal)
          (preK (V c (Pipeline.arrRef spec3 0)) (V c (Pipeline.arrRef spec3 1))) := by
  show (cfg3.win 2).cut (grid3.coords t) ((dat3 V c).after 2 t) = _
  rw [after3_2]
  unfold out3_2
  rw [View.canon_unit_zero off_zero]
  simp only [View.ld_unit_zero (S := S6400x32) off_zero, View.ld_unit_zero (S := S6400x1) off_zero]
  funext j
  obtain ⟨p, q, rfl⟩ : ∃ (p : Fin 6400) (q : Fin 32), j = ix2 p q := ⟨j 0, j 1, eq_ix2 j⟩
  show k3_pay1 (F := Ideal) (iblk3 V c 1 t) (iblk3 V c 0 t) (ix2 p q)
    = preK (V c (Pipeline.arrRef spec3 0)) (V c (Pipeline.arrRef spec3 1)) (((cfg3.win 2).blk t).view.emb (ix2 p q))
  refine (k3_pay1_apply _ _ p q).trans ?_
  rw [iblk3_0_apply V c t p q, iblk3_1_apply V c t p q]
  rfl

/-! ## The blocks tile the array -/

/-- An index of the message array is in point `t`'s block iff each coordinate is in the block's range on its axis. -/
private theorem mem_blk3_2 (t : Fin cfg3.N) (i : S1600000x32.Idx) :
    i ∈ ((cfg3.win 2).blk t).view.set
      ↔ ∀ a : Fin 2, win3_2.index t a * S6400x32.size a ≤ (i a).val
          ∧ (i a).val < win3_2.index t a * S6400x32.size a + S6400x32.size a := by
  show i ∈ ((View.whole main_v21).slice (win3_2.rect t)).set ↔ _
  rw [View.set_slice_whole, Rect.mem_set_unit]
  exact Iff.rfl

/-- Every index of the message array is in some point's block: row `r` is in the block of point `r / 6400`
    (250 blocks of 6400 rows are the 1600000 rows), and a block spans all 32 columns. -/
private theorem covered3_2 (i : S1600000x32.Idx) :
    ∃ t : Fin cfg3.N, (cfg3.win 2).flush t = true ∧ i ∈ ((cfg3.win 2).blk t).view.set := by
  have hrow : (i 0).val < 1600000 := (i 0).isLt
  have hcol : (i 1).val < 32 := (i 1).isLt
  have hN : cfg3.N = 250 := N_3
  have ht : (i 0).val / 6400 < cfg3.N := by rw [hN]; omega
  obtain ⟨ea, eb, ec, ed, ee, ef⟩ := idx_facts3_2 ⟨(i 0).val / 6400, ht⟩
  refine ⟨⟨(i 0).val / 6400, ht⟩, flush3_2 _, ?_⟩
  rw [mem_blk3_2]
  intro a
  match a with
  | ⟨0, _⟩ =>
    show win3_2.index ⟨(i 0).val / 6400, ht⟩ (0 : Fin 2) * 6400 ≤ (i 0).val
      ∧ (i 0).val < win3_2.index ⟨(i 0).val / 6400, ht⟩ (0 : Fin 2) * 6400 + 6400
    rw [ee]
    show (i 0).val / 6400 * 6400 ≤ (i 0).val ∧ (i 0).val < (i 0).val / 6400 * 6400 + 6400
    omega
  | ⟨1, _⟩ =>
    show win3_2.index ⟨(i 0).val / 6400, ht⟩ (1 : Fin 2) * 32 ≤ (i 1).val
      ∧ (i 1).val < win3_2.index ⟨(i 0).val / 6400, ht⟩ (1 : Fin 2) * 32 + 32
    rw [ef]
    omega

/-! ## The array after the region -/

/-- The message array after region 3: (0 - difference) / sqrt(length), entry by entry. -/
theorem arr3_2 (c : Dev nD) :
    (dat3 (F := Ideal) V c).arrAt 2 cfg3.N = preK (V c (Pipeline.arrRef spec3 0)) (V c (Pipeline.arrRef spec3 1)) :=
  (dat3 (F := Ideal) V c).arrAt_eq_of_cover 2 (preK (V c (Pipeline.arrRef spec3 0)) (V c (Pipeline.arrRef spec3 1)))
    (fun t _ => flushed3_2_eq V c t) covered3_2

end Cert.KernelIdeal.PLap

end
-- ==== Proof.PLap.KIter1.lean ====
/-
  Step 1 of the kernel's program, read boundary by boundary. Between the boundary the step starts from (W7) and
  the boundary after this step's update (W13) lie four host stretches and two kernel regions: gather the source rows,
  gather the target rows, the difference-and-length kernel, the largest length, the message kernel, the update. From
  any contents a stretch leaves its result as the matching piece of `stepK` and writes none of the buffers still
  needed; a region leaves its output arrays at their whole-array closed forms and every other buffer alone. Walking the
  six boundaries: if W7 holds the features H and the ids R, C, then W13 holds stepK H R C, and still R and C.
-/
import proofs.«409662_j32736240730465_2_alg».proof.Proof.Gen.KernelIdeal.Frame
import proofs.«409662_j32736240730465_2_alg».proof.Proof.PLap.KStep
import proofs.«409662_j32736240730465_2_alg».proof.Proof.PLap.KRegion2
import proofs.«409662_j32736240730465_2_alg».proof.Proof.PLap.KRegion3
import Idealize.ShloMosaic.Lib.StableHlo.Run

set_option maxRecDepth 16384
set_option maxHeartbeats 1600000

noncomputable section

namespace Cert.KernelIdeal.PLap

open Idealize.ShloMosaic Idealize.ShloMosaic.TcCoe Idealize.SL.Sem Idealize.ShloMosaic.StableHlo
open Cert.KernelIdeal Cert.KernelIdeal.Gen

/-- A value carried into a typed reference's buffer and back is the value. -/
private theorem ofBuf_toBuf {T : BufTy} (x : TRef sig T) (v : T.Contents (Elt Ideal)) : x.ofBuf (x.toBuf v) = v := by
  obtain ⟨ref, rfl, h2, h3⟩ := x
  rfl

/-! ## The four host stretches of step 1, from any contents -/

section Stretches

variable (W : Valuation τ sig (Elt Ideal))

/-- Gathering the source rows: the result is the guarded gather of the features at the source ids. -/
private theorem srcRows1 {h : FVec Ideal S100000x32 .f32} {r : IVec S1600000 32}
    (hh : W (Proc.devRef .tc main_v16) = h) (hr : W (Proc.devRef .tc main_v1) = r) :
    StableHlo.after (hostOps2_1 (F := Ideal)) W (Proc.devRef .tc main_v17) = takeK h r := by
  subst hh hr
  after_results_simp
  simp only [ofBuf_toBuf]
  congr 1

private theorem srcRows1_feat : StableHlo.after (hostOps2_1 (F := Ideal)) W (Proc.devRef .tc main_v16) = W (Proc.devRef .tc main_v16) := by
  after_results_simp
private theorem srcRows1_src : StableHlo.after (hostOps2_1 (F := Ideal)) W (Proc.devRef .tc main_v1) = W (Proc.devRef .tc main_v1) := by
  after_results_simp
private theorem srcRows1_tgt : StableHlo.after (hostOps2_1 (F := Ideal)) W (Proc.devRef .tc main_v3) = W (Proc.devRef .tc main_v3) := by
  after_results_simp

/-- Gathering the target rows: the result is the guarded gather of the features at the target ids. -/
private theorem tgtRows1 {h : FVec Ideal S100000x32 .f32} {r : IVec S1600000 32}
    (hh : W (Proc.devRef .tc main_v16) = h) (hr : W (Proc.devRef .tc main_v3) = r) :
    StableHlo.after (hostOps2_2 (F := Ideal)) W (Proc.devRef .tc main_v18) = takeK h r := by
  subst hh hr
  after_results_simp
  simp only [ofBuf_toBuf]
  congr 1

private theorem tgtRows1_rows : StableHlo.after (hostOps2_2 (F := Ideal)) W (Proc.devRef .tc main_v17) = W (Proc.devRef .tc main_v17) := by
  after_results_simp
private theorem tgtRows1_feat : StableHlo.after (hostOps2_2 (F := Ideal)) W (Proc.devRef .tc main_v16) = W (Proc.devRef .tc main_v16) := by
  after_results_simp
private theorem tgtRows1_src : StableHlo.after (hostOps2_2 (F := Ideal)) W (Proc.devRef .tc main_v1) = W (Proc.devRef .tc main_v1) := by
  after_results_simp
private theorem tgtRows1_tgt : StableHlo.after (hostOps2_2 (F := Ideal)) W (Proc.devRef .tc main_v3) = W (Proc.devRef .tc main_v3) := by
  after_results_simp

/-- The largest length: the running maximum of the length column. -/
private theorem largest1 {n : FVec Ideal S1600000x1 .f32} (hn : W (Proc.devRef .tc main_v19_1) = n) :
    StableHlo.after (hostOps3 (F := Ideal)) W (Proc.devRef .tc main_v20) = maxK n := by
  subst hn
  after_results
  rfl

private theorem largest1_diff : StableHlo.after (hostOps3 (F := Ideal)) W (Proc.devRef .tc main_v19_0) = W (Proc.devRef .tc main_v19_0) := by
  after_results
private theorem largest1_len : StableHlo.after (hostOps3 (F := Ideal)) W (Proc.devRef .tc main_v19_1) = W (Proc.devRef .tc main_v19_1) := by
  after_results
private theorem largest1_feat : StableHlo.after (hostOps3 (F := Ideal)) W (Proc.devRef .tc main_v16) = W (Proc.devRef .tc main_v16) := by
  after_results
private theorem largest1_src : StableHlo.after (hostOps3 (F := Ideal)) W (Proc.devRef .tc main_v1) = W (Proc.devRef .tc main_v1) := by
  after_results
private theorem largest1_tgt : StableHlo.after (hostOps3 (F := Ideal)) W (Proc.devRef .tc main_v3) = W (Proc.devRef .tc main_v3) := by
  after_results

/-- The update: the features minus (mu * sqrt(largest length)) times the messages summed by source node. -/
private theorem update1 {h : FVec Ideal S100000x32 .f32} {r : IVec S1600000 32} {p : FVec Ideal S1600000x32 .f32}
    {x : FVec Ideal S_ .f32} (hh : W (Proc.devRef .tc main_v16) = h) (hr : W (Proc.devRef .tc main_v1) = r)
    (hp : W (Proc.devRef .tc main_v21) = p) (hx : W (Proc.devRef .tc main_v20) = x) :
    StableHlo.after (hostOps4 (F := Ideal)) W (Proc.devRef .tc main_v29) = updK h r p x := by
  subst hh hr hp hx
  after_results
  rfl

private theorem update1_src : StableHlo.after (hostOps4 (F := Ideal)) W (Proc.devRef .tc main_v1) = W (Proc.devRef .tc main_v1) := by
  after_results
private theorem update1_tgt : StableHlo.after (hostOps4 (F := Ideal)) W (Proc.devRef .tc main_v3) = W (Proc.devRef .tc main_v3) := by
  after_results

end Stretches

/-! ## The walk from W7 to W13 -/

variable (m : (ℓ : Loc nD τ sig) → Buf (Elt Ideal) ℓ) (ρ : Dev nD → PrngReg) (c : Dev nD)

/-- Step 1: if the boundary the step starts from holds the features `H` and the ids `R`, `C`, the boundary after this
    step's update holds `stepK H R C` in the next features buffer, and still `R` and `C`. -/
theorem iter1 {H : FVec Ideal S100000x32 .f32} {R C : IVec S1600000 32}
    (hH : W7 (F := Ideal) m ρ c (Proc.devRef .tc main_v16) = H)
    (hR : W7 (F := Ideal) m ρ c (Proc.devRef .tc main_v1) = R)
    (hC : W7 (F := Ideal) m ρ c (Proc.devRef .tc main_v3) = C) :
    W13 (F := Ideal) m ρ c (Proc.devRef .tc main_v29) = stepK H R C
      ∧ W13 (F := Ideal) m ρ c (Proc.devRef .tc main_v1) = R
      ∧ W13 (F := Ideal) m ρ c (Proc.devRef .tc main_v3) = C := by
  -- after the source rows are gathered
  have a2 : W8 (F := Ideal) m ρ c (Proc.devRef .tc main_v17) = takeK H R := srcRows1 (W7 m ρ c) hH hR
  have h2 : W8 (F := Ideal) m ρ c (Proc.devRef .tc main_v16) = H := (srcRows1_feat (W7 m ρ c)).trans hH
  have r2 : W8 (F := Ideal) m ρ c (Proc.devRef .tc main_v1) = R := (srcRows1_src (W7 m ρ c)).trans hR
  have c2 : W8 (F := Ideal) m ρ c (Proc.devRef .tc main_v3) = C := (srcRows1_tgt (W7 m ρ c)).trans hC
  -- after the target rows are gathered: region 2's entry
  have b3 : W9 (F := Ideal) m ρ c (Proc.devRef .tc main_v18) = takeK H C := tgtRows1 (W8 m ρ c) h2 c2
  have a3 : W9 (F := Ideal) m ρ c (Proc.devRef .tc main_v17) = takeK H R := (tgtRows1_rows (W8 m ρ c)).trans a2
  have h3 : W9 (F := Ideal) m ρ c (Proc.devRef .tc main_v16) = H := (tgtRows1_feat (W8 m ρ c)).trans h2
  have r3 : W9 (F := Ideal) m ρ c (Proc.devRef .tc main_v1) = R := (tgtRows1_src (W8 m ρ c)).trans r2
  have c3 : W9 (F := Ideal) m ρ c (Proc.devRef .tc main_v3) = C := (tgtRows1_tgt (W8 m ρ c)).trans c2
  -- region 2's exit: the differences and the lengths
  have d4 : W10 (F := Ideal) m ρ c (Proc.devRef .tc main_v19_0) = diffK (F := Ideal) (takeK H R) (takeK H C) :=
    (W10_arr m ρ c 2).trans ((arr2_2 (V9 m ρ) c).trans (congrArg₂ (diffK (F := Ideal)) a3 b3))
  have n4 : W10 (F := Ideal) m ρ c (Proc.devRef .tc main_v19_1) = normK (takeK H R) (takeK H C) :=
    (W10_arr m ρ c 3).trans ((arr2_3 (V9 m ρ) c).trans (congrArg₂ normK a3 b3))
  have h4 : W10 (F := Ideal) m ρ c (Proc.devRef .tc main_v16) = H := (W10_of_ne m ρ c main_v16 (by decide)).trans h3
  have r4 : W10 (F := Ideal) m ρ c (Proc.devRef .tc main_v1) = R := (W10_of_ne m ρ c main_v1 (by decide)).trans r3
  have c4 : W10 (F := Ideal) m ρ c (Proc.devRef .tc main_v3) = C := (W10_of_ne m ρ c main_v3 (by decide)).trans c3
  -- after the largest length is found: region 3's entry
  have x5 : W11 (F := Ideal) m ρ c (Proc.devRef .tc main_v20) = maxK (normK (takeK H R) (takeK H C)) := largest1 (W10 m ρ c) n4
  have d5 : W11 (F := Ideal) m ρ c (Proc.devRef .tc main_v19_0) = diffK (F := Ideal) (takeK H R) (takeK H C) := (largest1_diff (W10 m ρ c)).trans d4
  have n5 : W11 (F := Ideal) m ρ c (Proc.devRef .tc main_v19_1) = normK (takeK H R) (takeK H C) := (largest1_len (W10 m ρ c)).trans n4
  have h5 : W11 (F := Ideal) m ρ c (Proc.devRef .tc main_v16) = H := (largest1_feat (W10 m ρ c)).trans h4
  have r5 : W11 (F := Ideal) m ρ c (Proc.devRef .tc main_v1) = R := (largest1_src (W10 m ρ c)).trans r4
  have c5 : W11 (F := Ideal) m ρ c (Proc.devRef .tc main_v3) = C := (largest1_tgt (W10 m ρ c)).trans c4
  -- region 3's exit: the messages
  have p6 : W12 (F := Ideal) m ρ c (Proc.devRef .tc main_v21)
      = preK (diffK (F := Ideal) (takeK H R) (takeK H C)) (normK (takeK H R) (takeK H C)) :=
    (W12_arr m ρ c 2).trans ((arr3_2 (V11 m ρ) c).trans (congrArg₂ preK d5 n5))
  have x6 : W12 (F := Ideal) m ρ c (Proc.devRef .tc main_v20) = maxK (normK (takeK H R) (takeK H C)) := (W12_of_ne m ρ c main_v20 (by decide)).trans x5
  have h6 : W12 (F := Ideal) m ρ c (Proc.devRef .tc main_v16) = H := (W12_of_ne m ρ c main_v16 (by decide)).trans h5
  have r6 : W12 (F := Ideal) m ρ c (Proc.devRef .tc main_v1) = R := (W12_of_ne m ρ c main_v1 (by decide)).trans r5
  have c6 : W12 (F := Ideal) m ρ c (Proc.devRef .tc main_v3) = C := (W12_of_ne m ρ c main_v3 (by decide)).trans c5
  -- after the update
  exact ⟨update1 (W12 m ρ c) h6 r6 p6 x6, (update1_src (W12 m ρ c)).trans r6, (update1_tgt (W12 m ρ c)).trans c6⟩

end Cert.KernelIdeal.PLap

end
-- ==== Proof.PLap.KRegion4.lean ====
/-
  Region 4 of the program (the difference-and-length kernel, run over 250 blocks of 6400 edges): what its two output
  arrays hold when it is done, as whole-array functions of its two input arrays as the region finds them. Block t of
  each output is the kernel body's value on block t of the inputs; the blocks tile the arrays, so the difference array
  is the entrywise difference and the length column is the clamped row length of that difference.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The two zero offsets of a whole-block access, as the constant function. -/
private theorem off_zero : (![0, 0] : Fin 2 → Nat) = fun _ => 0 := funext fun a => by fin_cases a <;> rfl

/-- The printed index maps, decided over the grid: at point t every window's block index is (t, 0). -/
private theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The difference payload is the entrywise difference of its two loaded blocks. -/
private theorem pay4_2_eq (xa xb : Vec Ideal S6400x32 .f32) : k4_pay1 (F := Ideal) xa xb = subf xa xb := by
  unfold k4_pay1
  simp only [shapeCast_self]

/-- What point t writes back to the difference array is block t of the entrywise difference of the two input arrays. -/
private theorem flushed4_2_eq (c : Dev nD) (t : Fin cfg4.N) :
    (dat4 (F := Ideal) V c).flushed 2 t
      = ((cfg4.win 2).blk t).view.read (Elt Ideal) (diffK (F := Ideal) (V c (Pipeline.arrRef spec4 0)) (V c (Pipeline.arrRef spec4 1))) := by
  show (cfg4.win 2).cut (grid4.coords t) ((dat4 V c).after 2 t) = _
  rw [after4_2]
  unfold out4_2
  rw [View.canon_unit_zero off_zero]
  simp only [View.ld_unit_zero (S := S6400x32) off_zero]
  rw [pay4_2_eq]
  obtain ⟨ea, eb, ec, ed, ee, ef, eg, eh⟩ := idx_facts4 t
  funext j
  show FloatOps.subf (F := Ideal) (φ := .f32) (V c (Pipeline.arrRef spec4 0) (((cfg4.win 0).blk t).view.emb j)) (V c (Pipeline.arrRef spec4 1) (((cfg4.win 1).blk t).view.emb j))
    = FloatOps.subf (F := Ideal) (φ := .f32) (V c (Pipeline.arrRef spec4 0) (((cfg4.win 2).blk t).view.emb j)) (V c (Pipeline.arrRef spec4 1) (((cfg4.win 2).blk t).view.emb j))
  have ha : ((cfg4.win 0).blk t).view.emb j = ((cfg4.win 2).blk t).view.emb j := by
    funext a; apply Fin.ext
    match a with
    | ⟨0, _⟩ => show win4_0.index t (0 : Fin 2) * 6400 + 1 * (j 0).val = win4_2.index t (0 : Fin 2) * 6400 + 1 * (j 0).val; omega
    | ⟨1, _⟩ => show win4_0.index t (1 : Fin 2) * 32 + 1 * (j 1).val = win4_2.index t (1 : Fin 2) * 32 + 1 * (j 1).val; omega
  have hb : ((cfg4.win 1).blk t).view.emb j = ((cfg4.win 2).blk t).view.emb j := by
    funext a; apply Fin.ext
    match a with
    | ⟨0, _⟩ => show win4_1.index t (0 : Fin 2) * 6400 + 1 * (j 0).val = win4_2.index t (0 : Fin 2) * 6400 + 1 * (j 0).val; omega
    | ⟨1, _⟩ => show win4_1.index t (1 : Fin 2) * 32 + 1 * (j 1).val = win4_2.index t (1 : Fin 2) * 32 + 1 * (j 1).val; omega
  rw [ha, hb]

/-- An index of the difference array is in point t's block iff each coordinate is in the block's range on its axis. -/
private theorem mem_blk4_2 (t : Fin cfg4.N) (i : S1600000x32.Idx) :
    i ∈ ((cfg4.win 2).blk t).view.set ↔ ∀ a : Fin 2, win4_2.index t a * S6400x32.size a ≤ (i a).val ∧ (i a).val < win4_2.index t a * S6400x32.size a + S6400x32.size a := by
  show i ∈ ((View.whole (Pipeline.arrRef spec4 2)).slice (win4_2.rect t)).set ↔ _
  rw [View.set_slice_whole, Rect.mem_set_unit]
  exact Iff.rfl

/-- Every index of the difference array is in some point's block: row r is in the block of point r / 6400. -/
private theorem covered4_2 (i : S1600000x32.Idx) :
    ∃ t : Fin cfg4.N, (cfg4.win 2).flush t = true ∧ i ∈ ((cfg4.win 2).blk t).view.set := by
  have hN : grid4.N = 250 := N_4
  have hr : (i 0).val < 1600000 := (i 0).isLt
  have hq : (i 1).val < 32 := (i 1).isLt
  obtain ⟨t, ht⟩ : ∃ t : Fin cfg4.N, t.val = (i 0).val / 6400 :=
    ⟨⟨(i 0).val / 6400, by show (i 0).val / 6400 < grid4.N; omega⟩, rfl⟩
  obtain ⟨ea, eb, ec, ed, ee, ef, eg, eh⟩ := idx_facts4 t
  refine ⟨t, flush4_2 t, ?_⟩
  rw [mem_blk4_2]
  intro a
  match a with
  | ⟨0, _⟩ => show win4_2.index t (0 : Fin 2) * 6400 ≤ (i 0).val ∧ (i 0).val < win4_2.index t (0 : Fin 2) * 6400 + 6400; omega
  | ⟨1, _⟩ => show win4_2.index t (1 : Fin 2) * 32 ≤ (i 1).val ∧ (i 1).val < win4_2.index t (1 : Fin 2) * 32 + 32; omega

/-- The difference array after region 4: the entrywise difference of the region's two input arrays. -/
theorem arr4_2 (c : Dev nD) :
    (dat4 (F := Ideal) V c).arrAt 2 cfg4.N = diffK (F := Ideal) (V c (Pipeline.arrRef spec4 0)) (V c (Pipeline.arrRef spec4 1)) :=
  (dat4 (F := Ideal) V c).arrAt_eq_of_cover 2 (diffK (F := Ideal) (V c (Pipeline.arrRef spec4 0)) (V c (Pipeline.arrRef spec4 1)))
    (fun t _ => flushed4_2_eq V c t) covered4_2

/-- A vector of length a cast to a column [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum over the 32 lanes of a block, read at row p. -/
private theorem rowsum4_3_apply (y : FVec Ideal S6400x32 .f32) (p : Fin 6400) :
    multiReduction (F := Ideal) .add [1] S6400 y 0x00000000#32 Facts₀.reduces_S6400x32_S6400 (.inl rfl) rfl (ix1 p)
      = ∑ q : Fin 32, y (ix2 p q) := by
  refine (Ideal.multiReduction_add_single y 0x00000000#32 Facts₀.reduces_S6400x32_S6400 (.inl rfl) rfl (ix1 p)).trans ?_
  refine Finset.sum_congr rfl fun q _ => congrArg y ?_
  funext a
  match a with
  | ⟨0, _⟩ => rfl
  | ⟨1, _⟩ => rfl

/-- The length payload at row p: the clamped length of the row of differences of its two loaded blocks. -/
private theorem pay4_3_apply (xa xb : Vec Ideal S6400x32 .f32) (p : Fin 6400) (u : Fin 1) :
    k4_pay2 (F := Ideal) xa xb (ix2 p u)
      = max (Ideal.sqrt (∑ q : Fin 32, (xa (ix2 p q) - xb (ix2 p q)) * (xa (ix2 p q) - xb (ix2 p q))))
          (Ideal.ofBits .f32 0x358637BD#32) := by
  unfold k4_pay2
  rw [pay4_2_eq]
  show max (Ideal.sqrt (shapeCast S6400x1 (multiReduction (F := Ideal) .add [1] S6400 (mulf (subf xa xb) (subf xa xb)) 0x00000000#32
      Facts₀.reduces_S6400x32_S6400 (.inl rfl) rfl) Facts₀.shapeCasts_S6400_S6400x1 (ix2 p u))) (Ideal.ofBits .f32 0x358637BD#32) = _
  rw [shapeCast_a_a1_apply, rowsum4_3_apply]
  rfl

/-- The length payload of two blocks whose row p holds row (i 0) of two arrays is the clamped row length of the
    arrays' difference at i. -/
private theorem pay4_3_eq_normK (A B : FVec Ideal S1600000x32 .f32) (xa xb : Vec Ideal S6400x32 .f32) (p : Fin 6400) (u : Fin 1)
    (i : S1600000x1.Idx)
    (ha : ∀ q : Fin 32, xa (ix2 p q) = A (ix2 (i 0) q))
    (hb : ∀ q : Fin 32, xb (ix2 p q) = B (ix2 (i 0) q)) :
    k4_pay2 (F := Ideal) xa xb (ix2 p u) = normK A B i := by
  rw [pay4_3_apply]
  unfold normK
  simp only [ha, hb]

/-- What point t writes back to the length column is block t of the clamped row lengths of the difference of the two
    input arrays. -/
private theorem flushed4_3_eq (c : Dev nD) (t : Fin cfg4.N) :
    (dat4 (F := Ideal) V c).flushed 3 t
      = ((cfg4.win 3).blk t).view.read (Elt Ideal) (normK (V c (Pipeline.arrRef spec4 0)) (V c (Pipeline.arrRef spec4 1))) := by
  show (cfg4.win 3).cut (grid4.coords t) ((dat4 V c).after 3 t) = _
  rw [after4_3]
  unfold out4_3
  rw [View.canon_unit_zero off_zero]
  simp only [View.ld_unit_zero (S := S6400x32) off_zero]
  obtain ⟨ea, eb, ec, ed, ee, ef, eg, eh⟩ := idx_facts4 t
  funext j
  obtain ⟨p, u, rfl⟩ : ∃ (p : Fin 6400) (u : Fin 1), j = ix2 p u := ⟨j 0, j 1, eq_ix2 j⟩
  refine pay4_3_eq_normK (V c (Pipeline.arrRef spec4 0)) (V c (Pipeline.arrRef spec4 1)) (iblk4 V c 0 t) (iblk4 V c 1 t) p u
    (((cfg4.win 3).blk t).view.emb (ix2 p u)) (fun q => ?_) (fun q => ?_)
  · show V c (Pipeline.arrRef spec4 0) (((cfg4.win 0).blk t).view.emb (ix2 p q)) = _
    congr 1
    funext a; apply Fin.ext
    match a with
    | ⟨0, _⟩ => show win4_0.index t (0 : Fin 2) * 6400 + 1 * p.val = win4_3.index t (0 : Fin 2) * 6400 + 1 * p.val; omega
    | ⟨1, _⟩ => show win4_0.index t (1 : Fin 2) * 32 + 1 * q.val = q.val; omega
  · show V c (Pipeline.arrRef spec4 1) (((cfg4.win 1).blk t).view.emb (ix2 p q)) = _
    congr 1
    funext a; apply Fin.ext
    match a with
    | ⟨0, _⟩ => show win4_1.index t (0 : Fin 2) * 6400 + 1 * p.val = win4_3.index t (0 : Fin 2) * 6400 + 1 * p.val; omega
    | ⟨1, _⟩ => show win4_1.index t (1 : Fin 2) * 32 + 1 * q.val = q.val; omega

/-- An index of the length column is in point t's block iff each coordinate is in the block's range on its axis. -/
private theorem mem_blk4_3 (t : Fin cfg4.N) (i : S1600000x1.Idx) :
    i ∈ ((cfg4.win 3).blk t).view.set ↔ ∀ a : Fin 2, win4_3.index t a * S6400x1.size a ≤ (i a).val ∧ (i a).val < win4_3.index t a * S6400x1.size a + S6400x1.size a := by
  show i ∈ ((View.whole (Pipeline.arrRef spec4 3)).slice (win4_3.rect t)).set ↔ _
  rw [View.set_slice_whole, Rect.mem_set_unit]
  exact Iff.rfl

/-- Every index of the length column is in some point's block: row r is in the block of point r / 6400. -/
private theorem covered4_3 (i : S1600000x1.Idx) :
    ∃ t : Fin cfg4.N, (cfg4.win 3).flush t = true ∧ i ∈ ((cfg4.win 3).blk t).view.set := by
  have hN : grid4.N = 250 := N_4
  have hr : (i 0).val < 1600000 := (i 0).isLt
  have hq : (i 1).val < 1 := (i 1).isLt
  obtain ⟨t, ht⟩ : ∃ t : Fin cfg4.N, t.val = (i 0).val / 6400 :=
    ⟨⟨(i 0).val / 6400, by show (i 0).val / 6400 < grid4.N; omega⟩, rfl⟩
  obtain ⟨ea, eb, ec, ed, ee, ef, eg, eh⟩ := idx_facts4 t
  refine ⟨t, flush4_3 t, ?_⟩
  rw [mem_blk4_3]
  intro a
  match a with
  | ⟨0, _⟩ => show win4_3.index t (0 : Fin 2) * 6400 ≤ (i 0).val ∧ (i 0).val < win4_3.index t (0 : Fin 2) * 6400 + 6400; omega
  | ⟨1, _⟩ => show win4_3.index t (1 : Fin 2) * 1 ≤ (i 1).val ∧ (i 1).val < win4_3.index t (1 : Fin 2) * 1 + 1; omega

/-- The length column after region 4: the clamped row length of the difference of the region's two input arrays. -/
theorem arr4_3 (c : Dev nD) :
    (dat4 (F := Ideal) V c).arrAt 3 cfg4.N = normK (V c (Pipeline.arrRef spec4 0)) (V c (Pipeline.arrRef spec4 1)) :=
  (dat4 (F := Ideal) V c).arrAt_eq_of_cover 3 (normK (V c (Pipeline.arrRef spec4 0)) (V c (Pipeline.arrRef spec4 1)))
    (fun t _ => flushed4_3_eq V c t) covered4_3

end Cert.KernelIdeal.PLap

end
-- ==== Proof.PLap.KRegion5.lean ====
/-
  Region 5 of the program (the message kernel, run over 250 blocks of 6400 edges): what its output array holds when it
  is done, as a whole-array function of its two input arrays (the differences and the length column) as the region
  finds them. Block t of the output is the kernel body's value on block t of the inputs; the blocks tile the array, so
  the message array is, entry by entry, zero minus the difference, times the reciprocal square root of the edge's length.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's value at one entry of a block -/

/-- The offsets of a whole-block access, both zero. -/
private theorem off_zero : (![0, 0] : Fin 2 → Nat) = fun _ => 0 :=
  funext fun a => match a with | ⟨0, _⟩ => rfl | ⟨1, _⟩ => rfl

/-- A column `[a, 1]` broadcast to `[a, b]` reads, at `(p, q)`, the column's entry of row `p`: the row axis is kept
    (when `a = 1` its only coordinate is `0` either way), the unit axis is read at `0`. -/
private theorem bcast_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at entry `(p, q)` of a block, from the block `n` of lengths and the block `d` of differences:
    zero minus the difference at `(p, q)`, times the reciprocal square root of the length of row `p`. The two casts to
    the same shape are identities, the scalar zero is read everywhere, and the column of reciprocal roots is read at its row. -/
private theorem k5_pay1_apply (n : Vec Ideal S6400x1 .f32) (d : Vec Ideal S6400x32 .f32) (p : Fin 6400) (q : Fin 32) :
    k5_pay1 (F := Ideal) n d (ix2 p q)
      = (Ideal.ofBits .f32 0x00000000#32 - d (ix2 p q)) * Ideal.rsqrt (n (ix2 p (0 : Fin 1))) := by
  unfold k5_pay1
  simp only [shapeCast_self]
  rw [mulf_apply, subf_apply, broadcast_apply, bcast_col_apply]
  rfl

/-! ## Where the blocks sit -/

/-- At grid point `t` every window's block index is `(t, 0)`: the three windows move together down the rows
    (decided over the 250 points). -/
private theorem idx_facts5_2 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- Entry `(p, q)` of the difference window's block at point `t` is the difference array at the place where entry
    `(p, q)` of the output's block at `t` sits: on each axis, block index times block size plus the coordinate inside. -/
private theorem iblk5_0_apply (c : Dev nD) (t : Fin cfg5.N) (p : Fin 6400) (q : Fin 32) :
    iblk5 V c 0 t (ix2 p q) = V c (Pipeline.arrRef spec5 0) (((cfg5.win 2).blk t).view.emb (ix2 p q)) := by
  obtain ⟨ea, eb, ec, ed, ee, ef⟩ := idx_facts5_2 t
  unfold iblk5
  show V c (Pipeline.arrRef spec5 0) (((cfg5.win 0).blk t).view.emb (ix2 p q)) = _
  refine congrArg _ (funext fun a => Fin.ext ?_)
  match a with
  | ⟨0, _⟩ =>
    show win5_0.index t (0 : Fin 2) * 6400 + 1 * p.val = win5_2.index t (0 : Fin 2) * 6400 + 1 * p.val
    omega
  | ⟨1, _⟩ =>
    show win5_0.index t (1 : Fin 2) * 32 + 1 * q.val = win5_2.index t (1 : Fin 2) * 32 + 1 * q.val
    omega

/-- Entry `(p, 0)` of the length window's block at point `t` is the length column at the row where entry `(p, q)` of
    the output's block at `t` sits. -/
private theorem iblk5_1_apply (c : Dev nD) (t : Fin cfg5.N) (p : Fin 6400) (q : Fin 32) :
    iblk5 V c 1 t (ix2 p (0 : Fin 1))
      = V c (Pipeline.arrRef spec5 1)
          (ix2 (n0 := 1600000) ((((cfg5.win 2).blk t).view.emb (ix2 p q)) 0) (0 : Fin 1)) := by
  obtain ⟨ea, eb, ec, ed, ee, ef⟩ := idx_facts5_2 t
  unfold iblk5
  show V c (Pipeline.arrRef spec5 1) (((cfg5.win 1).blk t).view.emb (ix2 p (0 : Fin 1))) = _
  refine congrArg _ (funext fun a => Fin.ext ?_)
  match a with
  | ⟨0, _⟩ =>
    show win5_1.index t (0 : Fin 2) * 6400 + 1 * p.val = win5_2.index t (0 : Fin 2) * 6400 + 1 * p.val
    omega
  | ⟨1, _⟩ =>
    show win5_1.index t (1 : Fin 2) * 1 + 1 * 0 = 0
    omega

/-! ## What each point writes back -/

/-- What point `t` writes back to the message array is block `t` of the whole-array message function of the two input
    arrays: the body's one store fills the staging block with its value on the two input blocks, and entry by entry
    that value reads the input arrays exactly where the output's block sits. -/
private theorem flushed5_2_eq (c : Dev nD) (t : Fin cfg5.N) :
    (dat5 (F := Ideal) V c).flushed 2 t
      = ((cfg5.win 2).blk t).view.read (Elt Ideal)
          (preK (V c (Pipeline.arrRef spec5 0)) (V c (Pipeline.arrRef spec5 1))) := by
  show (cfg5.win 2).cut (grid5.coords t) ((dat5 V c).after 2 t) = _
  rw [after5_2]
  unfold out5_2
  rw [View.canon_unit_zero off_zero]
  simp only [View.ld_unit_zero (S := S6400x32) off_zero, View.ld_unit_zero (S := S6400x1) off_zero]
  funext j
  obtain ⟨p, q, rfl⟩ : ∃ (p : Fin 6400) (q : Fin 32), j = ix2 p q := ⟨j 0, j 1, eq_ix2 j⟩
  show k5_pay1 (F := Ideal) (iblk5 V c 1 t) (iblk5 V c 0 t) (ix2 p q)
    = preK (V c (Pipeline.arrRef spec5 0)) (V c (Pipeline.arrRef spec5 1)) (((cfg5.win 2).blk t).view.emb (ix2 p q))
  refine (k5_pay1_apply _ _ p q).trans ?_
  rw [iblk5_0_apply V c t p q, iblk5_1_apply V c t p q]
  rfl

/-! ## The blocks tile the array -/

/-- An index of the message array is in point `t`'s block iff each coordinate is in the block's range on its axis. -/
private theorem mem_blk5_2 (t : Fin cfg5.N) (i : S1600000x32.Idx) :
    i ∈ ((cfg5.win 2).blk t).view.set
      ↔ ∀ a : Fin 2, win5_2.index t a * S6400x32.size a ≤ (i a).val
          ∧ (i a).val < win5_2.index t a * S6400x32.size a + S6400x32.size a := by
  show i ∈ ((View.whole main_v34).slice (win5_2.rect t)).set ↔ _
  rw [View.set_slice_whole, Rect.mem_set_unit]
  exact Iff.rfl

/-- Every index of the message array is in some point's block: row `r` is in the block of point `r / 6400`
    (250 blocks of 6400 rows are the 1600000 rows), and a block spans all 32 columns. -/
private theorem covered5_2 (i : S1600000x32.Idx) :
    ∃ t : Fin cfg5.N, (cfg5.win 2).flush t = true ∧ i ∈ ((cfg5.win 2).blk t).view.set := by
  have hrow : (i 0).val < 1600000 := (i 0).isLt
  have hcol : (i 1).val < 32 := (i 1).isLt
  have hN : cfg5.N = 250 := N_5
  have ht : (i 0).val / 6400 < cfg5.N := by rw [hN]; omega
  obtain ⟨ea, eb, ec, ed, ee, ef⟩ := idx_facts5_2 ⟨(i 0).val / 6400, ht⟩
  refine ⟨⟨(i 0).val / 6400, ht⟩, flush5_2 _, ?_⟩
  rw [mem_blk5_2]
  intro a
  match a with
  | ⟨0, _⟩ =>
    show win5_2.index ⟨(i 0).val / 6400, ht⟩ (0 : Fin 2) * 6400 ≤ (i 0).val
      ∧ (i 0).val < win5_2.index ⟨(i 0).val / 6400, ht⟩ (0 : Fin 2) * 6400 + 6400
    rw [ee]
    show (i 0).val / 6400 * 6400 ≤ (i 0).val ∧ (i 0).val < (i 0).val / 6400 * 6400 + 6400
    omega
  | ⟨1, _⟩ =>
    show win5_2.index ⟨(i 0).val / 6400, ht⟩ (1 : Fin 2) * 32 ≤ (i 1).val
      ∧ (i 1).val < win5_2.index ⟨(i 0).val / 6400, ht⟩ (1 : Fin 2) * 32 + 32
    rw [ef]
    omega

/-! ## The array after the region -/

/-- The message array after region 5: (0 - difference) / sqrt(length), entry by entry. -/
theorem arr5_2 (c : Dev nD) :
    (dat5 (F := Ideal) V c).arrAt 2 cfg5.N = preK (V c (Pipeline.arrRef spec5 0)) (V c (Pipeline.arrRef spec5 1)) :=
  (dat5 (F := Ideal) V c).arrAt_eq_of_cover 2 (preK (V c (Pipeline.arrRef spec5 0)) (V c (Pipeline.arrRef spec5 1)))
    (fun t _ => flushed5_2_eq V c t) covered5_2

end Cert.KernelIdeal.PLap

end
-- ==== Proof.PLap.KIter2.lean ====
/-
  Step 2 of the kernel's program, read boundary by boundary. Between the boundary the step starts from (W13) and
  the boundary after this step's update (W19) lie four host stretches and two kernel regions: gather the source rows,
  gather the target rows, the difference-and-length kernel, the largest length, the message kernel, the update. From
  any contents a stretch leaves its result as the matching piece of `stepK` and writes none of the buffers still
  needed; a region leaves its output arrays at their whole-array closed forms and every other buffer alone. Walking the
  six boundaries: if W13 holds the features H and the ids R, C, then W19 holds stepK H R C, and still R and C.
-/
import proofs.«409662_j32736240730465_2_alg».proof.Proof.Gen.KernelIdeal.Frame
import proofs.«409662_j32736240730465_2_alg».proof.Proof.PLap.KStep
import proofs.«409662_j32736240730465_2_alg».proof.Proof.PLap.KRegion4
import proofs.«409662_j32736240730465_2_alg».proof.Proof.PLap.KRegion5
import Idealize.ShloMosaic.Lib.StableHlo.Run

set_option maxRecDepth 16384
set_option maxHeartbeats 1600000

noncomputable section

namespace Cert.KernelIdeal.PLap

open Idealize.ShloMosaic Idealize.ShloMosaic.TcCoe Idealize.SL.Sem Idealize.ShloMosaic.StableHlo
open Cert.KernelIdeal Cert.KernelIdeal.Gen

/-- A value carried into a typed reference's buffer and back is the value. -/
private theorem ofBuf_toBuf {T : BufTy} (x : TRef sig T) (v : T.Contents (Elt Ideal)) : x.ofBuf (x.toBuf v) = v := by
  obtain ⟨ref, rfl, h2, h3⟩ := x
  rfl

/-! ## The four host stretches of step 2, from any contents -/

section Stretches

variable (W : Valuation τ sig (Elt Ideal))

/-- Gathering the source rows: the result is the guarded gather of the features at the source ids. -/
private theorem srcRows2 {h : FVec Ideal S100000x32 .f32} {r : IVec S1600000 32}
    (hh : W (Proc.devRef .tc main_v29) = h) (hr : W (Proc.devRef .tc main_v1) = r) :
    StableHlo.after (hostOps4_1 (F := Ideal)) W (Proc.devRef .tc main_v30) = takeK h r := by
  subst hh hr
  after_results_simp
  simp only [ofBuf_toBuf]
  congr 1

private theorem srcRows2_feat : StableHlo.after (hostOps4_1 (F := Ideal)) W (Proc.devRef .tc main_v29) = W (Proc.devRef .tc main_v29) := by
  after_results_simp
private theorem srcRows2_src : StableHlo.after (hostOps4_1 (F := Ideal)) W (Proc.devRef .tc main_v1) = W (Proc.devRef .tc main_v1) := by
  after_results_simp
private theorem srcRows2_tgt : StableHlo.after (hostOps4_1 (F := Ideal)) W (Proc.devRef .tc main_v3) = W (Proc.devRef .tc main_v3) := by
  after_results_simp

/-- Gathering the target rows: the result is the guarded gather of the features at the target ids. -/
private theorem tgtRows2 {h : FVec Ideal S100000x32 .f32} {r : IVec S1600000 32}
    (hh : W (Proc.devRef .tc main_v29) = h) (hr : W (Proc.devRef .tc main_v3) = r) :
    StableHlo.after (hostOps4_2 (F := Ideal)) W (Proc.devRef .tc main_v31) = takeK h r := by
  subst hh hr
  after_results_simp
  simp only [ofBuf_toBuf]
  congr 1

private theorem tgtRows2_rows : StableHlo.after (hostOps4_2 (F := Ideal)) W (Proc.devRef .tc main_v30) = W (Proc.devRef .tc main_v30) := by
  after_results_simp
private theorem tgtRows2_feat : StableHlo.after (hostOps4_2 (F := Ideal)) W (Proc.devRef .tc main_v29) = W (Proc.devRef .tc main_v29) := by
  after_results_simp
private theorem tgtRows2_src : StableHlo.after (hostOps4_2 (F := Ideal)) W (Proc.devRef .tc main_v1) = W (Proc.devRef .tc main_v1) := by
  after_results_simp
private theorem tgtRows2_tgt : StableHlo.after (hostOps4_2 (F := Ideal)) W (Proc.devRef .tc main_v3) = W (Proc.devRef .tc main_v3) := by
  after_results_simp

/-- The largest length: the running maximum of the length column. -/
private theorem largest2 {n : FVec Ideal S1600000x1 .f32} (hn : W (Proc.devRef .tc main_v32_1) = n) :
    StableHlo.after (hostOps5 (F := Ideal)) W (Proc.devRef .tc main_v33) = maxK n := by
  subst hn
  after_results
  rfl

private theorem largest2_diff : StableHlo.after (hostOps5 (F := Ideal)) W (Proc.devRef .tc main_v32_0) = W (Proc.devRef .tc main_v32_0) := by
  after_results
private theorem largest2_len : StableHlo.after (hostOps5 (F := Ideal)) W (Proc.devRef .tc main_v32_1) = W (Proc.devRef .tc main_v32_1) := by
  after_results
private theorem largest2_feat : StableHlo.after (hostOps5 (F := Ideal)) W (Proc.devRef .tc main_v29) = W (Proc.devRef .tc main_v29) := by
  after_results
private theorem largest2_src : StableHlo.after (hostOps5 (F := Ideal)) W (Proc.devRef .tc main_v1) = W (Proc.devRef .tc main_v1) := by
  after_results
private theorem largest2_tgt : StableHlo.after (hostOps5 (F := Ideal)) W (Proc.devRef .tc main_v3) = W (Proc.devRef .tc main_v3) := by
  after_results

/-- The update: the features minus (mu * sqrt(largest length)) times the messages summed by source node. -/
private theorem update2 {h : FVec Ideal S100000x32 .f32} {r : IVec S1600000 32} {p : FVec Ideal S1600000x32 .f32}
    {x : FVec Ideal S_ .f32} (hh : W (Proc.devRef .tc main_v29) = h) (hr : W (Proc.devRef .tc main_v1) = r)
    (hp : W (Proc.devRef .tc main_v34) = p) (hx : W (Proc.devRef .tc main_v33) = x) :
    StableHlo.after (hostOps6 (F := Ideal)) W (Proc.devRef .tc main_v42) = updK h r p x := by
  subst hh hr hp hx
  after_results
  rfl

private theorem update2_src : StableHlo.after (hostOps6 (F := Ideal)) W (Proc.devRef .tc main_v1) = W (Proc.devRef .tc main_v1) := by
  after_results
private theorem update2_tgt : StableHlo.after (hostOps6 (F := Ideal)) W (Proc.devRef .tc main_v3) = W (Proc.devRef .tc main_v3) := by
  after_results

end Stretches

/-! ## The walk from W13 to W19 -/

variable (m : (ℓ : Loc nD τ sig) → Buf (Elt Ideal) ℓ) (ρ : Dev nD → PrngReg) (c : Dev nD)

/-- Step 2: if the boundary the step starts from holds the features `H` and the ids `R`, `C`, the boundary after this
    step's update holds `stepK H R C` in the next features buffer, and still `R` and `C`. -/
theorem iter2 {H : FVec Ideal S100000x32 .f32} {R C : IVec S1600000 32}
    (hH : W13 (F := Ideal) m ρ c (Proc.devRef .tc main_v29) = H)
    (hR : W13 (F := Ideal) m ρ c (Proc.devRef .tc main_v1) = R)
    (hC : W13 (F := Ideal) m ρ c (Proc.devRef .tc main_v3) = C) :
    W19 (F := Ideal) m ρ c (Proc.devRef .tc main_v42) = stepK H R C
      ∧ W19 (F := Ideal) m ρ c (Proc.devRef .tc main_v1) = R
      ∧ W19 (F := Ideal) m ρ c (Proc.devRef .tc main_v3) = C := by
  -- after the source rows are gathered
  have a2 : W14 (F := Ideal) m ρ c (Proc.devRef .tc main_v30) = takeK H R := srcRows2 (W13 m ρ c) hH hR
  have h2 : W14 (F := Ideal) m ρ c (Proc.devRef .tc main_v29) = H := (srcRows2_feat (W13 m ρ c)).trans hH
  have r2 : W14 (F := Ideal) m ρ c (Proc.devRef .tc main_v1) = R := (srcRows2_src (W13 m ρ c)).trans hR
  have c2 : W14 (F := Ideal) m ρ c (Proc.devRef .tc main_v3) = C := (srcRows2_tgt (W13 m ρ c)).trans hC
  -- after the target rows are gathered: region 4's entry
  have b3 : W15 (F := Ideal) m ρ c (Proc.devRef .tc main_v31) = takeK H C := tgtRows2 (W14 m ρ c) h2 c2
  have a3 : W15 (F := Ideal) m ρ c (Proc.devRef .tc main_v30) = takeK H R := (tgtRows2_rows (W14 m ρ c)).trans a2
  have h3 : W15 (F := Ideal) m ρ c (Proc.devRef .tc main_v29) = H := (tgtRows2_feat (W14 m ρ c)).trans h2
  have r3 : W15 (F := Ideal) m ρ c (Proc.devRef .tc main_v1) = R := (tgtRows2_src (W14 m ρ c)).trans r2
  have c3 : W15 (F := Ideal) m ρ c (Proc.devRef .tc main_v3) = C := (tgtRows2_tgt (W14 m ρ c)).trans c2
  -- region 4's exit: the differences and the lengths
  have d4 : W16 (F := Ideal) m ρ c (Proc.devRef .tc main_v32_0) = diffK (F := Ideal) (takeK H R) (takeK H C) :=
    (W16_arr m ρ c 2).trans ((arr4_2 (V15 m ρ) c).trans (congrArg₂ (diffK (F := Ideal)) a3 b3))
  have n4 : W16 (F := Ideal) m ρ c (Proc.devRef .tc main_v32_1) = normK (takeK H R) (takeK H C) :=
    (W16_arr m ρ c 3).trans ((arr4_3 (V15 m ρ) c).trans (congrArg₂ normK a3 b3))
  have h4 : W16 (F := Ideal) m ρ c (Proc.devRef .tc main_v29) = H := (W16_of_ne m ρ c main_v29 (by decide)).trans h3
  have r4 : W16 (F := Ideal) m ρ c (Proc.devRef .tc main_v1) = R := (W16_of_ne m ρ c main_v1 (by decide)).trans r3
  have c4 : W16 (F := Ideal) m ρ c (Proc.devRef .tc main_v3) = C := (W16_of_ne m ρ c main_v3 (by decide)).trans c3
  -- after the largest length is found: region 5's entry
  have x5 : W17 (F := Ideal) m ρ c (Proc.devRef .tc main_v33) = maxK (normK (takeK H R) (takeK H C)) := largest2 (W16 m ρ c) n4
  have d5 : W17 (F := Ideal) m ρ c (Proc.devRef .tc main_v32_0) = diffK (F := Ideal) (takeK H R) (takeK H C) := (largest2_diff (W16 m ρ c)).trans d4
  have n5 : W17 (F := Ideal) m ρ c (Proc.devRef .tc main_v32_1) = normK (takeK H R) (takeK H C) := (largest2_len (W16 m ρ c)).trans n4
  have h5 : W17 (F := Ideal) m ρ c (Proc.devRef .tc main_v29) = H := (largest2_feat (W16 m ρ c)).trans h4
  have r5 : W17 (F := Ideal) m ρ c (Proc.devRef .tc main_v1) = R := (largest2_src (W16 m ρ c)).trans r4
  have c5 : W17 (F := Ideal) m ρ c (Proc.devRef .tc main_v3) = C := (largest2_tgt (W16 m ρ c)).trans c4
  -- region 5's exit: the messages
  have p6 : W18 (F := Ideal) m ρ c (Proc.devRef .tc main_v34)
      = preK (diffK (F := Ideal) (takeK H R) (takeK H C)) (normK (takeK H R) (takeK H C)) :=
    (W18_arr m ρ c 2).trans ((arr5_2 (V17 m ρ) c).trans (congrArg₂ preK d5 n5))
  have x6 : W18 (F := Ideal) m ρ c (Proc.devRef .tc main_v33) = maxK (normK (takeK H R) (takeK H C)) := (W18_of_ne m ρ c main_v33 (by decide)).trans x5
  have h6 : W18 (F := Ideal) m ρ c (Proc.devRef .tc main_v29) = H := (W18_of_ne m ρ c main_v29 (by decide)).trans h5
  have r6 : W18 (F := Ideal) m ρ c (Proc.devRef .tc main_v1) = R := (W18_of_ne m ρ c main_v1 (by decide)).trans r5
  have c6 : W18 (F := Ideal) m ρ c (Proc.devRef .tc main_v3) = C := (W18_of_ne m ρ c main_v3 (by decide)).trans c5
  -- after the update
  exact ⟨update2 (W18 m ρ c) h6 r6 p6 x6, (update2_src (W18 m ρ c)).trans r6, (update2_tgt (W18 m ρ c)).trans c6⟩

end Cert.KernelIdeal.PLap

end
-- ==== Proof.PLap.KRegion6.lean ====
/-
  Region 6 of the program (the difference-and-length kernel, run over 250 blocks of 6400 edges): what its two output
  arrays hold when it is done, as whole-array functions of its two input arrays as the region finds them. Block t of
  each output is the kernel body's value on block t of the inputs; the blocks tile the arrays, so the difference array
  is the entrywise difference and the length column is the clamped row length of that difference.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The two zero offsets of a whole-block access, as the constant function. -/
private theorem off_zero : (![0, 0] : Fin 2 → Nat) = fun _ => 0 := funext fun a => by fin_cases a <;> rfl

/-- The printed index maps, decided over the grid: at point t every window's block index is (t, 0). -/
private theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The difference payload is the entrywise difference of its two loaded blocks. -/
private theorem pay6_2_eq (xa xb : Vec Ideal S6400x32 .f32) : k6_pay1 (F := Ideal) xa xb = subf xa xb := by
  unfold k6_pay1
  simp only [shapeCast_self]

/-- What point t writes back to the difference array is block t of the entrywise difference of the two input arrays. -/
private theorem flushed6_2_eq (c : Dev nD) (t : Fin cfg6.N) :
    (dat6 (F := Ideal) V c).flushed 2 t
      = ((cfg6.win 2).blk t).view.read (Elt Ideal) (diffK (F := Ideal) (V c (Pipeline.arrRef spec6 0)) (V c (Pipeline.arrRef spec6 1))) := by
  show (cfg6.win 2).cut (grid6.coords t) ((dat6 V c).after 2 t) = _
  rw [after6_2]
  unfold out6_2
  rw [View.canon_unit_zero off_zero]
  simp only [View.ld_unit_zero (S := S6400x32) off_zero]
  rw [pay6_2_eq]
  obtain ⟨ea, eb, ec, ed, ee, ef, eg, eh⟩ := idx_facts6 t
  funext j
  show FloatOps.subf (F := Ideal) (φ := .f32) (V c (Pipeline.arrRef spec6 0) (((cfg6.win 0).blk t).view.emb j)) (V c (Pipeline.arrRef spec6 1) (((cfg6.win 1).blk t).view.emb j))
    = FloatOps.subf (F := Ideal) (φ := .f32) (V c (Pipeline.arrRef spec6 0) (((cfg6.win 2).blk t).view.emb j)) (V c (Pipeline.arrRef spec6 1) (((cfg6.win 2).blk t).view.emb j))
  have ha : ((cfg6.win 0).blk t).view.emb j = ((cfg6.win 2).blk t).view.emb j := by
    funext a; apply Fin.ext
    match a with
    | ⟨0, _⟩ => show win6_0.index t (0 : Fin 2) * 6400 + 1 * (j 0).val = win6_2.index t (0 : Fin 2) * 6400 + 1 * (j 0).val; omega
    | ⟨1, _⟩ => show win6_0.index t (1 : Fin 2) * 32 + 1 * (j 1).val = win6_2.index t (1 : Fin 2) * 32 + 1 * (j 1).val; omega
  have hb : ((cfg6.win 1).blk t).view.emb j = ((cfg6.win 2).blk t).view.emb j := by
    funext a; apply Fin.ext
    match a with
    | ⟨0, _⟩ => show win6_1.index t (0 : Fin 2) * 6400 + 1 * (j 0).val = win6_2.index t (0 : Fin 2) * 6400 + 1 * (j 0).val; omega
    | ⟨1, _⟩ => show win6_1.index t (1 : Fin 2) * 32 + 1 * (j 1).val = win6_2.index t (1 : Fin 2) * 32 + 1 * (j 1).val; omega
  rw [ha, hb]

/-- An index of the difference array is in point t's block iff each coordinate is in the block's range on its axis. -/
private theorem mem_blk6_2 (t : Fin cfg6.N) (i : S1600000x32.Idx) :
    i ∈ ((cfg6.win 2).blk t).view.set ↔ ∀ a : Fin 2, win6_2.index t a * S6400x32.size a ≤ (i a).val ∧ (i a).val < win6_2.index t a * S6400x32.size a + S6400x32.size a := by
  show i ∈ ((View.whole (Pipeline.arrRef spec6 2)).slice (win6_2.rect t)).set ↔ _
  rw [View.set_slice_whole, Rect.mem_set_unit]
  exact Iff.rfl

/-- Every index of the difference array is in some point's block: row r is in the block of point r / 6400. -/
private theorem covered6_2 (i : S1600000x32.Idx) :
    ∃ t : Fin cfg6.N, (cfg6.win 2).flush t = true ∧ i ∈ ((cfg6.win 2).blk t).view.set := by
  have hN : grid6.N = 250 := N_6
  have hr : (i 0).val < 1600000 := (i 0).isLt
  have hq : (i 1).val < 32 := (i 1).isLt
  obtain ⟨t, ht⟩ : ∃ t : Fin cfg6.N, t.val = (i 0).val / 6400 :=
    ⟨⟨(i 0).val / 6400, by show (i 0).val / 6400 < grid6.N; omega⟩, rfl⟩
  obtain ⟨ea, eb, ec, ed, ee, ef, eg, eh⟩ := idx_facts6 t
  refine ⟨t, flush6_2 t, ?_⟩
  rw [mem_blk6_2]
  intro a
  match a with
  | ⟨0, _⟩ => show win6_2.index t (0 : Fin 2) * 6400 ≤ (i 0).val ∧ (i 0).val < win6_2.index t (0 : Fin 2) * 6400 + 6400; omega
  | ⟨1, _⟩ => show win6_2.index t (1 : Fin 2) * 32 ≤ (i 1).val ∧ (i 1).val < win6_2.index t (1 : Fin 2) * 32 + 32; omega

/-- The difference array after region 6: the entrywise difference of the region's two input arrays. -/
theorem arr6_2 (c : Dev nD) :
    (dat6 (F := Ideal) V c).arrAt 2 cfg6.N = diffK (F := Ideal) (V c (Pipeline.arrRef spec6 0)) (V c (Pipeline.arrRef spec6 1)) :=
  (dat6 (F := Ideal) V c).arrAt_eq_of_cover 2 (diffK (F := Ideal) (V c (Pipeline.arrRef spec6 0)) (V c (Pipeline.arrRef spec6 1)))
    (fun t _ => flushed6_2_eq V c t) covered6_2

/-- A vector of length a cast to a column [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum over the 32 lanes of a block, read at row p. -/
private theorem rowsum6_3_apply (y : FVec Ideal S6400x32 .f32) (p : Fin 6400) :
    multiReduction (F := Ideal) .add [1] S6400 y 0x00000000#32 Facts₀.reduces_S6400x32_S6400 (.inl rfl) rfl (ix1 p)
      = ∑ q : Fin 32, y (ix2 p q) := by
  refine (Ideal.multiReduction_add_single y 0x00000000#32 Facts₀.reduces_S6400x32_S6400 (.inl rfl) rfl (ix1 p)).trans ?_
  refine Finset.sum_congr rfl fun q _ => congrArg y ?_
  funext a
  match a with
  | ⟨0, _⟩ => rfl
  | ⟨1, _⟩ => rfl

/-- The length payload at row p: the clamped length of the row of differences of its two loaded blocks. -/
private theorem pay6_3_apply (xa xb : Vec Ideal S6400x32 .f32) (p : Fin 6400) (u : Fin 1) :
    k6_pay2 (F := Ideal) xa xb (ix2 p u)
      = max (Ideal.sqrt (∑ q : Fin 32, (xa (ix2 p q) - xb (ix2 p q)) * (xa (ix2 p q) - xb (ix2 p q))))
          (Ideal.ofBits .f32 0x358637BD#32) := by
  unfold k6_pay2
  rw [pay6_2_eq]
  show max (Ideal.sqrt (shapeCast S6400x1 (multiReduction (F := Ideal) .add [1] S6400 (mulf (subf xa xb) (subf xa xb)) 0x00000000#32
      Facts₀.reduces_S6400x32_S6400 (.inl rfl) rfl) Facts₀.shapeCasts_S6400_S6400x1 (ix2 p u))) (Ideal.ofBits .f32 0x358637BD#32) = _
  rw [shapeCast_a_a1_apply, rowsum6_3_apply]
  rfl

/-- The length payload of two blocks whose row p holds row (i 0) of two arrays is the clamped row length of the
    arrays' difference at i. -/
private theorem pay6_3_eq_normK (A B : FVec Ideal S1600000x32 .f32) (xa xb : Vec Ideal S6400x32 .f32) (p : Fin 6400) (u : Fin 1)
    (i : S1600000x1.Idx)
    (ha : ∀ q : Fin 32, xa (ix2 p q) = A (ix2 (i 0) q))
    (hb : ∀ q : Fin 32, xb (ix2 p q) = B (ix2 (i 0) q)) :
    k6_pay2 (F := Ideal) xa xb (ix2 p u) = normK A B i := by
  rw [pay6_3_apply]
  unfold normK
  simp only [ha, hb]

/-- What point t writes back to the length column is block t of the clamped row lengths of the difference of the two
    input arrays. -/
private theorem flushed6_3_eq (c : Dev nD) (t : Fin cfg6.N) :
    (dat6 (F := Ideal) V c).flushed 3 t
      = ((cfg6.win 3).blk t).view.read (Elt Ideal) (normK (V c (Pipeline.arrRef spec6 0)) (V c (Pipeline.arrRef spec6 1))) := by
  show (cfg6.win 3).cut (grid6.coords t) ((dat6 V c).after 3 t) = _
  rw [after6_3]
  unfold out6_3
  rw [View.canon_unit_zero off_zero]
  simp only [View.ld_unit_zero (S := S6400x32) off_zero]
  obtain ⟨ea, eb, ec, ed, ee, ef, eg, eh⟩ := idx_facts6 t
  funext j
  obtain ⟨p, u, rfl⟩ : ∃ (p : Fin 6400) (u : Fin 1), j = ix2 p u := ⟨j 0, j 1, eq_ix2 j⟩
  refine pay6_3_eq_normK (V c (Pipeline.arrRef spec6 0)) (V c (Pipeline.arrRef spec6 1)) (iblk6 V c 0 t) (iblk6 V c 1 t) p u
    (((cfg6.win 3).blk t).view.emb (ix2 p u)) (fun q => ?_) (fun q => ?_)
  · show V c (Pipeline.arrRef spec6 0) (((cfg6.win 0).blk t).view.emb (ix2 p q)) = _
    congr 1
    funext a; apply Fin.ext
    match a with
    | ⟨0, _⟩ => show win6_0.index t (0 : Fin 2) * 6400 + 1 * p.val = win6_3.index t (0 : Fin 2) * 6400 + 1 * p.val; omega
    | ⟨1, _⟩ => show win6_0.index t (1 : Fin 2) * 32 + 1 * q.val = q.val; omega
  · show V c (Pipeline.arrRef spec6 1) (((cfg6.win 1).blk t).view.emb (ix2 p q)) = _
    congr 1
    funext a; apply Fin.ext
    match a with
    | ⟨0, _⟩ => show win6_1.index t (0 : Fin 2) * 6400 + 1 * p.val = win6_3.index t (0 : Fin 2) * 6400 + 1 * p.val; omega
    | ⟨1, _⟩ => show win6_1.index t (1 : Fin 2) * 32 + 1 * q.val = q.val; omega

/-- An index of the length column is in point t's block iff each coordinate is in the block's range on its axis. -/
private theorem mem_blk6_3 (t : Fin cfg6.N) (i : S1600000x1.Idx) :
    i ∈ ((cfg6.win 3).blk t).view.set ↔ ∀ a : Fin 2, win6_3.index t a * S6400x1.size a ≤ (i a).val ∧ (i a).val < win6_3.index t a * S6400x1.size a + S6400x1.size a := by
  show i ∈ ((View.whole (Pipeline.arrRef spec6 3)).slice (win6_3.rect t)).set ↔ _
  rw [View.set_slice_whole, Rect.mem_set_unit]
  exact Iff.rfl

/-- Every index of the length column is in some point's block: row r is in the block of point r / 6400. -/
private theorem covered6_3 (i : S1600000x1.Idx) :
    ∃ t : Fin cfg6.N, (cfg6.win 3).flush t = true ∧ i ∈ ((cfg6.win 3).blk t).view.set := by
  have hN : grid6.N = 250 := N_6
  have hr : (i 0).val < 1600000 := (i 0).isLt
  have hq : (i 1).val < 1 := (i 1).isLt
  obtain ⟨t, ht⟩ : ∃ t : Fin cfg6.N, t.val = (i 0).val / 6400 :=
    ⟨⟨(i 0).val / 6400, by show (i 0).val / 6400 < grid6.N; omega⟩, rfl⟩
  obtain ⟨ea, eb, ec, ed, ee, ef, eg, eh⟩ := idx_facts6 t
  refine ⟨t, flush6_3 t, ?_⟩
  rw [mem_blk6_3]
  intro a
  match a with
  | ⟨0, _⟩ => show win6_3.index t (0 : Fin 2) * 6400 ≤ (i 0).val ∧ (i 0).val < win6_3.index t (0 : Fin 2) * 6400 + 6400; omega
  | ⟨1, _⟩ => show win6_3.index t (1 : Fin 2) * 1 ≤ (i 1).val ∧ (i 1).val < win6_3.index t (1 : Fin 2) * 1 + 1; omega

/-- The length column after region 6: the clamped row length of the difference of the region's two input arrays. -/
theorem arr6_3 (c : Dev nD) :
    (dat6 (F := Ideal) V c).arrAt 3 cfg6.N = normK (V c (Pipeline.arrRef spec6 0)) (V c (Pipeline.arrRef spec6 1)) :=
  (dat6 (F := Ideal) V c).arrAt_eq_of_cover 3 (normK (V c (Pipeline.arrRef spec6 0)) (V c (Pipeline.arrRef spec6 1)))
    (fun t _ => flushed6_3_eq V c t) covered6_3

end Cert.KernelIdeal.PLap

end
-- ==== Proof.PLap.KRegion7.lean ====
/-
  Region 7 of the program (the message kernel, run over 250 blocks of 6400 edges): what its output array holds when it
  is done, as a whole-array function of its two input arrays (the differences and the length column) as the region
  finds them. Block t of the output is the kernel body's value on block t of the inputs; the blocks tile the array, so
  the message array is, entry by entry, zero minus the difference, times the reciprocal square root of the edge's length.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's value at one entry of a block -/

/-- The offsets of a whole-block access, both zero. -/
private theorem off_zero : (![0, 0] : Fin 2 → Nat) = fun _ => 0 :=
  funext fun a => match a with | ⟨0, _⟩ => rfl | ⟨1, _⟩ => rfl

/-- A column `[a, 1]` broadcast to `[a, b]` reads, at `(p, q)`, the column's entry of row `p`: the row axis is kept
    (when `a = 1` its only coordinate is `0` either way), the unit axis is read at `0`. -/
private theorem bcast_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at entry `(p, q)` of a block, from the block `n` of lengths and the block `d` of differences:
    zero minus the difference at `(p, q)`, times the reciprocal square root of the length of row `p`. The two casts to
    the same shape are identities, the scalar zero is read everywhere, and the column of reciprocal roots is read at its row. -/
private theorem k7_pay1_apply (n : Vec Ideal S6400x1 .f32) (d : Vec Ideal S6400x32 .f32) (p : Fin 6400) (q : Fin 32) :
    k7_pay1 (F := Ideal) n d (ix2 p q)
      = (Ideal.ofBits .f32 0x00000000#32 - d (ix2 p q)) * Ideal.rsqrt (n (ix2 p (0 : Fin 1))) := by
  unfold k7_pay1
  simp only [shapeCast_self]
  rw [mulf_apply, subf_apply, broadcast_apply, bcast_col_apply]
  rfl

/-! ## Where the blocks sit -/

/-- At grid point `t` every window's block index is `(t, 0)`: the three windows move together down the rows
    (decided over the 250 points). -/
private theorem idx_facts7_2 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- Entry `(p, q)` of the difference window's block at point `t` is the difference array at the place where entry
    `(p, q)` of the output's block at `t` sits: on each axis, block index times block size plus the coordinate inside. -/
private theorem iblk7_0_apply (c : Dev nD) (t : Fin cfg7.N) (p : Fin 6400) (q : Fin 32) :
    iblk7 V c 0 t (ix2 p q) = V c (Pipeline.arrRef spec7 0) (((cfg7.win 2).blk t).view.emb (ix2 p q)) := by
  obtain ⟨ea, eb, ec, ed, ee, ef⟩ := idx_facts7_2 t
  unfold iblk7
  show V c (Pipeline.arrRef spec7 0) (((cfg7.win 0).blk t).view.emb (ix2 p q)) = _
  refine congrArg _ (funext fun a => Fin.ext ?_)
  match a with
  | ⟨0, _⟩ =>
    show win7_0.index t (0 : Fin 2) * 6400 + 1 * p.val = win7_2.index t (0 : Fin 2) * 6400 + 1 * p.val
    omega
  | ⟨1, _⟩ =>
    show win7_0.index t (1 : Fin 2) * 32 + 1 * q.val = win7_2.index t (1 : Fin 2) * 32 + 1 * q.val
    omega

/-- Entry `(p, 0)` of the length window's block at point `t` is the length column at the row where entry `(p, q)` of
    the output's block at `t` sits. -/
private theorem iblk7_1_apply (c : Dev nD) (t : Fin cfg7.N) (p : Fin 6400) (q : Fin 32) :
    iblk7 V c 1 t (ix2 p (0 : Fin 1))
      = V c (Pipeline.arrRef spec7 1)
          (ix2 (n0 := 1600000) ((((cfg7.win 2).blk t).view.emb (ix2 p q)) 0) (0 : Fin 1)) := by
  obtain ⟨ea, eb, ec, ed, ee, ef⟩ := idx_facts7_2 t
  unfold iblk7
  show V c (Pipeline.arrRef spec7 1) (((cfg7.win 1).blk t).view.emb (ix2 p (0 : Fin 1))) = _
  refine congrArg _ (funext fun a => Fin.ext ?_)
  match a with
  | ⟨0, _⟩ =>
    show win7_1.index t (0 : Fin 2) * 6400 + 1 * p.val = win7_2.index t (0 : Fin 2) * 6400 + 1 * p.val
    omega
  | ⟨1, _⟩ =>
    show win7_1.index t (1 : Fin 2) * 1 + 1 * 0 = 0
    omega

/-! ## What each point writes back -/

/-- What point `t` writes back to the message array is block `t` of the whole-array message function of the two input
    arrays: the body's one store fills the staging block with its value on the two input blocks, and entry by entry
    that value reads the input arrays exactly where the output's block sits. -/
private theorem flushed7_2_eq (c : Dev nD) (t : Fin cfg7.N) :
    (dat7 (F := Ideal) V c).flushed 2 t
      = ((cfg7.win 2).blk t).view.read (Elt Ideal)
          (preK (V c (Pipeline.arrRef spec7 0)) (V c (Pipeline.arrRef spec7 1))) := by
  show (cfg7.win 2).cut (grid7.coords t) ((dat7 V c).after 2 t) = _
  rw [after7_2]
  unfold out7_2
  rw [View.canon_unit_zero off_zero]
  simp only [View.ld_unit_zero (S := S6400x32) off_zero, View.ld_unit_zero (S := S6400x1) off_zero]
  funext j
  obtain ⟨p, q, rfl⟩ : ∃ (p : Fin 6400) (q : Fin 32), j = ix2 p q := ⟨j 0, j 1, eq_ix2 j⟩
  show k7_pay1 (F := Ideal) (iblk7 V c 1 t) (iblk7 V c 0 t) (ix2 p q)
    = preK (V c (Pipeline.arrRef spec7 0)) (V c (Pipeline.arrRef spec7 1)) (((cfg7.win 2).blk t).view.emb (ix2 p q))
  refine (k7_pay1_apply _ _ p q).trans ?_
  rw [iblk7_0_apply V c t p q, iblk7_1_apply V c t p q]
  rfl

/-! ## The blocks tile the array -/

/-- An index of the message array is in point `t`'s block iff each coordinate is in the block's range on its axis. -/
private theorem mem_blk7_2 (t : Fin cfg7.N) (i : S1600000x32.Idx) :
    i ∈ ((cfg7.win 2).blk t).view.set
      ↔ ∀ a : Fin 2, win7_2.index t a * S6400x32.size a ≤ (i a).val
          ∧ (i a).val < win7_2.index t a * S6400x32.size a + S6400x32.size a := by
  show i ∈ ((View.whole main_v47).slice (win7_2.rect t)).set ↔ _
  rw [View.set_slice_whole, Rect.mem_set_unit]
  exact Iff.rfl

/-- Every index of the message array is in some point's block: row `r` is in the block of point `r / 6400`
    (250 blocks of 6400 rows are the 1600000 rows), and a block spans all 32 columns. -/
private theorem covered7_2 (i : S1600000x32.Idx) :
    ∃ t : Fin cfg7.N, (cfg7.win 2).flush t = true ∧ i ∈ ((cfg7.win 2).blk t).view.set := by
  have hrow : (i 0).val < 1600000 := (i 0).isLt
  have hcol : (i 1).val < 32 := (i 1).isLt
  have hN : cfg7.N = 250 := N_7
  have ht : (i 0).val / 6400 < cfg7.N := by rw [hN]; omega
  obtain ⟨ea, eb, ec, ed, ee, ef⟩ := idx_facts7_2 ⟨(i 0).val / 6400, ht⟩
  refine ⟨⟨(i 0).val / 6400, ht⟩, flush7_2 _, ?_⟩
  rw [mem_blk7_2]
  intro a
  match a with
  | ⟨0, _⟩ =>
    show win7_2.index ⟨(i 0).val / 6400, ht⟩ (0 : Fin 2) * 6400 ≤ (i 0).val
      ∧ (i 0).val < win7_2.index ⟨(i 0).val / 6400, ht⟩ (0 : Fin 2) * 6400 + 6400
    rw [ee]
    show (i 0).val / 6400 * 6400 ≤ (i 0).val ∧ (i 0).val < (i 0).val / 6400 * 6400 + 6400
    omega
  | ⟨1, _⟩ =>
    show win7_2.index ⟨(i 0).val / 6400, ht⟩ (1 : Fin 2) * 32 ≤ (i 1).val
      ∧ (i 1).val < win7_2.index ⟨(i 0).val / 6400, ht⟩ (1 : Fin 2) * 32 + 32
    rw [ef]
    omega

/-! ## The array after the region -/

/-- The message array after region 7: (0 - difference) / sqrt(length), entry by entry. -/
theorem arr7_2 (c : Dev nD) :
    (dat7 (F := Ideal) V c).arrAt 2 cfg7.N = preK (V c (Pipeline.arrRef spec7 0)) (V c (Pipeline.arrRef spec7 1)) :=
  (dat7 (F := Ideal) V c).arrAt_eq_of_cover 2 (preK (V c (Pipeline.arrRef spec7 0)) (V c (Pipeline.arrRef spec7 1)))
    (fun t _ => flushed7_2_eq V c t) covered7_2

end Cert.KernelIdeal.PLap

end
-- ==== Proof.PLap.KIter3.lean ====
/-
  Step 3 of the kernel's program, read boundary by boundary. Between the boundary the step starts from (W19) and
  the boundary after this step's update (W25) lie four host stretches and two kernel regions: gather the source rows,
  gather the target rows, the difference-and-length kernel, the largest length, the message kernel, the update. From
  any contents a stretch leaves its result as the matching piece of `stepK` and writes none of the buffers still
  needed; a region leaves its output arrays at their whole-array closed forms and every other buffer alone. Walking the
  six boundaries: if W19 holds the features H and the ids R, C, then W25 holds stepK H R C, and still R and C.
-/
import proofs.«409662_j32736240730465_2_alg».proof.Proof.Gen.KernelIdeal.Frame
import proofs.«409662_j32736240730465_2_alg».proof.Proof.PLap.KStep
import proofs.«409662_j32736240730465_2_alg».proof.Proof.PLap.KRegion6
import proofs.«409662_j32736240730465_2_alg».proof.Proof.PLap.KRegion7
import Idealize.ShloMosaic.Lib.StableHlo.Run

set_option maxRecDepth 16384
set_option maxHeartbeats 1600000

noncomputable section

namespace Cert.KernelIdeal.PLap

open Idealize.ShloMosaic Idealize.ShloMosaic.TcCoe Idealize.SL.Sem Idealize.ShloMosaic.StableHlo
open Cert.KernelIdeal Cert.KernelIdeal.Gen

/-- A value carried into a typed reference's buffer and back is the value. -/
private theorem ofBuf_toBuf {T : BufTy} (x : TRef sig T) (v : T.Contents (Elt Ideal)) : x.ofBuf (x.toBuf v) = v := by
  obtain ⟨ref, rfl, h2, h3⟩ := x
  rfl

/-! ## The four host stretches of step 3, from any contents -/

section Stretches

variable (W : Valuation τ sig (Elt Ideal))

/-- Gathering the source rows: the result is the guarded gather of the features at the source ids. -/
private theorem srcRows3 {h : FVec Ideal S100000x32 .f32} {r : IVec S1600000 32}
    (hh : W (Proc.devRef .tc main_v42) = h) (hr : W (Proc.devRef .tc main_v1) = r) :
    StableHlo.after (hostOps6_1 (F := Ideal)) W (Proc.devRef .tc main_v43) = takeK h r := by
  subst hh hr
  after_results_simp
  simp only [ofBuf_toBuf]
  congr 1

private theorem srcRows3_feat : StableHlo.after (hostOps6_1 (F := Ideal)) W (Proc.devRef .tc main_v42) = W (Proc.devRef .tc main_v42) := by
  after_results_simp
private theorem srcRows3_src : StableHlo.after (hostOps6_1 (F := Ideal)) W (Proc.devRef .tc main_v1) = W (Proc.devRef .tc main_v1) := by
  after_results_simp
private theorem srcRows3_tgt : StableHlo.after (hostOps6_1 (F := Ideal)) W (Proc.devRef .tc main_v3) = W (Proc.devRef .tc main_v3) := by
  after_results_simp

/-- Gathering the target rows: the result is the guarded gather of the features at the target ids. -/
private theorem tgtRows3 {h : FVec Ideal S100000x32 .f32} {r : IVec S1600000 32}
    (hh : W (Proc.devRef .tc main_v42) = h) (hr : W (Proc.devRef .tc main_v3) = r) :
    StableHlo.after (hostOps6_2 (F := Ideal)) W (Proc.devRef .tc main_v44) = takeK h r := by
  subst hh hr
  after_results_simp
  simp only [ofBuf_toBuf]
  congr 1

private theorem tgtRows3_rows : StableHlo.after (hostOps6_2 (F := Ideal)) W (Proc.devRef .tc main_v43) = W (Proc.devRef .tc main_v43) := by
  after_results_simp
private theorem tgtRows3_feat : StableHlo.after (hostOps6_2 (F := Ideal)) W (Proc.devRef .tc main_v42) = W (Proc.devRef .tc main_v42) := by
  after_results_simp
private theorem tgtRows3_src : StableHlo.after (hostOps6_2 (F := Ideal)) W (Proc.devRef .tc main_v1) = W (Proc.devRef .tc main_v1) := by
  after_results_simp
private theorem tgtRows3_tgt : StableHlo.after (hostOps6_2 (F := Ideal)) W (Proc.devRef .tc main_v3) = W (Proc.devRef .tc main_v3) := by
  after_results_simp

/-- The largest length: the running maximum of the length column. -/
private theorem largest3 {n : FVec Ideal S1600000x1 .f32} (hn : W (Proc.devRef .tc main_v45_1) = n) :
    StableHlo.after (hostOps7 (F := Ideal)) W (Proc.devRef .tc main_v46) = maxK n := by
  subst hn
  after_results
  rfl

private theorem largest3_diff : StableHlo.after (hostOps7 (F := Ideal)) W (Proc.devRef .tc main_v45_0) = W (Proc.devRef .tc main_v45_0) := by
  after_results
private theorem largest3_len : StableHlo.after (hostOps7 (F := Ideal)) W (Proc.devRef .tc main_v45_1) = W (Proc.devRef .tc main_v45_1) := by
  after_results
private theorem largest3_feat : StableHlo.after (hostOps7 (F := Ideal)) W (Proc.devRef .tc main_v42) = W (Proc.devRef .tc main_v42) := by
  after_results
private theorem largest3_src : StableHlo.after (hostOps7 (F := Ideal)) W (Proc.devRef .tc main_v1) = W (Proc.devRef .tc main_v1) := by
  after_results
private theorem largest3_tgt : StableHlo.after (hostOps7 (F := Ideal)) W (Proc.devRef .tc main_v3) = W (Proc.devRef .tc main_v3) := by
  after_results

/-- The update: the features minus (mu * sqrt(largest length)) times the messages summed by source node. -/
private theorem update3 {h : FVec Ideal S100000x32 .f32} {r : IVec S1600000 32} {p : FVec Ideal S1600000x32 .f32}
    {x : FVec Ideal S_ .f32} (hh : W (Proc.devRef .tc main_v42) = h) (hr : W (Proc.devRef .tc main_v1) = r)
    (hp : W (Proc.devRef .tc main_v47) = p) (hx : W (Proc.devRef .tc main_v46) = x) :
    StableHlo.after (hostOps8 (F := Ideal)) W (Proc.devRef .tc main_v55) = updK h r p x := by
  subst hh hr hp hx
  after_results
  rfl

private theorem update3_src : StableHlo.after (hostOps8 (F := Ideal)) W (Proc.devRef .tc main_v1) = W (Proc.devRef .tc main_v1) := by
  after_results
private theorem update3_tgt : StableHlo.after (hostOps8 (F := Ideal)) W (Proc.devRef .tc main_v3) = W (Proc.devRef .tc main_v3) := by
  after_results

end Stretches

/-! ## The walk from W19 to W25 -/

variable (m : (ℓ : Loc nD τ sig) → Buf (Elt Ideal) ℓ) (ρ : Dev nD → PrngReg) (c : Dev nD)

/-- Step 3: if the boundary the step starts from holds the features `H` and the ids `R`, `C`, the boundary after this
    step's update holds `stepK H R C` in the next features buffer, and still `R` and `C`. -/
theorem iter3 {H : FVec Ideal S100000x32 .f32} {R C : IVec S1600000 32}
    (hH : W19 (F := Ideal) m ρ c (Proc.devRef .tc main_v42) = H)
    (hR : W19 (F := Ideal) m ρ c (Proc.devRef .tc main_v1) = R)
    (hC : W19 (F := Ideal) m ρ c (Proc.devRef .tc main_v3) = C) :
    W25 (F := Ideal) m ρ c (Proc.devRef .tc main_v55) = stepK H R C
      ∧ W25 (F := Ideal) m ρ c (Proc.devRef .tc main_v1) = R
      ∧ W25 (F := Ideal) m ρ c (Proc.devRef .tc main_v3) = C := by
  -- after the source rows are gathered
  have a2 : W20 (F := Ideal) m ρ c (Proc.devRef .tc main_v43) = takeK H R := srcRows3 (W19 m ρ c) hH hR
  have h2 : W20 (F := Ideal) m ρ c (Proc.devRef .tc main_v42) = H := (srcRows3_feat (W19 m ρ c)).trans hH
  have r2 : W20 (F := Ideal) m ρ c (Proc.devRef .tc main_v1) = R := (srcRows3_src (W19 m ρ c)).trans hR
  have c2 : W20 (F := Ideal) m ρ c (Proc.devRef .tc main_v3) = C := (srcRows3_tgt (W19 m ρ c)).trans hC
  -- after the target rows are gathered: region 6's entry
  have b3 : W21 (F := Ideal) m ρ c (Proc.devRef .tc main_v44) = takeK H C := tgtRows3 (W20 m ρ c) h2 c2
  have a3 : W21 (F := Ideal) m ρ c (Proc.devRef .tc main_v43) = takeK H R := (tgtRows3_rows (W20 m ρ c)).trans a2
  have h3 : W21 (F := Ideal) m ρ c (Proc.devRef .tc main_v42) = H := (tgtRows3_feat (W20 m ρ c)).trans h2
  have r3 : W21 (F := Ideal) m ρ c (Proc.devRef .tc main_v1) = R := (tgtRows3_src (W20 m ρ c)).trans r2
  have c3 : W21 (F := Ideal) m ρ c (Proc.devRef .tc main_v3) = C := (tgtRows3_tgt (W20 m ρ c)).trans c2
  -- region 6's exit: the differences and the lengths
  have d4 : W22 (F := Ideal) m ρ c (Proc.devRef .tc main_v45_0) = diffK (F := Ideal) (takeK H R) (takeK H C) :=
    (W22_arr m ρ c 2).trans ((arr6_2 (V21 m ρ) c).trans (congrArg₂ (diffK (F := Ideal)) a3 b3))
  have n4 : W22 (F := Ideal) m ρ c (Proc.devRef .tc main_v45_1) = normK (takeK H R) (takeK H C) :=
    (W22_arr m ρ c 3).trans ((arr6_3 (V21 m ρ) c).trans (congrArg₂ normK a3 b3))
  have h4 : W22 (F := Ideal) m ρ c (Proc.devRef .tc main_v42) = H := (W22_of_ne m ρ c main_v42 (by decide)).trans h3
  have r4 : W22 (F := Ideal) m ρ c (Proc.devRef .tc main_v1) = R := (W22_of_ne m ρ c main_v1 (by decide)).trans r3
  have c4 : W22 (F := Ideal) m ρ c (Proc.devRef .tc main_v3) = C := (W22_of_ne m ρ c main_v3 (by decide)).trans c3
  -- after the largest length is found: region 7's entry
  have x5 : W23 (F := Ideal) m ρ c (Proc.devRef .tc main_v46) = maxK (normK (takeK H R) (takeK H C)) := largest3 (W22 m ρ c) n4
  have d5 : W23 (F := Ideal) m ρ c (Proc.devRef .tc main_v45_0) = diffK (F := Ideal) (takeK H R) (takeK H C) := (largest3_diff (W22 m ρ c)).trans d4
  have n5 : W23 (F := Ideal) m ρ c (Proc.devRef .tc main_v45_1) = normK (takeK H R) (takeK H C) := (largest3_len (W22 m ρ c)).trans n4
  have h5 : W23 (F := Ideal) m ρ c (Proc.devRef .tc main_v42) = H := (largest3_feat (W22 m ρ c)).trans h4
  have r5 : W23 (F := Ideal) m ρ c (Proc.devRef .tc main_v1) = R := (largest3_src (W22 m ρ c)).trans r4
  have c5 : W23 (F := Ideal) m ρ c (Proc.devRef .tc main_v3) = C := (largest3_tgt (W22 m ρ c)).trans c4
  -- region 7's exit: the messages
  have p6 : W24 (F := Ideal) m ρ c (Proc.devRef .tc main_v47)
      = preK (diffK (F := Ideal) (takeK H R) (takeK H C)) (normK (takeK H R) (takeK H C)) :=
    (W24_arr m ρ c 2).trans ((arr7_2 (V23 m ρ) c).trans (congrArg₂ preK d5 n5))
  have x6 : W24 (F := Ideal) m ρ c (Proc.devRef .tc main_v46) = maxK (normK (takeK H R) (takeK H C)) := (W24_of_ne m ρ c main_v46 (by decide)).trans x5
  have h6 : W24 (F := Ideal) m ρ c (Proc.devRef .tc main_v42) = H := (W24_of_ne m ρ c main_v42 (by decide)).trans h5
  have r6 : W24 (F := Ideal) m ρ c (Proc.devRef .tc main_v1) = R := (W24_of_ne m ρ c main_v1 (by decide)).trans r5
  have c6 : W24 (F := Ideal) m ρ c (Proc.devRef .tc main_v3) = C := (W24_of_ne m ρ c main_v3 (by decide)).trans c5
  -- after the update
  exact ⟨update3 (W24 m ρ c) h6 r6 p6 x6, (update3_src (W24 m ρ c)).trans r6, (update3_tgt (W24 m ρ c)).trans c6⟩

end Cert.KernelIdeal.PLap

end
-- ==== Proof.PLap.KRegion8.lean ====
/-
  Region 8 of the program (the difference-and-length kernel, run over 250 blocks of 6400 edges): what its two output
  arrays hold when it is done, as whole-array functions of its two input arrays as the region finds them. Block t of
  each output is the kernel body's value on block t of the inputs; the blocks tile the arrays, so the difference array
  is the entrywise difference and the length column is the clamped row length of that difference.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The two zero offsets of a whole-block access, as the constant function. -/
private theorem off_zero : (![0, 0] : Fin 2 → Nat) = fun _ => 0 := funext fun a => by fin_cases a <;> rfl

/-- The printed index maps, decided over the grid: at point t every window's block index is (t, 0). -/
private theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- The difference payload is the entrywise difference of its two loaded blocks. -/
private theorem pay8_2_eq (xa xb : Vec Ideal S6400x32 .f32) : k8_pay1 (F := Ideal) xa xb = subf xa xb := by
  unfold k8_pay1
  simp only [shapeCast_self]

/-- What point t writes back to the difference array is block t of the entrywise difference of the two input arrays. -/
private theorem flushed8_2_eq (c : Dev nD) (t : Fin cfg8.N) :
    (dat8 (F := Ideal) V c).flushed 2 t
      = ((cfg8.win 2).blk t).view.read (Elt Ideal) (diffK (F := Ideal) (V c (Pipeline.arrRef spec8 0)) (V c (Pipeline.arrRef spec8 1))) := by
  show (cfg8.win 2).cut (grid8.coords t) ((dat8 V c).after 2 t) = _
  rw [after8_2]
  unfold out8_2
  rw [View.canon_unit_zero off_zero]
  simp only [View.ld_unit_zero (S := S6400x32) off_zero]
  rw [pay8_2_eq]
  obtain ⟨ea, eb, ec, ed, ee, ef, eg, eh⟩ := idx_facts8 t
  funext j
  show FloatOps.subf (F := Ideal) (φ := .f32) (V c (Pipeline.arrRef spec8 0) (((cfg8.win 0).blk t).view.emb j)) (V c (Pipeline.arrRef spec8 1) (((cfg8.win 1).blk t).view.emb j))
    = FloatOps.subf (F := Ideal) (φ := .f32) (V c (Pipeline.arrRef spec8 0) (((cfg8.win 2).blk t).view.emb j)) (V c (Pipeline.arrRef spec8 1) (((cfg8.win 2).blk t).view.emb j))
  have ha : ((cfg8.win 0).blk t).view.emb j = ((cfg8.win 2).blk t).view.emb j := by
    funext a; apply Fin.ext
    match a with
    | ⟨0, _⟩ => show win8_0.index t (0 : Fin 2) * 6400 + 1 * (j 0).val = win8_2.index t (0 : Fin 2) * 6400 + 1 * (j 0).val; omega
    | ⟨1, _⟩ => show win8_0.index t (1 : Fin 2) * 32 + 1 * (j 1).val = win8_2.index t (1 : Fin 2) * 32 + 1 * (j 1).val; omega
  have hb : ((cfg8.win 1).blk t).view.emb j = ((cfg8.win 2).blk t).view.emb j := by
    funext a; apply Fin.ext
    match a with
    | ⟨0, _⟩ => show win8_1.index t (0 : Fin 2) * 6400 + 1 * (j 0).val = win8_2.index t (0 : Fin 2) * 6400 + 1 * (j 0).val; omega
    | ⟨1, _⟩ => show win8_1.index t (1 : Fin 2) * 32 + 1 * (j 1).val = win8_2.index t (1 : Fin 2) * 32 + 1 * (j 1).val; omega
  rw [ha, hb]

/-- An index of the difference array is in point t's block iff each coordinate is in the block's range on its axis. -/
private theorem mem_blk8_2 (t : Fin cfg8.N) (i : S1600000x32.Idx) :
    i ∈ ((cfg8.win 2).blk t).view.set ↔ ∀ a : Fin 2, win8_2.index t a * S6400x32.size a ≤ (i a).val ∧ (i a).val < win8_2.index t a * S6400x32.size a + S6400x32.size a := by
  show i ∈ ((View.whole (Pipeline.arrRef spec8 2)).slice (win8_2.rect t)).set ↔ _
  rw [View.set_slice_whole, Rect.mem_set_unit]
  exact Iff.rfl

/-- Every index of the difference array is in some point's block: row r is in the block of point r / 6400. -/
private theorem covered8_2 (i : S1600000x32.Idx) :
    ∃ t : Fin cfg8.N, (cfg8.win 2).flush t = true ∧ i ∈ ((cfg8.win 2).blk t).view.set := by
  have hN : grid8.N = 250 := N_8
  have hr : (i 0).val < 1600000 := (i 0).isLt
  have hq : (i 1).val < 32 := (i 1).isLt
  obtain ⟨t, ht⟩ : ∃ t : Fin cfg8.N, t.val = (i 0).val / 6400 :=
    ⟨⟨(i 0).val / 6400, by show (i 0).val / 6400 < grid8.N; omega⟩, rfl⟩
  obtain ⟨ea, eb, ec, ed, ee, ef, eg, eh⟩ := idx_facts8 t
  refine ⟨t, flush8_2 t, ?_⟩
  rw [mem_blk8_2]
  intro a
  match a with
  | ⟨0, _⟩ => show win8_2.index t (0 : Fin 2) * 6400 ≤ (i 0).val ∧ (i 0).val < win8_2.index t (0 : Fin 2) * 6400 + 6400; omega
  | ⟨1, _⟩ => show win8_2.index t (1 : Fin 2) * 32 ≤ (i 1).val ∧ (i 1).val < win8_2.index t (1 : Fin 2) * 32 + 32; omega

/-- The difference array after region 8: the entrywise difference of the region's two input arrays. -/
theorem arr8_2 (c : Dev nD) :
    (dat8 (F := Ideal) V c).arrAt 2 cfg8.N = diffK (F := Ideal) (V c (Pipeline.arrRef spec8 0)) (V c (Pipeline.arrRef spec8 1)) :=
  (dat8 (F := Ideal) V c).arrAt_eq_of_cover 2 (diffK (F := Ideal) (V c (Pipeline.arrRef spec8 0)) (V c (Pipeline.arrRef spec8 1)))
    (fun t _ => flushed8_2_eq V c t) covered8_2

/-- A vector of length a cast to a column [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum over the 32 lanes of a block, read at row p. -/
private theorem rowsum8_3_apply (y : FVec Ideal S6400x32 .f32) (p : Fin 6400) :
    multiReduction (F := Ideal) .add [1] S6400 y 0x00000000#32 Facts₀.reduces_S6400x32_S6400 (.inl rfl) rfl (ix1 p)
      = ∑ q : Fin 32, y (ix2 p q) := by
  refine (Ideal.multiReduction_add_single y 0x00000000#32 Facts₀.reduces_S6400x32_S6400 (.inl rfl) rfl (ix1 p)).trans ?_
  refine Finset.sum_congr rfl fun q _ => congrArg y ?_
  funext a
  match a with
  | ⟨0, _⟩ => rfl
  | ⟨1, _⟩ => rfl

/-- The length payload at row p: the clamped length of the row of differences of its two loaded blocks. -/
private theorem pay8_3_apply (xa xb : Vec Ideal S6400x32 .f32) (p : Fin 6400) (u : Fin 1) :
    k8_pay2 (F := Ideal) xa xb (ix2 p u)
      = max (Ideal.sqrt (∑ q : Fin 32, (xa (ix2 p q) - xb (ix2 p q)) * (xa (ix2 p q) - xb (ix2 p q))))
          (Ideal.ofBits .f32 0x358637BD#32) := by
  unfold k8_pay2
  rw [pay8_2_eq]
  show max (Ideal.sqrt (shapeCast S6400x1 (multiReduction (F := Ideal) .add [1] S6400 (mulf (subf xa xb) (subf xa xb)) 0x00000000#32
      Facts₀.reduces_S6400x32_S6400 (.inl rfl) rfl) Facts₀.shapeCasts_S6400_S6400x1 (ix2 p u))) (Ideal.ofBits .f32 0x358637BD#32) = _
  rw [shapeCast_a_a1_apply, rowsum8_3_apply]
  rfl

/-- The length payload of two blocks whose row p holds row (i 0) of two arrays is the clamped row length of the
    arrays' difference at i. -/
private theorem pay8_3_eq_normK (A B : FVec Ideal S1600000x32 .f32) (xa xb : Vec Ideal S6400x32 .f32) (p : Fin 6400) (u : Fin 1)
    (i : S1600000x1.Idx)
    (ha : ∀ q : Fin 32, xa (ix2 p q) = A (ix2 (i 0) q))
    (hb : ∀ q : Fin 32, xb (ix2 p q) = B (ix2 (i 0) q)) :
    k8_pay2 (F := Ideal) xa xb (ix2 p u) = normK A B i := by
  rw [pay8_3_apply]
  unfold normK
  simp only [ha, hb]

/-- What point t writes back to the length column is block t of the clamped row lengths of the difference of the two
    input arrays. -/
private theorem flushed8_3_eq (c : Dev nD) (t : Fin cfg8.N) :
    (dat8 (F := Ideal) V c).flushed 3 t
      = ((cfg8.win 3).blk t).view.read (Elt Ideal) (normK (V c (Pipeline.arrRef spec8 0)) (V c (Pipeline.arrRef spec8 1))) := by
  show (cfg8.win 3).cut (grid8.coords t) ((dat8 V c).after 3 t) = _
  rw [after8_3]
  unfold out8_3
  rw [View.canon_unit_zero off_zero]
  simp only [View.ld_unit_zero (S := S6400x32) off_zero]
  obtain ⟨ea, eb, ec, ed, ee, ef, eg, eh⟩ := idx_facts8 t
  funext j
  obtain ⟨p, u, rfl⟩ : ∃ (p : Fin 6400) (u : Fin 1), j = ix2 p u := ⟨j 0, j 1, eq_ix2 j⟩
  refine pay8_3_eq_normK (V c (Pipeline.arrRef spec8 0)) (V c (Pipeline.arrRef spec8 1)) (iblk8 V c 0 t) (iblk8 V c 1 t) p u
    (((cfg8.win 3).blk t).view.emb (ix2 p u)) (fun q => ?_) (fun q => ?_)
  · show V c (Pipeline.arrRef spec8 0) (((cfg8.win 0).blk t).view.emb (ix2 p q)) = _
    congr 1
    funext a; apply Fin.ext
    match a with
    | ⟨0, _⟩ => show win8_0.index t (0 : Fin 2) * 6400 + 1 * p.val = win8_3.index t (0 : Fin 2) * 6400 + 1 * p.val; omega
    | ⟨1, _⟩ => show win8_0.index t (1 : Fin 2) * 32 + 1 * q.val = q.val; omega
  · show V c (Pipeline.arrRef spec8 1) (((cfg8.win 1).blk t).view.emb (ix2 p q)) = _
    congr 1
    funext a; apply Fin.ext
    match a with
    | ⟨0, _⟩ => show win8_1.index t (0 : Fin 2) * 6400 + 1 * p.val = win8_3.index t (0 : Fin 2) * 6400 + 1 * p.val; omega
    | ⟨1, _⟩ => show win8_1.index t (1 : Fin 2) * 32 + 1 * q.val = q.val; omega

/-- An index of the length column is in point t's block iff each coordinate is in the block's range on its axis. -/
private theorem mem_blk8_3 (t : Fin cfg8.N) (i : S1600000x1.Idx) :
    i ∈ ((cfg8.win 3).blk t).view.set ↔ ∀ a : Fin 2, win8_3.index t a * S6400x1.size a ≤ (i a).val ∧ (i a).val < win8_3.index t a * S6400x1.size a + S6400x1.size a := by
  show i ∈ ((View.whole (Pipeline.arrRef spec8 3)).slice (win8_3.rect t)).set ↔ _
  rw [View.set_slice_whole, Rect.mem_set_unit]
  exact Iff.rfl

/-- Every index of the length column is in some point's block: row r is in the block of point r / 6400. -/
private theorem covered8_3 (i : S1600000x1.Idx) :
    ∃ t : Fin cfg8.N, (cfg8.win 3).flush t = true ∧ i ∈ ((cfg8.win 3).blk t).view.set := by
  have hN : grid8.N = 250 := N_8
  have hr : (i 0).val < 1600000 := (i 0).isLt
  have hq : (i 1).val < 1 := (i 1).isLt
  obtain ⟨t, ht⟩ : ∃ t : Fin cfg8.N, t.val = (i 0).val / 6400 :=
    ⟨⟨(i 0).val / 6400, by show (i 0).val / 6400 < grid8.N; omega⟩, rfl⟩
  obtain ⟨ea, eb, ec, ed, ee, ef, eg, eh⟩ := idx_facts8 t
  refine ⟨t, flush8_3 t, ?_⟩
  rw [mem_blk8_3]
  intro a
  match a with
  | ⟨0, _⟩ => show win8_3.index t (0 : Fin 2) * 6400 ≤ (i 0).val ∧ (i 0).val < win8_3.index t (0 : Fin 2) * 6400 + 6400; omega
  | ⟨1, _⟩ => show win8_3.index t (1 : Fin 2) * 1 ≤ (i 1).val ∧ (i 1).val < win8_3.index t (1 : Fin 2) * 1 + 1; omega

/-- The length column after region 8: the clamped row length of the difference of the region's two input arrays. -/
theorem arr8_3 (c : Dev nD) :
    (dat8 (F := Ideal) V c).arrAt 3 cfg8.N = normK (V c (Pipeline.arrRef spec8 0)) (V c (Pipeline.arrRef spec8 1)) :=
  (dat8 (F := Ideal) V c).arrAt_eq_of_cover 3 (normK (V c (Pipeline.arrRef spec8 0)) (V c (Pipeline.arrRef spec8 1)))
    (fun t _ => flushed8_3_eq V c t) covered8_3

end Cert.KernelIdeal.PLap

end
-- ==== Proof.PLap.KRegion9.lean ====
/-
  Region 9 of the program (the message kernel, run over 250 blocks of 6400 edges): what its output array holds when it
  is done, as a whole-array function of its two input arrays (the differences and the length column) as the region
  finds them. Block t of the output is the kernel body's value on block t of the inputs; the blocks tile the array, so
  the message array is, entry by entry, zero minus the difference, times the reciprocal square root of the edge's length.
-/
import proofs.«409662_j32736240730465_2_alg».proof.Proof.Gen.KernelIdeal.Frame
import proofs.«409662_j32736240730465_2_alg».proof.Proof.PLap.KStep
import Idealize.ShloMosaic.Lib.Pipeline.Value
import Idealize.ShloMosaic.Lib.ValueIdx
import Idealize.ShloMosaic.Lib.ValueLayout
import Idealize.ShloMosaic.PureOps.Ideal.Laws

set_option maxRecDepth 16384
-- the per-point lemmas unfold a window's block placement over full-size extents
set_option maxHeartbeats 1600000

noncomputable section

namespace Cert.KernelIdeal.PLap

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's value at one entry of a block -/

/-- The offsets of a whole-block access, both zero. -/
private theorem off_zero : (![0, 0] : Fin 2 → Nat) = fun _ => 0 :=
  funext fun a => match a with | ⟨0, _⟩ => rfl | ⟨1, _⟩ => rfl

/-- A column `[a, 1]` broadcast to `[a, b]` reads, at `(p, q)`, the column's entry of row `p`: the row axis is kept
    (when `a = 1` its only coordinate is `0` either way), the unit axis is read at `0`. -/
private theorem bcast_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at entry `(p, q)` of a block, from the block `n` of lengths and the block `d` of differences:
    zero minus the difference at `(p, q)`, times the reciprocal square root of the length of row `p`. The two casts to
    the same shape are identities, the scalar zero is read everywhere, and the column of reciprocal roots is read at its row. -/
private theorem k9_pay1_apply (n : Vec Ideal S6400x1 .f32) (d : Vec Ideal S6400x32 .f32) (p : Fin 6400) (q : Fin 32) :
    k9_pay1 (F := Ideal) n d (ix2 p q)
      = (Ideal.ofBits .f32 0x00000000#32 - d (ix2 p q)) * Ideal.rsqrt (n (ix2 p (0 : Fin 1))) := by
  unfold k9_pay1
  simp only [shapeCast_self]
  rw [mulf_apply, subf_apply, broadcast_apply, bcast_col_apply]
  rfl

/-! ## Where the blocks sit -/

/-- At grid point `t` every window's block index is `(t, 0)`: the three windows move together down the rows
    (decided over the 250 points). -/
private theorem idx_facts9_2 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- Entry `(p, q)` of the difference window's block at point `t` is the difference array at the place where entry
    `(p, q)` of the output's block at `t` sits: on each axis, block index times block size plus the coordinate inside. -/
private theorem iblk9_0_apply (c : Dev nD) (t : Fin cfg9.N) (p : Fin 6400) (q : Fin 32) :
    iblk9 V c 0 t (ix2 p q) = V c (Pipeline.arrRef spec9 0) (((cfg9.win 2).blk t).view.emb (ix2 p q)) := by
  obtain ⟨ea, eb, ec, ed, ee, ef⟩ := idx_facts9_2 t
  unfold iblk9
  show V c (Pipeline.arrRef spec9 0) (((cfg9.win 0).blk t).view.emb (ix2 p q)) = _
  refine congrArg _ (funext fun a => Fin.ext ?_)
  match a with
  | ⟨0, _⟩ =>
    show win9_0.index t (0 : Fin 2) * 6400 + 1 * p.val = win9_2.index t (0 : Fin 2) * 6400 + 1 * p.val
    omega
  | ⟨1, _⟩ =>
    show win9_0.index t (1 : Fin 2) * 32 + 1 * q.val = win9_2.index t (1 : Fin 2) * 32 + 1 * q.val
    omega

/-- Entry `(p, 0)` of the length window's block at point `t` is the length column at the row where entry `(p, q)` of
    the output's block at `t` sits. -/
private theorem iblk9_1_apply (c : Dev nD) (t : Fin cfg9.N) (p : Fin 6400) (q : Fin 32) :
    iblk9 V c 1 t (ix2 p (0 : Fin 1))
      = V c (Pipeline.arrRef spec9 1)
          (ix2 (n0 := 1600000) ((((cfg9.win 2).blk t).view.emb (ix2 p q)) 0) (0 : Fin 1)) := by
  obtain ⟨ea, eb, ec, ed, ee, ef⟩ := idx_facts9_2 t
  unfold iblk9
  show V c (Pipeline.arrRef spec9 1) (((cfg9.win 1).blk t).view.emb (ix2 p (0 : Fin 1))) = _
  refine congrArg _ (funext fun a => Fin.ext ?_)
  match a with
  | ⟨0, _⟩ =>
    show win9_1.index t (0 : Fin 2) * 6400 + 1 * p.val = win9_2.index t (0 : Fin 2) * 6400 + 1 * p.val
    omega
  | ⟨1, _⟩ =>
    show win9_1.index t (1 : Fin 2) * 1 + 1 * 0 = 0
    omega

/-! ## What each point writes back -/

/-- What point `t` writes back to the message array is block `t` of the whole-array message function of the two input
    arrays: the body's one store fills the staging block with its value on the two input blocks, and entry by entry
    that value reads the input arrays exactly where the output's block sits. -/
private theorem flushed9_2_eq (c : Dev nD) (t : Fin cfg9.N) :
    (dat9 (F := Ideal) V c).flushed 2 t
      = ((cfg9.win 2).blk t).view.read (Elt Ideal)
          (preK (V c (Pipeline.arrRef spec9 0)) (V c (Pipeline.arrRef spec9 1))) := by
  show (cfg9.win 2).cut (grid9.coords t) ((dat9 V c).after 2 t) = _
  rw [after9_2]
  unfold out9_2
  rw [View.canon_unit_zero off_zero]
  simp only [View.ld_unit_zero (S := S6400x32) off_zero, View.ld_unit_zero (S := S6400x1) off_zero]
  funext j
  obtain ⟨p, q, rfl⟩ : ∃ (p : Fin 6400) (q : Fin 32), j = ix2 p q := ⟨j 0, j 1, eq_ix2 j⟩
  show k9_pay1 (F := Ideal) (iblk9 V c 1 t) (iblk9 V c 0 t) (ix2 p q)
    = preK (V c (Pipeline.arrRef spec9 0)) (V c (Pipeline.arrRef spec9 1)) (((cfg9.win 2).blk t).view.emb (ix2 p q))
  refine (k9_pay1_apply _ _ p q).trans ?_
  rw [iblk9_0_apply V c t p q, iblk9_1_apply V c t p q]
  rfl

/-! ## The blocks tile the array -/

/-- An index of the message array is in point `t`'s block iff each coordinate is in the block's range on its axis. -/
private theorem mem_blk9_2 (t : Fin cfg9.N) (i : S1600000x32.Idx) :
    i ∈ ((cfg9.win 2).blk t).view.set
      ↔ ∀ a : Fin 2, win9_2.index t a * S6400x32.size a ≤ (i a).val
          ∧ (i a).val < win9_2.index t a * S6400x32.size a + S6400x32.size a := by
  show i ∈ ((View.whole main_v60).slice (win9_2.rect t)).set ↔ _
  rw [View.set_slice_whole, Rect.mem_set_unit]
  exact Iff.rfl

/-- Every index of the message array is in some point's block: row `r` is in the block of point `r / 6400`
    (250 blocks of 6400 rows are the 1600000 rows), and a block spans all 32 columns. -/
private theorem covered9_2 (i : S1600000x32.Idx) :
    ∃ t : Fin cfg9.N, (cfg9.win 2).flush t = true ∧ i ∈ ((cfg9.win 2).blk t).view.set := by
  have hrow : (i 0).val < 1600000 := (i 0).isLt
  have hcol : (i 1).val < 32 := (i 1).isLt
  have hN : cfg9.N = 250 := N_9
  have ht : (i 0).val / 6400 < cfg9.N := by rw [hN]; omega
  obtain ⟨ea, eb, ec, ed, ee, ef⟩ := idx_facts9_2 ⟨(i 0).val / 6400, ht⟩
  refine ⟨⟨(i 0).val / 6400, ht⟩, flush9_2 _, ?_⟩
  rw [mem_blk9_2]
  intro a
  match a with
  | ⟨0, _⟩ =>
    show win9_2.index ⟨(i 0).val / 6400, ht⟩ (0 : Fin 2) * 6400 ≤ (i 0).val
      ∧ (i 0).val < win9_2.index ⟨(i 0).val / 6400, ht⟩ (0 : Fin 2) * 6400 + 6400
    rw [ee]
    show (i 0).val / 6400 * 6400 ≤ (i 0).val ∧ (i 0).val < (i 0).val / 6400 * 6400 + 6400
    omega
  | ⟨1, _⟩ =>
    show win9_2.index ⟨(i 0).val / 6400, ht⟩ (1 : Fin 2) * 32 ≤ (i 1).val
      ∧ (i 1).val < win9_2.index ⟨(i 0).val / 6400, ht⟩ (1 : Fin 2) * 32 + 32
    rw [ef]
    omega

/-! ## The array after the region -/

/-- The message array after region 9: (0 - difference) / sqrt(length), entry by entry. -/
theorem arr9_2 (c : Dev nD) :
    (dat9 (F := Ideal) V c).arrAt 2 cfg9.N = preK (V c (Pipeline.arrRef spec9 0)) (V c (Pipeline.arrRef spec9 1)) :=
  (dat9 (F := Ideal) V c).arrAt_eq_of_cover 2 (preK (V c (Pipeline.arrRef spec9 0)) (V c (Pipeline.arrRef spec9 1)))
    (fun t _ => flushed9_2_eq V c t) covered9_2

end Cert.KernelIdeal.PLap

end
-- ==== Proof.PLap.KIter4.lean ====
/-
  Step 4 of the kernel's program, read boundary by boundary. Between the boundary the step starts from (W25) and
  the boundary after this step's update (W31) lie four host stretches and two kernel regions: gather the source rows,
  gather the target rows, the difference-and-length kernel, the largest length, the message kernel, the update. From
  any contents a stretch leaves its result as the matching piece of `stepK` and writes none of the buffers still
  needed; a region leaves its output arrays at their whole-array closed forms and every other buffer alone. Walking the
  six boundaries: if W25 holds the features H and the ids R, C, then W31 holds stepK H R C, and still R and C.
-/
import proofs.«409662_j32736240730465_2_alg».proof.Proof.Gen.KernelIdeal.Frame
import proofs.«409662_j32736240730465_2_alg».proof.Proof.PLap.KStep
import proofs.«409662_j32736240730465_2_alg».proof.Proof.PLap.KRegion8
import proofs.«409662_j32736240730465_2_alg».proof.Proof.PLap.KRegion9
import Idealize.ShloMosaic.Lib.StableHlo.Run

set_option maxRecDepth 16384
set_option maxHeartbeats 1600000

noncomputable section

namespace Cert.KernelIdeal.PLap

open Idealize.ShloMosaic Idealize.ShloMosaic.TcCoe Idealize.SL.Sem Idealize.ShloMosaic.StableHlo
open Cert.KernelIdeal Cert.KernelIdeal.Gen

/-- A value carried into a typed reference's buffer and back is the value. -/
private theorem ofBuf_toBuf {T : BufTy} (x : TRef sig T) (v : T.Contents (Elt Ideal)) : x.ofBuf (x.toBuf v) = v := by
  obtain ⟨ref, rfl, h2, h3⟩ := x
  rfl

/-! ## The four host stretches of step 4, from any contents -/

section Stretches

variable (W : Valuation τ sig (Elt Ideal))

/-- Gathering the source rows: the result is the guarded gather of the features at the source ids. -/
private theorem srcRows4 {h : FVec Ideal S100000x32 .f32} {r : IVec S1600000 32}
    (hh : W (Proc.devRef .tc main_v55) = h) (hr : W (Proc.devRef .tc main_v1) = r) :
    StableHlo.after (hostOps8_1 (F := Ideal)) W (Proc.devRef .tc main_v56) = takeK h r := by
  subst hh hr
  after_results_simp
  simp only [ofBuf_toBuf]
  congr 1

private theorem srcRows4_feat : StableHlo.after (hostOps8_1 (F := Ideal)) W (Proc.devRef .tc main_v55) = W (Proc.devRef .tc main_v55) := by
  after_results_simp
private theorem srcRows4_src : StableHlo.after (hostOps8_1 (F := Ideal)) W (Proc.devRef .tc main_v1) = W (Proc.devRef .tc main_v1) := by
  after_results_simp
private theorem srcRows4_tgt : StableHlo.after (hostOps8_1 (F := Ideal)) W (Proc.devRef .tc main_v3) = W (Proc.devRef .tc main_v3) := by
  after_results_simp

/-- Gathering the target rows: the result is the guarded gather of the features at the target ids. -/
private theorem tgtRows4 {h : FVec Ideal S100000x32 .f32} {r : IVec S1600000 32}
    (hh : W (Proc.devRef .tc main_v55) = h) (hr : W (Proc.devRef .tc main_v3) = r) :
    StableHlo.after (hostOps8_2 (F := Ideal)) W (Proc.devRef .tc main_v57) = takeK h r := by
  subst hh hr
  after_results_simp
  simp only [ofBuf_toBuf]
  congr 1

private theorem tgtRows4_rows : StableHlo.after (hostOps8_2 (F := Ideal)) W (Proc.devRef .tc main_v56) = W (Proc.devRef .tc main_v56) := by
  after_results_simp
private theorem tgtRows4_feat : StableHlo.after (hostOps8_2 (F := Ideal)) W (Proc.devRef .tc main_v55) = W (Proc.devRef .tc main_v55) := by
  after_results_simp
private theorem tgtRows4_src : StableHlo.after (hostOps8_2 (F := Ideal)) W (Proc.devRef .tc main_v1) = W (Proc.devRef .tc main_v1) := by
  after_results_simp
private theorem tgtRows4_tgt : StableHlo.after (hostOps8_2 (F := Ideal)) W (Proc.devRef .tc main_v3) = W (Proc.devRef .tc main_v3) := by
  after_results_simp

/-- The largest length: the running maximum of the length column. -/
private theorem largest4 {n : FVec Ideal S1600000x1 .f32} (hn : W (Proc.devRef .tc main_v58_1) = n) :
    StableHlo.after (hostOps9 (F := Ideal)) W (Proc.devRef .tc main_v59) = maxK n := by
  subst hn
  after_results
  rfl

private theorem largest4_diff : StableHlo.after (hostOps9 (F := Ideal)) W (Proc.devRef .tc main_v58_0) = W (Proc.devRef .tc main_v58_0) := by
  after_results
private theorem largest4_len : StableHlo.after (hostOps9 (F := Ideal)) W (Proc.devRef .tc main_v58_1) = W (Proc.devRef .tc main_v58_1) := by
  after_results
private theorem largest4_feat : StableHlo.after (hostOps9 (F := Ideal)) W (Proc.devRef .tc main_v55) = W (Proc.devRef .tc main_v55) := by
  after_results
private theorem largest4_src : StableHlo.after (hostOps9 (F := Ideal)) W (Proc.devRef .tc main_v1) = W (Proc.devRef .tc main_v1) := by
  after_results
private theorem largest4_tgt : StableHlo.after (hostOps9 (F := Ideal)) W (Proc.devRef .tc main_v3) = W (Proc.devRef .tc main_v3) := by
  after_results

/-- The update: the features minus (mu * sqrt(largest length)) times the messages summed by source node. -/
private theorem update4 {h : FVec Ideal S100000x32 .f32} {r : IVec S1600000 32} {p : FVec Ideal S1600000x32 .f32}
    {x : FVec Ideal S_ .f32} (hh : W (Proc.devRef .tc main_v55) = h) (hr : W (Proc.devRef .tc main_v1) = r)
    (hp : W (Proc.devRef .tc main_v60) = p) (hx : W (Proc.devRef .tc main_v59) = x) :
    StableHlo.after (hostOps10 (F := Ideal)) W (Proc.devRef .tc main_v68) = updK h r p x := by
  subst hh hr hp hx
  after_results
  rfl

private theorem update4_src : StableHlo.after (hostOps10 (F := Ideal)) W (Proc.devRef .tc main_v1) = W (Proc.devRef .tc main_v1) := by
  after_results
private theorem update4_tgt : StableHlo.after (hostOps10 (F := Ideal)) W (Proc.devRef .tc main_v3) = W (Proc.devRef .tc main_v3) := by
  after_results

end Stretches

/-! ## The walk from W25 to W31 -/

variable (m : (ℓ : Loc nD τ sig) → Buf (Elt Ideal) ℓ) (ρ : Dev nD → PrngReg) (c : Dev nD)

/-- Step 4: if the boundary the step starts from holds the features `H` and the ids `R`, `C`, the boundary after this
    step's update holds `stepK H R C` in the next features buffer, and still `R` and `C`. -/
theorem iter4 {H : FVec Ideal S100000x32 .f32} {R C : IVec S1600000 32}
    (hH : W25 (F := Ideal) m ρ c (Proc.devRef .tc main_v55) = H)
    (hR : W25 (F := Ideal) m ρ c (Proc.devRef .tc main_v1) = R)
    (hC : W25 (F := Ideal) m ρ c (Proc.devRef .tc main_v3) = C) :
    W31 (F := Ideal) m ρ c (Proc.devRef .tc main_v68) = stepK H R C
      ∧ W31 (F := Ideal) m ρ c (Proc.devRef .tc main_v1) = R
      ∧ W31 (F := Ideal) m ρ c (Proc.devRef .tc main_v3) = C := by
  -- after the source rows are gathered
  have a2 : W26 (F := Ideal) m ρ c (Proc.devRef .tc main_v56) = takeK H R := srcRows4 (W25 m ρ c) hH hR
  have h2 : W26 (F := Ideal) m ρ c (Proc.devRef .tc main_v55) = H := (srcRows4_feat (W25 m ρ c)).trans hH
  have r2 : W26 (F := Ideal) m ρ c (Proc.devRef .tc main_v1) = R := (srcRows4_src (W25 m ρ c)).trans hR
  have c2 : W26 (F := Ideal) m ρ c (Proc.devRef .tc main_v3) = C := (srcRows4_tgt (W25 m ρ c)).trans hC
  -- after the target rows are gathered: region 8's entry
  have b3 : W27 (F := Ideal) m ρ c (Proc.devRef .tc main_v57) = takeK H C := tgtRows4 (W26 m ρ c) h2 c2
  have a3 : W27 (F := Ideal) m ρ c (Proc.devRef .tc main_v56) = takeK H R := (tgtRows4_rows (W26 m ρ c)).trans a2
  have h3 : W27 (F := Ideal) m ρ c (Proc.devRef .tc main_v55) = H := (tgtRows4_feat (W26 m ρ c)).trans h2
  have r3 : W27 (F := Ideal) m ρ c (Proc.devRef .tc main_v1) = R := (tgtRows4_src (W26 m ρ c)).trans r2
  have c3 : W27 (F := Ideal) m ρ c (Proc.devRef .tc main_v3) = C := (tgtRows4_tgt (W26 m ρ c)).trans c2
  -- region 8's exit: the differences and the lengths
  have d4 : W28 (F := Ideal) m ρ c (Proc.devRef .tc main_v58_0) = diffK (F := Ideal) (takeK H R) (takeK H C) :=
    (W28_arr m ρ c 2).trans ((arr8_2 (V27 m ρ) c).trans (congrArg₂ (diffK (F := Ideal)) a3 b3))
  have n4 : W28 (F := Ideal) m ρ c (Proc.devRef .tc main_v58_1) = normK (takeK H R) (takeK H C) :=
    (W28_arr m ρ c 3).trans ((arr8_3 (V27 m ρ) c).trans (congrArg₂ normK a3 b3))
  have h4 : W28 (F := Ideal) m ρ c (Proc.devRef .tc main_v55) = H := (W28_of_ne m ρ c main_v55 (by decide)).trans h3
  have r4 : W28 (F := Ideal) m ρ c (Proc.devRef .tc main_v1) = R := (W28_of_ne m ρ c main_v1 (by decide)).trans r3
  have c4 : W28 (F := Ideal) m ρ c (Proc.devRef .tc main_v3) = C := (W28_of_ne m ρ c main_v3 (by decide)).trans c3
  -- after the largest length is found: region 9's entry
  have x5 : W29 (F := Ideal) m ρ c (Proc.devRef .tc main_v59) = maxK (normK (takeK H R) (takeK H C)) := largest4 (W28 m ρ c) n4
  have d5 : W29 (F := Ideal) m ρ c (Proc.devRef .tc main_v58_0) = diffK (F := Ideal) (takeK H R) (takeK H C) := (largest4_diff (W28 m ρ c)).trans d4
  have n5 : W29 (F := Ideal) m ρ c (Proc.devRef .tc main_v58_1) = normK (takeK H R) (takeK H C) := (largest4_len (W28 m ρ c)).trans n4
  have h5 : W29 (F := Ideal) m ρ c (Proc.devRef .tc main_v55) = H := (largest4_feat (W28 m ρ c)).trans h4
  have r5 : W29 (F := Ideal) m ρ c (Proc.devRef .tc main_v1) = R := (largest4_src (W28 m ρ c)).trans r4
  have c5 : W29 (F := Ideal) m ρ c (Proc.devRef .tc main_v3) = C := (largest4_tgt (W28 m ρ c)).trans c4
  -- region 9's exit: the messages
  have p6 : W30 (F := Ideal) m ρ c (Proc.devRef .tc main_v60)
      = preK (diffK (F := Ideal) (takeK H R) (takeK H C)) (normK (takeK H R) (takeK H C)) :=
    (W30_arr m ρ c 2).trans ((arr9_2 (V29 m ρ) c).trans (congrArg₂ preK d5 n5))
  have x6 : W30 (F := Ideal) m ρ c (Proc.devRef .tc main_v59) = maxK (normK (takeK H R) (takeK H C)) := (W30_of_ne m ρ c main_v59 (by decide)).trans x5
  have h6 : W30 (F := Ideal) m ρ c (Proc.devRef .tc main_v55) = H := (W30_of_ne m ρ c main_v55 (by decide)).trans h5
  have r6 : W30 (F := Ideal) m ρ c (Proc.devRef .tc main_v1) = R := (W30_of_ne m ρ c main_v1 (by decide)).trans r5
  have c6 : W30 (F := Ideal) m ρ c (Proc.devRef .tc main_v3) = C := (W30_of_ne m ρ c main_v3 (by decide)).trans c5
  -- after the update
  exact ⟨update4 (W30 m ρ c) h6 r6 p6 x6, (update4_src (W30 m ρ c)).trans r6, (update4_tgt (W30 m ρ c)).trans c6⟩

end Cert.KernelIdeal.PLap

end
-- ==== Proof.PLap.KFold.lean ====
/-
  The kernel's program, read boundary by boundary: host stretches and kernel regions alternate, and the buffer contents
  at each boundary are a fold from the launch memory. The first stretch slices the edge list into the source ids and
  the target ids; then five times the same six boundaries (gather, gather, the difference-and-length kernel, the largest
  length, the message kernel, the update) carry the features through one `stepK`. The result buffer at the last
  boundary therefore holds five steps from the two arguments.
-/
import proofs.«409662_j32736240730465_2_alg».proof.Proof.Gen.KernelIdeal.Frame
import proofs.«409662_j32736240730465_2_alg».proof.Proof.PLap.KStep
import proofs.«409662_j32736240730465_2_alg».proof.Proof.PLap.KIter0
import proofs.«409662_j32736240730465_2_alg».proof.Proof.PLap.KIter1
import proofs.«409662_j32736240730465_2_alg».proof.Proof.PLap.KIter2
import proofs.«409662_j32736240730465_2_alg».proof.Proof.PLap.KIter3
import proofs.«409662_j32736240730465_2_alg».proof.Proof.PLap.KIter4
import Idealize.ShloMosaic.Lib.StableHlo.Run

set_option maxRecDepth 16384

noncomputable section

namespace Cert.KernelIdeal.PLap

open Idealize.ShloMosaic Idealize.ShloMosaic.TcCoe Idealize.SL.Sem Idealize.ShloMosaic.StableHlo
open Cert.KernelIdeal Cert.KernelIdeal.Gen

/-! ## The slices, from any contents -/

section Slices

variable (W : Valuation τ sig (Elt Ideal))

private theorem slices_src : StableHlo.after (hostOps0 (F := Ideal)) W (Proc.devRef .tc main_v1) = rowOf (W (Proc.devRef .tc main_arg1)) := by
  after_results
  rfl

private theorem slices_tgt : StableHlo.after (hostOps0 (F := Ideal)) W (Proc.devRef .tc main_v3) = colOf (W (Proc.devRef .tc main_arg1)) := by
  after_results
  rfl

private theorem slices_feat : StableHlo.after (hostOps0 (F := Ideal)) W (Proc.devRef .tc main_arg0) = W (Proc.devRef .tc main_arg0) := by
  after_results

end Slices

variable (m : (ℓ : Loc nD τ sig) → Buf (Elt Ideal) ℓ) (ρ : Dev nD → PrngReg) (c : Dev nD)

/-- The result buffer at the last boundary: five steps from the launch contents of the two arguments. -/
theorem fold_result :
    W31 (F := Ideal) m ρ c (Proc.devRef .tc main_v68)
      = kval (m ((c : Thread nD τ).loc main_arg0)) (m ((c : Thread nD τ).loc main_arg1)) := by
  -- the boundary after the slices: the features as launched, the ids cut out of the edge list as launched
  have hH : W1 (F := Ideal) m ρ c (Proc.devRef .tc main_arg0) = m ((c : Thread nD τ).loc main_arg0) := slices_feat (W0 m ρ c)
  have hR : W1 (F := Ideal) m ρ c (Proc.devRef .tc main_v1) = rowOf (m ((c : Thread nD τ).loc main_arg1)) := slices_src (W0 m ρ c)
  have hC : W1 (F := Ideal) m ρ c (Proc.devRef .tc main_v3) = colOf (m ((c : Thread nD τ).loc main_arg1)) := slices_tgt (W0 m ρ c)
  -- five steps
  have s0 := iter0 m ρ c hH hR hC
  have s1 := iter1 m ρ c s0.1 s0.2.1 s0.2.2
  have s2 := iter2 m ρ c s1.1 s1.2.1 s1.2.2
  have s3 := iter3 m ρ c s2.1 s2.2.1 s2.2.2
  have s4 := iter4 m ρ c s3.1 s3.2.1 s3.2.2
  exact s4.1

end Cert.KernelIdeal.PLap

end
-- ==== Proof.PLap.RStep.lean ====
/-
  One step of the reference program as a function of whole arrays, at the extended reals.

  From the node features h and the edge list the step gathers the two endpoint rows of every edge, takes their
  difference d_e and its clamped length n_e = max(|d_e|, eps), finds the largest length M, weights the message -d_e
  by (n_e / M)^(-1/2), sums the weighted messages by source node and moves each node by -mu times its sum. The
  program runs five such steps.
-/
import proofs.«409662_j32736240730465_2_alg».proof.Proof.Gen.ReferenceIdeal

noncomputable section

namespace Cert.ReferenceIdeal.PLap

open Idealize.ShloMosaic Cert.ReferenceIdeal Cert.ReferenceIdeal.Facts₀ Cert.ReferenceIdeal.Facts

/-- The source node of every edge: row 0 of the edge list. -/
def rowOf (ei : IVec S2x1600000 32) : IVec S1600000 32 :=
  shapeCast S1600000 (extractStridedSlice S1x1600000 ![0, 0] ei slices_S2x1600000_S1x1600000_0_0) shapeCasts_S1x1600000_S1600000

/-- The target node of every edge: row 1 of the edge list. -/
def colOf (ei : IVec S2x1600000 32) : IVec S1600000 32 :=
  shapeCast S1600000 (extractStridedSlice S1x1600000 ![1, 0] ei slices_S2x1600000_S1x1600000_1_0) shapeCasts_S1x1600000_S1600000

variable {F : FTy → Type} [FloatOps F]

/-- A node id with a negative one counted from the end, as a column of start indices. -/
def wrapIdx (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The rows of `h` at the given node ids (clamped into the table), as an edge-by-feature array. -/
def gatherRows (h : FVec F S100000x32 .f32) (idx : IVec S1600000 32) : FVec F S1600000x32 .f32 :=
  Host.gather gather_S100000x32_S1600000x1_S1600000x32_1_0_n_n_0_1_132 h (wrapIdx idx)

/-- The difference of the two endpoint rows of every edge. -/
def diffR (h : FVec F S100000x32 .f32) (row col : IVec S1600000 32) : FVec F S1600000x32 .f32 :=
  subf (gatherRows h row) (gatherRows h col)

/-- The clamped length of every edge's difference: max(sqrt(sum over the features of the squared difference), eps). -/
def normR (d : FVec F S1600000x32 .f32) : FVec F S1600000 .f32 :=
  maximumf (Host.sqrt (Host.reduceAdd (mulf d d) (constant S_ .f32 0x00000000#32) reducesTo_S1600000x32_S1600000_d1 h_S_))
    (broadcastInDim S1600000 ![] bcast_S_S1600000 (constant S_ .f32 0x358637BD#32))

/-- The largest length, from the seed minus infinity. -/
def maxR (n : FVec F S1600000 .f32) : FVec F S_ .f32 :=
  Host.reduce FloatOps.maximumf n (constant S_ .f32 0xFF800000#32) reducesTo_S1600000_S_d0 h_S_

/-- The edge weights (n_e / M)^(-1/2). -/
def weightR (n : FVec F S1600000 .f32) : FVec F S1600000 .f32 :=
  Host.powf (Host.divf n (broadcastInDim S1600000 ![] bcast_S_S1600000 (maxR n)))
    (broadcastInDim S1600000 ![] bcast_S_S1600000 (constant S_ .f32 0xBF000000#32))

/-- The weighted messages: weight_e * (-d_e), feature by feature. -/
def msgR (d : FVec F S1600000x32 .f32) : FVec F S1600000x32 .f32 :=
  mulf (broadcastInDim S1600000x32 ![0, 1] bcast_S1600000x1_S1600000x32_0_1
      (broadcastInDim S1600000x1 ![0] bcast_S1600000_S1600000x1_0 (weightR (normR d))))
    (Host.negf d)

/-- The node update: h minus mu times the weighted messages summed by source node. -/
def updR (h : FVec F S100000x32 .f32) (row : IVec S1600000 32) (msg : FVec F S1600000x32 .f32) : FVec F S100000x32 .f32 :=
  subf h (mulf (broadcastInDim S100000x32 ![] bcast_S_S100000x32 (constant S_ .f32 0x3C23D70A#32))
    (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 row) msg))

/-- One step. -/
def stepR (h : FVec F S100000x32 .f32) (row col : IVec S1600000 32) : FVec F S100000x32 .f32 :=
  updR h row (msgR (diffR h row col))

/-- The program's result: five steps from the input features along the input edge list. -/
def rval (h : FVec F S100000x32 .f32) (ei : IVec S2x1600000 32) : FVec F S100000x32 .f32 :=
  stepR (stepR (stepR (stepR (stepR h (rowOf ei) (colOf ei)) (rowOf ei) (colOf ei)) (rowOf ei) (colOf ei)) (rowOf ei) (colOf ei))
    (rowOf ei) (colOf ei)

end Cert.ReferenceIdeal.PLap

end
-- ==== Proof.PLap.RVal.lean ====
/-
  The reference program's result buffer, read off the fold of its operations: the two slices of the edge list, then
  five times the same 45 operations, each time on the previous step's node features. Cut at the step boundaries, the
  fold is five applications of `stepR`.
-/
import proofs.«409662_j32736240730465_2_alg».proof.Proof.PLap.RRunOps
import proofs.«409662_j32736240730465_2_alg».proof.Proof.PLap.RStep

set_option maxRecDepth 16384

noncomputable section

namespace Cert.ReferenceIdeal.PLap

open Cert.ReferenceIdeal Cert.ReferenceIdeal.Gen Idealize.ShloMosaic Idealize.ShloMosaic.TcCoe Idealize.SL.Sem Idealize.ShloMosaic.StableHlo

variable {F : FTy → Type} [FloatOps F]

/-- Running one line of operations and then another is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, after_cons, after_cons, ih]

/-! ### The slices

From any contents `W`, the four operations before the first step leave the sources of the edges in `main_v1`, the
targets in `main_v3`, and do not touch the node features. -/

private theorem pre_row (W : Valuation τ sig (Elt F)) :
    StableHlo.after (RunOps.opsPre (F := F)) W (Proc.devRef .tc main_v1) = rowOf (W (Proc.devRef .tc main_arg1)) := by
  after_results
  rfl

private theorem pre_col (W : Valuation τ sig (Elt F)) :
    StableHlo.after (RunOps.opsPre (F := F)) W (Proc.devRef .tc main_v3) = colOf (W (Proc.devRef .tc main_arg1)) := by
  after_results
  rfl

private theorem pre_feat (W : Valuation τ sig (Elt F)) :
    StableHlo.after (RunOps.opsPre (F := F)) W (Proc.devRef .tc main_arg0) = W (Proc.devRef .tc main_arg0) := by
  after_results

/-! ### One step

From any contents `W`, the 45 operations of a step leave in the step's last buffer one `stepR` of the previous
features along the edge list held in `main_v1` and `main_v3`, and write neither of those two (stated for the first
four steps: after the fifth the edge list is not read again). -/

private theorem step1_res (W : Valuation τ sig (Elt F)) :
    StableHlo.after (RunOps.opsStep1 (F := F)) W (Proc.devRef .tc main_v36)
      = stepR (W (Proc.devRef .tc main_arg0)) (W (Proc.devRef .tc main_v1)) (W (Proc.devRef .tc main_v3)) := by
  after_results_simp
  rfl

private theorem step1_row (W : Valuation τ sig (Elt F)) :
    StableHlo.after (RunOps.opsStep1 (F := F)) W (Proc.devRef .tc main_v1) = W (Proc.devRef .tc main_v1) := by
  after_results_simp

private theorem step1_col (W : Valuation τ sig (Elt F)) :
    StableHlo.after (RunOps.opsStep1 (F := F)) W (Proc.devRef .tc main_v3) = W (Proc.devRef .tc main_v3) := by
  after_results_simp

private theorem step2_res (W : Valuation τ sig (Elt F)) :
    StableHlo.after (RunOps.opsStep2 (F := F)) W (Proc.devRef .tc main_v69)
      = stepR (W (Proc.devRef .tc main_v36)) (W (Proc.devRef .tc main_v1)) (W (Proc.devRef .tc main_v3)) := by
  after_results_simp
  rfl

private theorem step2_row (W : Valuation τ sig (Elt F)) :
    StableHlo.after (RunOps.opsStep2 (F := F)) W (Proc.devRef .tc main_v1) = W (Proc.devRef .tc main_v1) := by
  after_results_simp

private theorem step2_col (W : Valuation τ sig (Elt F)) :
    StableHlo.after (RunOps.opsStep2 (F := F)) W (Proc.devRef .tc main_v3) = W (Proc.devRef .tc main_v3) := by
  after_results_simp

private theorem step3_res (W : Valuation τ sig (Elt F)) :
    StableHlo.after (RunOps.opsStep3 (F := F)) W (Proc.devRef .tc main_v102)
      = stepR (W (Proc.devRef .tc main_v69)) (W (Proc.devRef .tc main_v1)) (W (Proc.devRef .tc main_v3)) := by
  after_results_simp
  rfl

private theorem step3_row (W : Valuation τ sig (Elt F)) :
    StableHlo.after (RunOps.opsStep3 (F := F)) W (Proc.devRef .tc main_v1) = W (Proc.devRef .tc main_v1) := by
  after_results_simp

private theorem step3_col (W : Valuation τ sig (Elt F)) :
    StableHlo.after (RunOps.opsStep3 (F := F)) W (Proc.devRef .tc main_v3) = W (Proc.devRef .tc main_v3) := by
  after_results_simp

private theorem step4_res (W : Valuation τ sig (Elt F)) :
    StableHlo.after (RunOps.opsStep4 (F := F)) W (Proc.devRef .tc main_v135)
      = stepR (W (Proc.devRef .tc main_v102)) (W (Proc.devRef .tc main_v1)) (W (Proc.devRef .tc main_v3)) := by
  after_results_simp
  rfl

private theorem step4_row (W : Valuation τ sig (Elt F)) :
    StableHlo.after (RunOps.opsStep4 (F := F)) W (Proc.devRef .tc main_v1) = W (Proc.devRef .tc main_v1) := by
  after_results_simp

private theorem step4_col (W : Valuation τ sig (Elt F)) :
    StableHlo.after (RunOps.opsStep4 (F := F)) W (Proc.devRef .tc main_v3) = W (Proc.devRef .tc main_v3) := by
  after_results_simp

private theorem step5_res (W : Valuation τ sig (Elt F)) :
    StableHlo.after (RunOps.opsStep5 (F := F)) W (Proc.devRef .tc main_v168)
      = stepR (W (Proc.devRef .tc main_v135)) (W (Proc.devRef .tc main_v1)) (W (Proc.devRef .tc main_v3)) := by
  after_results_simp
  rfl

/-- The result buffer after all 229 operations, from any contents `V`: five steps from the node features along the
    edge list `V` holds. -/
theorem fold_eq (V : Valuation τ sig (Elt F)) :
    StableHlo.after (RunOps.ops (F := F)) V (Proc.devRef .tc main_v168)
      = rval (V (Proc.devRef .tc main_arg0)) (V (Proc.devRef .tc main_arg1)) := by
  -- cut the line at the step boundaries, then read the buffers back from the last step to the slices
  rw [RunOps.ops_eq_steps, after_append, after_append, after_append, after_append, after_append]
  rw [step5_res, step4_res, step4_row, step4_col, step3_res, step3_row, step3_col, step2_res, step2_row, step2_col,
    step1_res, step1_row, step1_col, pre_feat, pre_row, pre_col]
  rfl

/-- Every weakly fair execution of the reference terminates with its result at five steps from its arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168)
        = rval (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (fold_eq (launchContents m c)), (h c).2⟩) (RunOps.run_fold m ρ)

end Cert.ReferenceIdeal.PLap

end
-- ==== Proof.PLap.Core.lean ====
/-
  The arithmetic of one p-Laplacian message-passing step (p = 3/2), on the extended reals, with no program in sight.

  An edge e carries a difference vector d_e and its clamped length n_e = max(|d_e|, eps) > 0; M is the largest n_e.
  One program weights the message -d_e by (n_e / M)^(-1/2) and scales the summed messages by mu; the other sends
  -d_e / sqrt(n_e) and scales the sum by mu * sqrt(M). Over the reals these agree because
  (a / M)^(-1/2) = sqrt(M) / sqrt(a) for a, M > 0, and a real factor moves across a finite sum of reals.
  Everything here is stated on real-valued data embedded in the extended reals, so no infinity is ever met.
-/
import Idealize.ShloMosaic.PureOps.Ideal
import Idealize.ShloMosaic.PureOps.Ideal.Laws
import Mathlib.Data.EReal.Basic
import Mathlib.Data.Finset.Fold
import Mathlib.Analysis.Real.Sqrt
import Mathlib.Analysis.SpecialFunctions.Pow.Real

noncomputable section

namespace Cert.PLap

open Idealize.ShloMosaic
open scoped BigOperators

/-- The clamp eps (the f32 nearest 1e-6), as a word. -/
abbrev wEps : BitVec 32 := 0x358637BD#32
/-- The step size mu (the f32 nearest 0.01), as a word. -/
abbrev wMu : BitVec 32 := 0x3C23D70A#32
/-- The exponent p - 2 = -1/2, as a word. -/
abbrev wNegHalf : BitVec 32 := 0xBF000000#32
/-- Minus infinity, the seed of a running maximum, as a word. -/
abbrev wNegInf : BitVec 32 := 0xFF800000#32

/-- eps denotes a positive real. -/
theorem eps_pos : ∃ e : ℝ, 0 < e ∧ Ideal.ofBits .f32 wEps = (e : EReal) := by
  -- sign 0, exponent 107, fraction 407485: the word is 8796093 * 2^(107 - 127 - 23)
  refine ⟨(8796093 : ℝ) * (2 : ℝ) ^ (-43 : Int), by positivity, ?_⟩
  show Ideal.ofBits .f32 0x358637BD#32 = _
  simp [Ideal.ofBits, Ideal.ieee, -EReal.coe_mul]

/-- mu denotes a real. -/
theorem mu_real : ∃ c : ℝ, Ideal.ofBits .f32 wMu = (c : EReal) := by
  -- sign 0, exponent 120, fraction 2348810: the word is 10737418 * 2^(120 - 127 - 23)
  refine ⟨(10737418 : ℝ) * (2 : ℝ) ^ (-30 : Int), ?_⟩
  show Ideal.ofBits .f32 0x3C23D70A#32 = _
  simp [Ideal.ofBits, Ideal.ieee, -EReal.coe_mul]

/-- The exponent word denotes exactly -1/2. -/
theorem negHalf_eq : Ideal.ofBits .f32 wNegHalf = (((-1 / 2 : ℝ)) : EReal) := by
  -- sign 1, exponent 126, fraction 0: the word is -(2^23 * 2^(126 - 127 - 23))
  show Ideal.ofBits .f32 0xBF000000#32 = _
  simp [Ideal.ofBits, Ideal.ieee, -EReal.coe_mul]; norm_num

/-- The seed word denotes the bottom of the extended reals. -/
theorem negInf_eq : Ideal.ofBits .f32 wNegInf = (⊥ : EReal) := by
  -- sign 1, exponent all ones, fraction 0
  show Ideal.ofBits .f32 0xFF800000#32 = _
  simp [Ideal.ofBits, Ideal.ieee]

/-- A finite sum of embedded reals is the embedded sum. -/
theorem coe_sum {J : Type*} (s : Finset J) (f : J → ℝ) : (∑ j ∈ s, (f j : EReal)) = ((∑ j ∈ s, f j : ℝ) : EReal) := by
  induction s using Finset.cons_induction with
  | empty => simp
  | cons a s ha ih => rw [Finset.sum_cons, Finset.sum_cons, ih, EReal.coe_add]

/-- The embedding of the reals commutes with the binary maximum (it is monotone). -/
private theorem coe_max' (a b : ℝ) : max (a : EReal) (b : EReal) = ((max a b : ℝ) : EReal) :=
  (EReal.coe_strictMono.monotone.map_max).symm

/-- The square root of an embedded nonnegative real is the embedded real square root. -/
private theorem sqrt_coe_nonneg {r : ℝ} (hr : 0 ≤ r) : Ideal.sqrt (r : EReal) = ((Real.sqrt r : ℝ) : EReal) := by
  rw [Ideal.sqrt_coe, if_neg (not_lt.mpr hr)]

/-- The reciprocal square root of an embedded positive real is the embedded reciprocal of the real square root. -/
private theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The clamped length of a real vector is a positive real: max(sqrt(sum of squares), eps). -/
theorem norm_real {K : Type*} (s : Finset K) (d : K → ℝ) :
    ∃ r : ℝ, 0 < r ∧ max (Ideal.sqrt (∑ k ∈ s, (d k : EReal) * (d k : EReal))) (Ideal.ofBits .f32 wEps) = (r : EReal) := by
  obtain ⟨e, he, hE⟩ := eps_pos
  -- the sum of squares is the embedding of a nonnegative real
  have hsum : (∑ k ∈ s, (d k : EReal) * (d k : EReal)) = ((∑ k ∈ s, d k * d k : ℝ) : EReal) := by
    rw [← coe_sum]
    exact Finset.sum_congr rfl fun k _ => (EReal.coe_mul (d k) (d k)).symm
  have hnn : 0 ≤ ∑ k ∈ s, d k * d k := Finset.sum_nonneg fun k _ => mul_self_nonneg (d k)
  refine ⟨max (Real.sqrt (∑ k ∈ s, d k * d k)) e, lt_max_of_lt_right he, ?_⟩
  rw [hE, hsum, sqrt_coe_nonneg hnn, coe_max']

/-- The running maximum, seeded at the bottom, of positive reals over a nonempty finite set is a positive real. -/
theorem foldMax_real {J : Type*} (s : Finset J) (hs : s.Nonempty) (n : J → ℝ) (hn : ∀ j ∈ s, 0 < n j) :
    ∃ M : ℝ, 0 < M ∧ s.fold max (⊥ : EReal) (fun j => (n j : EReal)) = (M : EReal) := by
  revert hn
  refine Finset.Nonempty.cons_induction (motive := fun s _ => (∀ j ∈ s, 0 < n j) →
      ∃ M : ℝ, 0 < M ∧ s.fold max (⊥ : EReal) (fun j => (n j : EReal)) = (M : EReal)) ?_ ?_ hs
  · -- one element: the maximum with the bottom seed is the element itself
    intro a hn
    exact ⟨n a, hn a (Finset.mem_singleton_self a), by rw [Finset.fold_singleton, max_bot_right]⟩
  · -- one more element: the maximum of two positive reals
    intro a s ha _ ih hn
    obtain ⟨M, hM, hfold⟩ := ih fun j hj => hn j (Finset.mem_cons.mpr (Or.inr hj))
    refine ⟨max (n a) M, lt_max_of_lt_right hM, ?_⟩
    rw [Finset.fold_cons, hfold, coe_max']

/-- Over the reals: for a, M > 0, (a * (1 / M))^(-1/2) = sqrt(M) * (sqrt(a))⁻¹. -/
private theorem weight_real (a M : ℝ) (ha : 0 < a) (hM : 0 < M) :
    Real.rpow (a * (1 / M)) (-1 / 2) = Real.sqrt M * (Real.sqrt a)⁻¹ := by
  have h0 : 0 ≤ a / M := (div_pos ha hM).le
  show (a * (1 / M)) ^ ((-1 / 2 : ℝ)) = Real.sqrt M * (Real.sqrt a)⁻¹
  rw [mul_one_div, show ((-1 / 2 : ℝ)) = -(1 / 2 : ℝ) by ring, Real.rpow_neg h0, ← Real.sqrt_eq_rpow,
    Real.sqrt_div ha.le, inv_div, div_eq_mul_inv]

/-- The edge weight: for reals a, M > 0, (a / M)^(-1/2) = sqrt(M) * (1 / sqrt(a)). -/
theorem weight_eq (a M : ℝ) (ha : 0 < a) (hM : 0 < M) :
    Ideal.pow (Ideal.div (a : EReal) (M : EReal)) (Ideal.ofBits .f32 wNegHalf)
      = Ideal.sqrt (M : EReal) * Ideal.rsqrt (a : EReal) := by
  rw [negHalf_eq, Ideal.div_coe hM.ne', ← EReal.coe_mul, Ideal.pow_coe_coe, sqrt_coe_nonneg hM.le,
    rsqrt_coe_pos ha, ← EReal.coe_mul, weight_real a M ha hM]

/-- The second spelling's entry is the embedding of hi - c * sum_j sqrt(M) * (sqrt(n j))⁻¹ * (-(d j)),
    where c is the real mu denotes. -/
private theorem rhs_real {J : Type*} (s : Finset J) (hi M c : ℝ) (d n : J → ℝ) (hM : 0 < M)
    (hn : ∀ j ∈ s, 0 < n j) (hc : Ideal.ofBits .f32 wMu = (c : EReal)) :
    (hi : EReal) - Ideal.ofBits .f32 wMu
        * (Ideal.ofBits .f32 0x00000000#32
            + ∑ j ∈ s, Ideal.pow (Ideal.div (n j : EReal) (M : EReal)) (Ideal.ofBits .f32 wNegHalf) * (-(d j : EReal)))
      = ((hi - c * ∑ j ∈ s, Real.sqrt M * (Real.sqrt (n j))⁻¹ * (-(d j)) : ℝ) : EReal) := by
  have hterm : ∀ j ∈ s, Ideal.pow (Ideal.div (n j : EReal) (M : EReal)) (Ideal.ofBits .f32 wNegHalf) * (-(d j : EReal))
      = ((Real.sqrt M * (Real.sqrt (n j))⁻¹ * (-(d j)) : ℝ) : EReal) := by
    intro j hj
    rw [weight_eq _ _ (hn j hj) hM, sqrt_coe_nonneg hM.le, rsqrt_coe_pos (hn j hj), ← EReal.coe_neg,
      ← EReal.coe_mul, ← EReal.coe_mul]
  rw [Finset.sum_congr rfl hterm, coe_sum, hc, Ideal.ofBits_zero_f32, zero_add, ← EReal.coe_mul, ← EReal.coe_sub]

/-- One entry of the node update, the two spellings side by side. `hi` is the node's old entry, `s` the set of
    message entries landing on it, `d j` the difference entry a message carries and `n j > 0` its edge's clamped
    length, `M > 0` the largest length. -/
theorem update_eq {J : Type*} (s : Finset J) (hi M : ℝ) (d n : J → ℝ) (hM : 0 < M) (hn : ∀ j ∈ s, 0 < n j) :
    (hi : EReal) - (Ideal.ofBits .f32 wMu * Ideal.sqrt (M : EReal))
        * (Ideal.ofBits .f32 0x00000000#32 + ∑ j ∈ s, (Ideal.ofBits .f32 0x00000000#32 - (d j : EReal)) * Ideal.rsqrt (n j : EReal))
      = (hi : EReal) - Ideal.ofBits .f32 wMu
        * (Ideal.ofBits .f32 0x00000000#32
            + ∑ j ∈ s, Ideal.pow (Ideal.div (n j : EReal) (M : EReal)) (Ideal.ofBits .f32 wNegHalf) * (-(d j : EReal))) := by
  obtain ⟨c, hc⟩ := mu_real
  rw [rhs_real s hi M c d n hM hn hc]
  -- each summand of the first spelling is the embedding of -(d j) * (sqrt(n j))⁻¹
  have hterm : ∀ j ∈ s, (Ideal.ofBits .f32 0x00000000#32 - (d j : EReal)) * Ideal.rsqrt (n j : EReal)
      = ((-(d j) * (Real.sqrt (n j))⁻¹ : ℝ) : EReal) := by
    intro j hj
    rw [Ideal.ofBits_zero_f32, zero_sub, rsqrt_coe_pos (hn j hj), ← EReal.coe_neg, ← EReal.coe_mul]
  rw [Finset.sum_congr rfl hterm, coe_sum, hc, Ideal.ofBits_zero_f32, zero_add, sqrt_coe_nonneg hM.le,
    ← EReal.coe_mul, ← EReal.coe_mul, ← EReal.coe_sub]
  -- over the reals the factor sqrt(M) moves inside the sum
  congr 1
  rw [mul_assoc, Finset.mul_sum (a := Real.sqrt M)]
  congr 2
  exact Finset.sum_congr rfl fun j _ => by ring

/-- The updated entry is again a real. -/
theorem update_real {J : Type*} (s : Finset J) (hi M : ℝ) (d n : J → ℝ) (hM : 0 < M) (hn : ∀ j ∈ s, 0 < n j) :
    ∃ r : ℝ, (hi : EReal) - Ideal.ofBits .f32 wMu
        * (Ideal.ofBits .f32 0x00000000#32
            + ∑ j ∈ s, Ideal.pow (Ideal.div (n j : EReal) (M : EReal)) (Ideal.ofBits .f32 wNegHalf) * (-(d j : EReal)))
      = (r : EReal) := by
  obtain ⟨c, hc⟩ := mu_real
  exact ⟨_, rhs_real s hi M c d n hM hn hc⟩

end Cert.PLap

end
-- ==== Proof.PLap.Preds.lean ====
/-
  Two predicates on whole arrays: every entry is a real number (no infinity), and every entry of an array of node
  ids names a node (0 ≤ id < 100000).
-/
import Idealize.ShloMosaic.PureOps.Ideal

noncomputable section

namespace Cert.PLap

open Idealize.ShloMosaic

/-- Every entry of the array is (the embedding of) a real number. -/
def IsRealArr {S : Shape} (x : S.Idx → EReal) : Prop := ∃ f : S.Idx → ℝ, ∀ i, x i = (f i : EReal)

/-- Every entry of the array of node ids, read signed, is in [0, 100000). -/
def InRange {S : Shape} (idx : IVec S 32) : Prop := ∀ e, 0 ≤ (idx e).toInt ∧ (idx e).toInt < 100000

end Cert.PLap

end
-- ==== Proof.PLap.TakeEq.lean ====
/-
  When every node id is in [0, 100000) the guarded gather is the plain gather: no id is negative, so wrapping leaves it
  alone; the wrapped id lies in [0, 99999], so the per-edge range test is true on every edge and the select keeps the
  gathered row everywhere. And a gather out of a table of reals is an array of reals, whatever the ids (it reads the
  table at a clamped, hence valid, row).
-/
import proofs.«409662_j32736240730465_2_alg».proof.Proof.PLap.KStep
import proofs.«409662_j32736240730465_2_alg».proof.Proof.PLap.Preds
import Idealize.ShloMosaic.Lib.ValueIdx
import Idealize.ShloMosaic.Lib.ReduceAll
import Idealize.ShloMosaic.Lib.StableHlo.Predicate

noncomputable section

namespace Cert.KernelIdeal.PLap

open Idealize.ShloMosaic Idealize.ShloMosaic.ValueIdx Cert.KernelIdeal Cert.KernelIdeal.Facts₀ Cert.KernelIdeal.Facts Cert.PLap

/-! ## One word -/

/-- A nonnegative id is not less than zero, so wrapping keeps it. -/
private theorem wrap_word (x : BitVec 32) (h0 : 0 ≤ x.toInt) :
    Scalar.select (IntOp.cmpi .slt x 0#32) (IntOp.addi x 100000#32) x = x := by
  have hn : ¬ IntOp.cmpi .slt x 0#32 = 1#1 := by
    rw [IntOp.cmpi_slt, show (0#32 : BitVec 32).toInt = 0 from by decide]
    omega
  rw [eq_zero_of_ne_one hn, select_zero]

/-- An id in [0, 100000) passes both range tests: 0 ≤ id and id ≤ 99999. -/
private theorem range_word (x : BitVec 32) (h0 : 0 ≤ x.toInt) (h1 : x.toInt < 100000) :
    IntOp.andi (IntOp.cmpi .sge x 0#32) (IntOp.cmpi .sle x 99999#32) = 1#1 := by
  rw [IntOp.andi_eq_one, IntOp.cmpi_sge, IntOp.cmpi_sle, show (0#32 : BitVec 32).toInt = 0 from by decide,
    show (99999#32 : BitVec 32).toInt = 99999 from by decide]
  omega

/-- A left fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-! ## The wrapped ids -/

/-- The wrapped id of an edge is the select, on "id < 0", between id + 100000 and id, at that edge's id. -/
private theorem wrapIdx_apply (idx : IVec S1600000 32) (j : S1600000x1.Idx) :
    ∃ k, wrapIdx idx j = Scalar.select (IntOp.cmpi .slt (idx k) 0#32) (IntOp.addi (idx k) 100000#32) (idx k) :=
  ⟨_, rfl⟩

/-- With every id in range, every wrapped id is in range (it is the id itself). -/
private theorem wrapIdx_inRange (idx : IVec S1600000 32) (hi : InRange idx) (j : S1600000x1.Idx) :
    0 ≤ (wrapIdx idx j).toInt ∧ (wrapIdx idx j).toInt < 100000 := by
  obtain ⟨k, hk⟩ := wrapIdx_apply idx j
  rw [hk, wrap_word _ (hi k).1]
  exact hi k

/-! ## The three facts -/

/-- With every id in range, the per-edge range test is true on every edge. -/
theorem inRangeMask_of_inRange (idx : IVec S1600000 32) (hi : InRange idx) : inRangeMask idx = fun _ => 1#1 := by
  funext j
  unfold inRangeMask
  rw [Host.reduce_eq_foldl]
  exact foldl_andi_ones _ (fun i => range_word _ (wrapIdx_inRange idx hi i).1 (wrapIdx_inRange idx hi i).2) _

/-- With every id in range, the guarded gather is the plain gather (at any float instance). -/
theorem takeK_eq_gather {F : FTy → Type} [FloatOps F] (h : FVec F S100000x32 .f32) (idx : IVec S1600000 32)
    (hi : InRange idx) : takeK h idx = gatherRows h idx := by
  funext j
  unfold takeK
  rw [select_apply, inRangeMask_of_inRange idx hi]
  exact select_one _ _

/-- Rows gathered out of a table of reals are reals, whatever the ids. -/
theorem gatherRows_real (h : FVec Ideal S100000x32 .f32) (idx : IVec S1600000 32) (hh : IsRealArr h) :
    IsRealArr (gatherRows (F := Ideal) h idx) := by
  obtain ⟨f, hf⟩ := hh
  exact ⟨fun j => f (gather_S100000x32_S1600000x1_S1600000x32_1_0_n_n_0_1_132.operandIdx j (wrapIdx idx)), fun _ => hf _⟩

end Cert.KernelIdeal.PLap

end
-- ==== Proof.PLap.NormMax.lean ====
/-
  The two programs' edge lengths and their maxima, for real-valued endpoint rows. The kernel's length column (a row sum
  of squares inside each block) and the reference's length vector (a host sum over the feature axis, from zero) are the
  same positive real on every edge: max(sqrt(sum_q (a(e,q) - b(e,q))^2), eps). Their maxima — one reduction over a
  1600000 x 1 column, one over a vector of 1600000 — are the running maximum of the same positive reals over all edges
  from the seed minus infinity, hence one positive real.
-/
import proofs.«409662_j32736240730465_2_alg».proof.Proof.PLap.KStep
import proofs.«409662_j32736240730465_2_alg».proof.Proof.PLap.RStep
import proofs.«409662_j32736240730465_2_alg».proof.Proof.PLap.Core
import proofs.«409662_j32736240730465_2_alg».proof.Proof.PLap.Preds
import Idealize.ShloMosaic.Lib.ValueIdx
import Idealize.ShloMosaic.PureOps.Ideal.Laws
import Idealize.ShloMosaic.Lib.IdealHost

noncomputable section

namespace Cert.PLap

open Idealize.ShloMosaic Idealize.ShloMosaic.ValueIdx

/-- A column index of a 1600000 x 1 array is its row coordinate; an equivalence with the edges. -/
private def colEquiv : Fin 1600000 ≃ (⟨2, ![1600000, 1]⟩ : Shape).Idx where
  toFun e := ix2 e 0
  invFun j := j 0
  left_inv _ := rfl
  right_inv j := by
    funext d
    match d with
    | ⟨0, _⟩ => rfl
    | ⟨1, _⟩ =>
      apply Fin.ext
      have h1 := idx2_lt1 j
      show (0 : ℕ) = (j 1).val
      omega

/-- A vector index of a 1600000 array is its coordinate; an equivalence with the edges. -/
private def vecEquiv : Fin 1600000 ≃ (⟨1, ![1600000]⟩ : Shape).Idx where
  toFun e := ix1 e
  invFun j := j 0
  left_inv _ := rfl
  right_inv j := (eq_ix1 j).symm

/-- A running maximum over all of one finite type is the running maximum over an equivalent one. -/
private theorem fold_univ_equiv {ι κ : Type} [Fintype ι] [Fintype κ] (g : ι ≃ κ) (b : EReal) (f : κ → EReal) :
    (Finset.univ : Finset κ).fold max b f = (Finset.univ : Finset ι).fold max b (fun i => f (g i)) := by
  rw [← Finset.map_univ_equiv g, Finset.fold_map]
  rfl

/-- At the extended reals the float maximum is the order's maximum, so a fold of one is a fold of the other. -/
private theorem fold_maximumf_eq {ι : Type} (s : Finset ι) (b : EReal) (f : ι → EReal) :
    s.fold (FloatOps.maximumf (F := Ideal) (φ := .f32)) b f = s.fold max b f := rfl

/-- The host's square root at an index is the extended reals' square root of the element. -/
private theorem hostSqrt_apply {s : Shape} {φ : FTy} (x : FVec Ideal s φ) (i : s.Idx) :
    Host.sqrt x i = Ideal.sqrt (x i) := rfl

/-- Inserting feature coordinate k into the edge index e gives the index (e, k). -/
private theorem lift_ix1 (hred : Cert.ReferenceIdeal.S1600000x32.Reduces [1] Cert.ReferenceIdeal.S1600000)
    (e : Fin 1600000) (k : Fin 32) : hred.lift (ix1 (n := 1600000) e) k = ix2 (n0 := 1600000) (n1 := 32) e k := by
  funext c
  match c with
  | ⟨0, _⟩ => rfl
  | ⟨1, _⟩ => rfl

/-- On real-valued endpoint rows both programs' lengths are one positive real per edge. -/
theorem norm_facts (a b : FVec Ideal Cert.KernelIdeal.S1600000x32 .f32) (ha : IsRealArr a) (hb : IsRealArr b) :
    ∃ n : Fin 1600000 → ℝ, (∀ e, 0 < n e)
      ∧ (∀ e : Fin 1600000, Cert.KernelIdeal.PLap.normK a b (ix2 (n0 := 1600000) (n1 := 1) e 0) = (n e : EReal))
      ∧ (∀ e : Fin 1600000, Cert.ReferenceIdeal.PLap.normR (F := Ideal) (subf a b) (ix1 (n := 1600000) e) = (n e : EReal)) := by
  obtain ⟨fa, hfa⟩ := ha
  obtain ⟨fb, hfb⟩ := hb
  -- the clamped length of edge e's real difference vector
  have key : ∀ e : Fin 1600000, ∃ r : ℝ, 0 < r ∧
      max (Ideal.sqrt (∑ q : Fin 32, (a (ix2 (n0 := 1600000) (n1 := 32) e q) - b (ix2 (n0 := 1600000) (n1 := 32) e q))
          * (a (ix2 (n0 := 1600000) (n1 := 32) e q) - b (ix2 (n0 := 1600000) (n1 := 32) e q))))
        (Ideal.ofBits .f32 0x358637BD#32) = (r : EReal) := by
    intro e
    obtain ⟨r, hr, h⟩ := norm_real Finset.univ (fun q : Fin 32 => fa (ix2 (n0 := 1600000) (n1 := 32) e q) - fb (ix2 (n0 := 1600000) (n1 := 32) e q))
    refine ⟨r, hr, ?_⟩
    rw [← h]
    simp only [hfa, hfb, EReal.coe_sub]
  choose n hnpos hn using key
  refine ⟨n, hnpos, fun e => hn e, fun e => ?_⟩
  -- the reference's length at edge e: the host sum over the feature axis, from zero
  have hred : Cert.ReferenceIdeal.S1600000x32.Reduces [1] Cert.ReferenceIdeal.S1600000 := by decide
  unfold Cert.ReferenceIdeal.PLap.normR
  rw [maximumf_apply, hostSqrt_apply, hostReduceAdd_apply, broadcastInDim_scalar_apply, constant_apply, constant_apply,
    Ideal.hostReduceAdd_single _ hred, Ideal.ofBits_zero_f32, zero_add, ← hn e]
  -- term by term the two sums of squares agree
  have hsum : (∑ k : Fin 32, mulf (subf a b) (subf a b) (hred.lift (ix1 (n := 1600000) e) k))
      = ∑ q : Fin 32, (a (ix2 (n0 := 1600000) (n1 := 32) e q) - b (ix2 (n0 := 1600000) (n1 := 32) e q))
          * (a (ix2 (n0 := 1600000) (n1 := 32) e q) - b (ix2 (n0 := 1600000) (n1 := 32) e q)) :=
    Finset.sum_congr rfl fun k _ => by rw [lift_ix1, mulf_apply, subf_apply]
  exact congrArg (fun x => max (Ideal.sqrt x) (Ideal.ofBits .f32 0x358637BD#32)) hsum

/-- The largest length: a column and a vector holding the same positive reals have the same maximum, a positive real. -/
theorem max_facts (N : FVec Ideal Cert.KernelIdeal.S1600000x1 .f32) (N' : FVec Ideal Cert.ReferenceIdeal.S1600000 .f32)
    (n : Fin 1600000 → ℝ) (hn : ∀ e, 0 < n e)
    (hN : ∀ e : Fin 1600000, N (ix2 (n0 := 1600000) (n1 := 1) e 0) = (n e : EReal))
    (hN' : ∀ e : Fin 1600000, N' (ix1 (n := 1600000) e) = (n e : EReal)) :
    ∃ M : ℝ, 0 < M ∧ Cert.KernelIdeal.PLap.maxK N = (fun _ => (M : EReal))
      ∧ Cert.ReferenceIdeal.PLap.maxR (F := Ideal) N' = (fun _ => (M : EReal)) := by
  obtain ⟨M, hM, hfold⟩ := foldMax_real Finset.univ Finset.univ_nonempty n (fun j _ => hn j)
  have hcol : (fun i : Fin 1600000 => N (colEquiv i)) = fun e => (n e : EReal) := funext hN
  have hvec : (fun i : Fin 1600000 => N' (vecEquiv i)) = fun e => (n e : EReal) := funext hN'
  refine ⟨M, hM, ?_, ?_⟩
  · funext j
    unfold Cert.KernelIdeal.PLap.maxK
    rw [Host.reduce_eq_fold, Finset.filter_true_of_mem fun i _ => funext fun b => b.elim0, constant_apply,
      fold_maximumf_eq, negInf_eq, fold_univ_equiv colEquiv, hcol]
    exact hfold
  · funext j
    unfold Cert.ReferenceIdeal.PLap.maxR
    rw [Host.reduce_eq_fold, Finset.filter_true_of_mem fun i _ => funext fun b => b.elim0, constant_apply,
      fold_maximumf_eq, negInf_eq, fold_univ_equiv vecEquiv, hvec]
    exact hfold

end Cert.PLap

end
-- ==== Proof.PLap.StepEq.lean ====
/-
  One step of the kernel's program and one step of the reference agree on a real-valued feature table and an edge list
  whose ids name nodes, and the step keeps the table real-valued; hence so do five steps.

  With ids in range both programs gather the same endpoint rows, so they share the differences d_e, the lengths n_e > 0
  and the largest length M > 0 (all reals). At a node entry both scatter the same set of message entries; the kernel's
  entry is h - (mu sqrt(M)) * sum (0 - d) / sqrt(n) and the reference's h - mu * sum (n / M)^(-1/2) * (-d): equal by the
  arithmetic core, and real.
-/
import proofs.«409662_j32736240730465_2_alg».proof.Proof.PLap.KStep
import proofs.«409662_j32736240730465_2_alg».proof.Proof.PLap.RStep
import proofs.«409662_j32736240730465_2_alg».proof.Proof.PLap.Core
import proofs.«409662_j32736240730465_2_alg».proof.Proof.PLap.Preds
import proofs.«409662_j32736240730465_2_alg».proof.Proof.PLap.TakeEq
import proofs.«409662_j32736240730465_2_alg».proof.Proof.PLap.NormMax
import Idealize.ShloMosaic.Lib.ValueIdx
import Idealize.ShloMosaic.Lib.IdealHost
import Idealize.ShloMosaic.PureOps.Ideal.Laws

noncomputable section

namespace Cert.PLap

open Idealize.ShloMosaic Idealize.ShloMosaic.ValueIdx

/-! ## The two programs' scatter records are the same term -/

private theorem scatterRec_KR : Cert.KernelIdeal.scatter_S100000x32_S1600000x1_S1600000x32_1_0_0_1
    = Cert.ReferenceIdeal.scatter_S100000x32_S1600000x1_S1600000x32_1_0_0_1 := rfl

/-! ## The accumulating scatter at an entry -/

/-- The update entries that land on the operand entry `i`. -/
private def landing {s si su : Shape} (d : ScatterDims s si su) {w : Nat} (idx : IVec si w) (i : s.Idx) : Finset su.Idx :=
  Finset.univ.filter (fun j => d.resultIdx? j idx = some i)

/-- At the extended reals the host's accumulating scatter is the exact sum ... -/
private theorem scatterAdd_ideal {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl

/-- ... and at an entry: the operand's entry plus the sum of the updates landing on it. -/
private theorem hostScatterAdd_apply {s si su : Shape} (d : ScatterDims s si su) {w : Nat} (x : s.Idx → EReal) (idx : IVec si w)
    (upd : su.Idx → EReal) (i : s.Idx) : Ideal.hostScatterAdd d x idx upd i = x i + ∑ j ∈ landing d idx i, upd j := rfl

/-! ## The node update at an entry -/

/-- The kernel's update at an entry: the old entry minus (mu * sqrt(largest length)) times the summed messages. -/
private theorem updK_apply (h : FVec Ideal Cert.KernelIdeal.S100000x32 .f32) (row : IVec Cert.KernelIdeal.S1600000 32)
    (msg : FVec Ideal Cert.KernelIdeal.S1600000x32 .f32) (mx : FVec Ideal Cert.KernelIdeal.S_ .f32) (i : Cert.KernelIdeal.S100000x32.Idx) :
    Cert.KernelIdeal.PLap.updK (F := Ideal) h row msg mx i
      = h i - (Ideal.ofBits .f32 wMu * Ideal.sqrt (mx ix0)) * (Ideal.ofBits .f32 0x00000000#32
          + ∑ j ∈ landing Cert.KernelIdeal.scatter_S100000x32_S1600000x1_S1600000x32_1_0_0_1
              (broadcastInDim Cert.KernelIdeal.S1600000x1 ![0] Cert.KernelIdeal.Facts₀.bcast_S1600000_S1600000x1_0 row) i, msg j) := by
  unfold Cert.KernelIdeal.PLap.updK
  rw [subf_apply, mulf_apply, scatterAdd_ideal, hostScatterAdd_apply, broadcastInDim_scalar_apply, broadcastInDim_scalar_apply,
    mulf_apply, constant_apply, constant_apply]
  rfl

/-- The reference's update at an entry: the old entry minus mu times the summed messages, over the same set of
    message entries as the kernel's (the two scatters share their dimension numbers and their index column). -/
private theorem updR_apply (h : FVec Ideal Cert.KernelIdeal.S100000x32 .f32) (row : IVec Cert.KernelIdeal.S1600000 32)
    (msg : FVec Ideal Cert.KernelIdeal.S1600000x32 .f32) (i : Cert.KernelIdeal.S100000x32.Idx) :
    Cert.ReferenceIdeal.PLap.updR (F := Ideal) h row msg i
      = h i - Ideal.ofBits .f32 wMu * (Ideal.ofBits .f32 0x00000000#32
          + ∑ j ∈ landing Cert.KernelIdeal.scatter_S100000x32_S1600000x1_S1600000x32_1_0_0_1
              (broadcastInDim Cert.KernelIdeal.S1600000x1 ![0] Cert.KernelIdeal.Facts₀.bcast_S1600000_S1600000x1_0 row) i, msg j) := by
  unfold Cert.ReferenceIdeal.PLap.updR
  rw [subf_apply, mulf_apply, scatterAdd_ideal, hostScatterAdd_apply, broadcastInDim_scalar_apply, broadcastInDim_scalar_apply,
    constant_apply, constant_apply, ← scatterRec_KR]

/-! ## The reference's weighted message at an entry -/

/-- With the largest length known, the weight of an edge is (its length / the largest)^(-1/2). -/
private theorem weightR_apply (N : FVec Ideal Cert.ReferenceIdeal.S1600000 .f32) (M : EReal)
    (hM : Cert.ReferenceIdeal.PLap.maxR (F := Ideal) N = fun _ => M) (k : Cert.ReferenceIdeal.S1600000.Idx) :
    Cert.ReferenceIdeal.PLap.weightR (F := Ideal) N k = Ideal.pow (Ideal.div (N k) M) (Ideal.ofBits .f32 wNegHalf) := by
  unfold Cert.ReferenceIdeal.PLap.weightR
  rw [hM]
  rfl

/-- A per-edge vector broadcast to a column and then along the features reads the edge's entry. -/
private theorem bcCol_apply {α : Type} (W : Cert.ReferenceIdeal.S1600000.Idx → α) (j : Cert.ReferenceIdeal.S1600000x32.Idx) :
    broadcastInDim Cert.ReferenceIdeal.S1600000x32 ![0, 1] Cert.ReferenceIdeal.Facts₀.bcast_S1600000x1_S1600000x32_0_1
      (broadcastInDim Cert.ReferenceIdeal.S1600000x1 ![0] Cert.ReferenceIdeal.Facts₀.bcast_S1600000_S1600000x1_0 W) j
      = W (ix1 (n := 1600000) (j 0)) := by
  unfold broadcastInDim
  refine congrArg W (funext fun a => ?_)
  match a with
  | ⟨0, _⟩ => rfl

/-- The reference's message entry: the edge's weight times minus the difference entry. -/
private theorem msgR_apply (d : FVec Ideal Cert.ReferenceIdeal.S1600000x32 .f32) (j : Cert.ReferenceIdeal.S1600000x32.Idx) :
    Cert.ReferenceIdeal.PLap.msgR (F := Ideal) d j
      = Cert.ReferenceIdeal.PLap.weightR (F := Ideal) (Cert.ReferenceIdeal.PLap.normR (F := Ideal) d) (ix1 (n := 1600000) (j 0)) * (-(d j)) := by
  unfold Cert.ReferenceIdeal.PLap.msgR
  rw [mulf_apply, bcCol_apply]
  rfl

/-! ## One entry of one step -/

/-- The kernel's message entry: (0 - difference) times the reciprocal square root of the edge's length. -/
private theorem preK_apply (d : FVec Ideal Cert.KernelIdeal.S1600000x32 .f32) (n : FVec Ideal Cert.KernelIdeal.S1600000x1 .f32)
    (j : Cert.KernelIdeal.S1600000x32.Idx) :
    Cert.KernelIdeal.PLap.preK d n j
      = (Ideal.ofBits .f32 0x00000000#32 - d j) * Ideal.rsqrt (n (ix2 (n0 := 1600000) (n1 := 1) (j 0) 0)) := rfl

/-- One entry of the update once every array entry it reads is known as a real: the two spellings agree and the
    entry is a real. `x` is the node's old entry, `mx` the largest length, `mK` / `mR` the two programs' messages. -/
private theorem entry_of_reads {J : Type} (S : Finset J) (x mx : EReal) (mK mR : J → EReal) (hi M : ℝ) (d n : J → ℝ) (hM : 0 < M)
    (hn : ∀ j ∈ S, 0 < n j) (hx : x = (hi : EReal)) (hmx : mx = (M : EReal))
    (hK : ∀ j, mK j = (Ideal.ofBits .f32 0x00000000#32 - (d j : EReal)) * Ideal.rsqrt (n j : EReal))
    (hR : ∀ j, mR j = Ideal.pow (Ideal.div (n j : EReal) (M : EReal)) (Ideal.ofBits .f32 wNegHalf) * (-(d j : EReal))) :
    x - (Ideal.ofBits .f32 wMu * Ideal.sqrt mx) * (Ideal.ofBits .f32 0x00000000#32 + ∑ j ∈ S, mK j)
        = x - Ideal.ofBits .f32 wMu * (Ideal.ofBits .f32 0x00000000#32 + ∑ j ∈ S, mR j)
      ∧ ∃ r : ℝ, x - Ideal.ofBits .f32 wMu * (Ideal.ofBits .f32 0x00000000#32 + ∑ j ∈ S, mR j) = (r : EReal) := by
  obtain rfl : mK = fun j => _ := funext hK
  obtain rfl : mR = fun j => _ := funext hR
  subst hx hmx
  exact ⟨update_eq S hi M d n hM hn, update_real S hi M d n hM hn⟩

/-- The kernel's step as a function of the two gathered row arrays. -/
private def stepKOf (h : FVec Ideal Cert.KernelIdeal.S100000x32 .f32) (row : IVec Cert.KernelIdeal.S1600000 32)
    (a b : FVec Ideal Cert.KernelIdeal.S1600000x32 .f32) : FVec Ideal Cert.KernelIdeal.S100000x32 .f32 :=
  Cert.KernelIdeal.PLap.updK (F := Ideal) h row
    (Cert.KernelIdeal.PLap.preK (subf a b) (Cert.KernelIdeal.PLap.normK a b))
    (Cert.KernelIdeal.PLap.maxK (Cert.KernelIdeal.PLap.normK a b))

/-- The reference's step as a function of the two gathered row arrays. -/
private def stepROf (h : FVec Ideal Cert.KernelIdeal.S100000x32 .f32) (row : IVec Cert.KernelIdeal.S1600000 32)
    (a b : FVec Ideal Cert.KernelIdeal.S1600000x32 .f32) : FVec Ideal Cert.KernelIdeal.S100000x32 .f32 :=
  Cert.ReferenceIdeal.PLap.updR (F := Ideal) h row (Cert.ReferenceIdeal.PLap.msgR (F := Ideal) (subf a b))

/-- On real-valued features and real-valued gathered rows `A`, `B`, the two programs' updated entries agree and
    are a real number. -/
private theorem entry_core (h : FVec Ideal Cert.KernelIdeal.S100000x32 .f32) (row : IVec Cert.KernelIdeal.S1600000 32)
    (A B : FVec Ideal Cert.KernelIdeal.S1600000x32 .f32) (hh : IsRealArr h) (hA : IsRealArr A) (hB : IsRealArr B)
    (i : Cert.KernelIdeal.S100000x32.Idx) :
    stepKOf h row A B i = stepROf h row A B i ∧ ∃ r : ℝ, stepROf h row A B i = (r : EReal) := by
  obtain ⟨fh, hfh⟩ := hh
  obtain ⟨n, hn, hnK, hnR⟩ := norm_facts A B hA hB
  obtain ⟨M, hM, hMK, hMR⟩ := max_facts (Cert.KernelIdeal.PLap.normK A B)
    (Cert.ReferenceIdeal.PLap.normR (F := Ideal) (subf A B)) n hn hnK hnR
  obtain ⟨fa, hfa⟩ := hA
  obtain ⟨fb, hfb⟩ := hB
  -- the shared difference entries are reals
  have hD : ∀ j, subf A B j = ((fa j - fb j : ℝ) : EReal) := fun j => by rw [subf_apply, hfa, hfb, EReal.coe_sub]
  -- the kernel's message entries, over the reals
  have hK : ∀ j : Cert.KernelIdeal.S1600000x32.Idx,
      Cert.KernelIdeal.PLap.preK (subf A B) (Cert.KernelIdeal.PLap.normK A B) j
        = (Ideal.ofBits .f32 0x00000000#32 - ((fa j - fb j : ℝ) : EReal)) * Ideal.rsqrt ((n (j 0) : ℝ) : EReal) := by
    intro j
    rw [preK_apply, hD j, hnK (j 0)]
  -- the reference's message entries, over the reals
  have hR : ∀ j : Cert.KernelIdeal.S1600000x32.Idx,
      Cert.ReferenceIdeal.PLap.msgR (F := Ideal) (subf A B) j
        = Ideal.pow (Ideal.div ((n (j 0) : ℝ) : EReal) (M : EReal)) (Ideal.ofBits .f32 wNegHalf)
          * (-((fa j - fb j : ℝ) : EReal)) := by
    intro j
    rw [msgR_apply, weightR_apply _ _ hMR, hnR (j 0), hD j]
  unfold stepKOf stepROf
  rw [updK_apply, updR_apply]
  exact entry_of_reads _ (h i) (Cert.KernelIdeal.PLap.maxK (Cert.KernelIdeal.PLap.normK A B) ix0)
    (Cert.KernelIdeal.PLap.preK (subf A B) (Cert.KernelIdeal.PLap.normK A B))
    (Cert.ReferenceIdeal.PLap.msgR (F := Ideal) (subf A B)) (fh i) M (fun j => fa j - fb j) (fun j => n (j 0)) hM
    (fun j _ => hn (j 0)) (hfh i) (congrFun hMK ix0) hK hR

/-! ## One step, and five -/

/-- The kernel's step is its step function at the two guarded gathers ... -/
private theorem stepK_eq (h : FVec Ideal Cert.KernelIdeal.S100000x32 .f32) (row col : IVec Cert.KernelIdeal.S1600000 32) :
    Cert.KernelIdeal.PLap.stepK h row col
      = stepKOf h row (Cert.KernelIdeal.PLap.takeK (F := Ideal) h row) (Cert.KernelIdeal.PLap.takeK (F := Ideal) h col) := rfl

/-- ... and the reference's step is its step function at the two plain gathers. -/
private theorem stepR_eq (h : FVec Ideal Cert.KernelIdeal.S100000x32 .f32) (row col : IVec Cert.KernelIdeal.S1600000 32) :
    Cert.ReferenceIdeal.PLap.stepR (F := Ideal) h row col
      = stepROf h row (Cert.KernelIdeal.PLap.gatherRows (F := Ideal) h row) (Cert.KernelIdeal.PLap.gatherRows (F := Ideal) h col) := rfl

/-- One step: the two programs agree. -/
theorem step_eq (h : FVec Ideal Cert.KernelIdeal.S100000x32 .f32) (row col : IVec Cert.KernelIdeal.S1600000 32)
    (hh : IsRealArr h) (hr : InRange row) (hc : InRange col) :
    Cert.KernelIdeal.PLap.stepK h row col = Cert.ReferenceIdeal.PLap.stepR (F := Ideal) h row col :=
  -- with ids in range the guarded gathers are the plain ones; then entry by entry
  (stepK_eq h row col).trans
    ((congrArg₂ (stepKOf h row) (Cert.KernelIdeal.PLap.takeK_eq_gather h row hr)
        (Cert.KernelIdeal.PLap.takeK_eq_gather h col hc)).trans
      ((funext fun i => (entry_core h row _ _ hh (Cert.KernelIdeal.PLap.gatherRows_real h row hh)
          (Cert.KernelIdeal.PLap.gatherRows_real h col hh) i).1).trans (stepR_eq h row col).symm))

/-- One step keeps the feature table real-valued. -/
theorem step_real (h : FVec Ideal Cert.KernelIdeal.S100000x32 .f32) (row col : IVec Cert.KernelIdeal.S1600000 32)
    (hh : IsRealArr h) (hr : InRange row) (hc : InRange col) :
    IsRealArr (Cert.ReferenceIdeal.PLap.stepR (F := Ideal) h row col) :=
  (congrArg (IsRealArr (S := Cert.KernelIdeal.S100000x32)) (stepR_eq h row col)).mpr
    (Classical.skolem.mp fun i => (entry_core h row _ _ hh (Cert.KernelIdeal.PLap.gatherRows_real h row hh)
      (Cert.KernelIdeal.PLap.gatherRows_real h col hh) i).2)

/-- One more step on both sides of an agreement between real-valued tables. -/
private theorem step_congr (row col : IVec Cert.KernelIdeal.S1600000 32) (hr : InRange row) (hc : InRange col)
    {x y : FVec Ideal Cert.KernelIdeal.S100000x32 .f32} (hxy : x = y) (hy : IsRealArr y) :
    Cert.KernelIdeal.PLap.stepK x row col = Cert.ReferenceIdeal.PLap.stepR (F := Ideal) y row col
      ∧ IsRealArr (Cert.ReferenceIdeal.PLap.stepR (F := Ideal) y row col) := by
  subst hxy
  exact ⟨step_eq x row col hy hr hc, step_real x row col hy hr hc⟩

/-- Five steps: the two programs' results agree. -/
theorem val_eq (h : FVec Ideal Cert.KernelIdeal.S100000x32 .f32) (ei : IVec Cert.KernelIdeal.S2x1600000 32)
    (hh : IsRealArr h) (hr : InRange (Cert.KernelIdeal.PLap.rowOf ei)) (hc : InRange (Cert.KernelIdeal.PLap.colOf ei)) :
    Cert.KernelIdeal.PLap.kval h ei = Cert.ReferenceIdeal.PLap.rval (F := Ideal) h ei := by
  have s1 := step_congr _ _ hr hc (rfl : h = h) hh
  have s2 := step_congr _ _ hr hc s1.1 s1.2
  have s3 := step_congr _ _ hr hc s2.1 s2.2
  have s4 := step_congr _ _ hr hc s3.1 s3.2
  have s5 := step_congr _ _ hr hc s4.1 s4.2
  exact s5.1

end Cert.PLap

end
-- ==== Proof.PLap.Pre.lean ====
/-
  What the precondition says of the two argument arrays: every feature is a real number (its absolute value is below
  plus infinity), and every entry of the edge list, read signed, is at least 0 and below 100000 — so every source id
  and every target id names a node.
-/
import proofs.«409662_j32736240730465_2_alg».proof.Pre_finite_inputs
import proofs.«409662_j32736240730465_2_alg».proof.Proof.Gen.Pre_finite_inputs
import proofs.«409662_j32736240730465_2_alg».proof.Proof.PLap.KStep
import proofs.«409662_j32736240730465_2_alg».proof.Proof.PLap.Preds
import Idealize.ShloMosaic.Lib.ValueIdx
import Idealize.ShloMosaic.Lib.ReduceAll
import Idealize.ShloMosaic.Lib.StableHlo.Predicate

noncomputable section

namespace Cert.PLap

open Idealize.ShloMosaic Idealize.ShloMosaic.ValueIdx

/-- An extended real whose absolute value max(x, −x) lies strictly below the word of plus infinity is a real number:
    at either infinity the absolute value is plus infinity itself, which is not below itself. -/
private theorem real_of_abs_lt_top (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- Row 0 of the edge list, flattened: each of its entries is an entry of the edge list (a slice then a reshape only
    re-index the array). -/
private theorem rowOf_mem (ei : IVec Cert.Pre_finite_inputs.S2x1600000 32) (e : Cert.KernelIdeal.S1600000.Idx) :
    ∃ j, Cert.KernelIdeal.PLap.rowOf ei e = ei j := ⟨_, rfl⟩

/-- Row 1 of the edge list, flattened: likewise. -/
private theorem colOf_mem (ei : IVec Cert.Pre_finite_inputs.S2x1600000 32) (e : Cert.KernelIdeal.S1600000.Idx) :
    ∃ j, Cert.KernelIdeal.PLap.colOf ei e = ei j := ⟨_, rfl⟩

/-- If every entry of the edge list compares signed ≥ 0 and signed < 100000, then so does every entry of any array
    whose entries are all entries of the edge list. -/
private theorem inRange_of_mem {S T : Shape} (ei : IVec S 32) (v : IVec T 32)
    (hge : ∀ j, IntOp.cmpi .sge (ei j) 0#32 = 1#1) (hlt : ∀ j, IntOp.cmpi .slt (ei j) 100000#32 = 1#1)
    (hv : ∀ e, ∃ j, v e = ei j) : InRange v := by
  intro e
  obtain ⟨j, hj⟩ := hv e
  have b2 := hge j
  have b3 := hlt j
  rw [IntOp.cmpi_sge, show (0#32 : BitVec 32).toInt = 0 from by decide] at b2
  rw [IntOp.cmpi_slt, show (100000#32 : BitVec 32).toInt = 100000 from by decide] at b3
  rw [hj]
  exact ⟨b2, b3⟩

/-- The precondition, decoded. -/
theorem of_pre (h : FVec Ideal Cert.Pre_finite_inputs.S100000x32 .f32) (ei : IVec Cert.Pre_finite_inputs.S2x1600000 32)
    (hp : Cert.Pre_finite_inputs.fn (F := Ideal) h ei = fun _ => 1#1) :
    IsRealArr h ∧ InRange (Cert.KernelIdeal.PLap.rowOf ei) ∧ InRange (Cert.KernelIdeal.PLap.colOf ei) := by
  -- the predicate's one word is 1: it is the conjunction of three all-reductions, so each of them is 1
  have h0 := congrFun hp ValueIdx.ix0
  dsimp only [Cert.Pre_finite_inputs.fn] at h0
  obtain ⟨h12, h3⟩ := IntOp.andi_eq_one.1 h0
  obtain ⟨h1, h2⟩ := IntOp.andi_eq_one.1 h12
  -- the rank-0 result shape has exactly one index; an all-reduction by "and" that is 1 met a 1 at every entry
  haveI : Subsingleton Cert.Pre_finite_inputs.S_.Idx := ⟨fun a b => funext fun d => d.elim0⟩
  have a1 := Host.reduce_andi_all _ _ _ _ _ h1
  have a2 := Host.reduce_andi_all _ _ _ _ _ h2
  have a3 := Host.reduce_andi_all _ _ _ _ _ h3
  refine ⟨?_, ?_, ?_⟩
  · -- every feature has |x| < +∞, so is a real number
    have hr : ∀ i, ∃ r : ℝ, h i = (r : EReal) := fun i => real_of_abs_lt_top (h i) (a1 i)
    exact ⟨fun i => (hr i).choose, fun i => (hr i).choose_spec⟩
  · exact inRange_of_mem ei _ a2 a3 (rowOf_mem ei)
  · exact inRange_of_mem ei _ a2 a3 (colOf_mem ei)

end Cert.PLap

end
-- ==== Proof.lean ====
/-
  The certificate of the p-Laplacian message-passing kernel (p = 3/2, five steps) against its jnp reference.

  The three frames: the word-level kernel program's and the idealized one's are the generated frame certificates; the
  reference, a program of host operations only, runs by its operations' fold. Nothing was rewritten when the kernel
  was idealized, so `preserves` asks nothing. The value claim, at the extended reals: under the precondition the
  features are real numbers and every edge's two ids name nodes. Then the kernel program's guarded gathers are plain
  gathers, both programs form the same differences d_e, lengths n_e = max(|d_e|, eps) > 0 and largest length M > 0, and
  at every node entry h - (mu sqrt(M)) * sum (0 - d_e) / sqrt(n_e) = h - mu * sum (n_e / M)^(-1/2) * (-d_e); the step
  keeps the features real, so the five steps agree one after the other.
-/
import proofs.«409662_j32736240730465_2_alg».proof.Defs
import proofs.«409662_j32736240730465_2_alg».proof.Proof.Gen.Kernel
import proofs.«409662_j32736240730465_2_alg».proof.Proof.Gen.Kernel.Frame
import proofs.«409662_j32736240730465_2_alg».proof.Proof.Gen.KernelIdeal
import proofs.«409662_j32736240730465_2_alg».proof.Proof.Gen.KernelIdeal.Frame
import proofs.«409662_j32736240730465_2_alg».proof.Proof.Gen.ReferenceIdeal
import proofs.«409662_j32736240730465_2_alg».proof.Proof.Gen.Pre_finite_inputs
import proofs.«409662_j32736240730465_2_alg».proof.Proof.PLap.KRun
import proofs.«409662_j32736240730465_2_alg».proof.Proof.PLap.KFold
import proofs.«409662_j32736240730465_2_alg».proof.Proof.PLap.RVal
import proofs.«409662_j32736240730465_2_alg».proof.Proof.PLap.StepEq
import proofs.«409662_j32736240730465_2_alg».proof.Proof.PLap.Pre
import Idealize.ShloMosaic.Adequacy
import Idealize.ShloMosaic.Init

noncomputable section

namespace Cert.Proof

open Idealize.ShloMosaic Idealize.SL.Sem

/-- The word-level kernel program runs and leaves its arguments alone: the generated frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments alone: its run, with the result dropped. -/
theorem frame_referenceIdeal : Cert.frame_ReferenceIdeal := fun m ρ _ =>
  (θ_run Cert.ReferenceIdeal.defs _ _).mono (fun _ h c => (h c).2) (Cert.ReferenceIdeal.PLap.run (F := Ideal) m ρ)

/-- The idealization rewrote nothing. -/
theorem preserves : Cert.preserves_Kernel_KernelIdeal := trivial

/-- From memories agreeing on the arguments both programs end with five steps of the same map from the features and
    the edge list: the kernel program's five `stepK`s, which on real features and in-range ids are the reference's five
    `stepR`s. -/
theorem algebraic : Cert.algebraic_KernelIdeal_ReferenceIdeal := by
  intro m ρ m' ρ' hpre hagree
  refine ⟨fun c => Cert.KernelIdeal.PLap.kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.PLap.fold_result m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.PLap.run (F := Ideal) m' ρ')
    rw [(hagree c).1, (hagree c).2]
    obtain ⟨hreal, hrow, hcol⟩ := Cert.PLap.of_pre _ _ (hpre c)
    exact (Cert.PLap.val_eq _ _ hreal hrow hcol).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
